-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S40962x128 : Shape := ⟨2, ![40962, 128]⟩
abbrev S524288 : Shape := ⟨1, ![524288]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S40962x128 : S_.BroadcastsInDim S40962x128 (![] : Fin 0 → Fin S40962x128.rank)
  reducesTo_S40962x128_S_d0_1 : S40962x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S524288 : S_.BroadcastsInDim S524288 (![] : Fin 0 → Fin S524288.rank)
  reducesTo_S524288_S_d0 : S524288.ReducesTo [0] S_

variable [Facts]

def fn_part7 {F : FTy → Type} [FloatOps F] (main_v115 : IVec S_ 1) (main_v117 : IVec S524288 1) (main_c_47 : IVec S_ 1) : IVec S_ 1 :=
  let main_v118 : IVec S_ 1 := (fun x v => Host.reduce IntOp.andi x v reducesTo_S524288_S_d0 h_S_) main_v117 main_c_47
  let main_v119 : IVec S_ 1 := andi main_v115 main_v118
  main_v119

def fn_part6 {F : FTy → Type} [FloatOps F] (main_arg3 : IVec S524288 32) (main_arg4 : IVec S524288 32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_c_40 : IVec S_ 32 := constantI S_ 32 0#32
  let main_v104 : IVec S524288 32 := broadcastInDim S524288 ![] bcast_S_S524288 main_c_40
  let main_v105 : IVec S524288 1 := cmpi .sge main_arg3 main_v104
  let main_c_41 : IVec S_ 1 := constantI S_ 1 1#1
  let main_v106 : IVec S_ 1 := (fun x v => Host.reduce IntOp.andi x v reducesTo_S524288_S_d0 h_S_) main_v105 main_c_41
  let main_v107 : IVec S_ 1 := andi main_v103 main_v106
  let main_c_42 : IVec S_ 32 := constantI S_ 32 524288#32
  let main_v108 : IVec S524288 32 := broadcastInDim S524288 ![] bcast_S_S524288 main_c_42
  let main_v109 : IVec S524288 1 := cmpi .slt main_arg3 main_v108
  let main_c_43 : IVec S_ 1 := constantI S_ 1 1#1
  let main_v110 : IVec S_ 1 := (fun x v => Host.reduce IntOp.andi x v reducesTo_S524288_S_d0 h_S_) main_v109 main_c_43
  let main_v111 : IVec S_ 1 := andi main_v107 main_v110
  let main_c_44 : IVec S_ 32 := constantI S_ 32 0#32
  let main_v112 : IVec S524288 32 := broadcastInDim S524288 ![] bcast_S_S524288 main_c_44
  let main_v113 : IVec S524288 1 := cmpi .sge main_arg4 main_v112
  let main_c_45 : IVec S_ 1 := constantI S_ 1 1#1
  let main_v114 : IVec S_ 1 := (fun x v => Host.reduce IntOp.andi x v reducesTo_S524288_S_d0 h_S_) main_v113 main_c_45
  let main_v115 : IVec S_ 1 := andi main_v111 main_v114
  let main_c_46 : IVec S_ 32 := constantI S_ 32 40962#32
  let main_v116 : IVec S524288 32 := broadcastInDim S524288 ![] bcast_S_S524288 main_c_46
  let main_v117 : IVec S524288 1 := cmpi .slt main_arg4 main_v116
  let main_c_47 : IVec S_ 1 := constantI S_ 1 1#1
  fn_part7 (F := F) main_v115 main_v117 main_c_47

def fn_part5 {F : FTy → Type} [FloatOps F] (main_arg3 : IVec S524288 32) (main_arg4 : IVec S524288 32) (main_arg20 : FVec F S128 .f32) (main_arg21 : FVec F S128 .f32) (main_arg22 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg4 main_v98 main_v101 main_c_39

def fn_part4 {F : FTy → Type} [FloatOps F] (main_arg3 : IVec S524288 32) (main_arg4 : IVec S524288 32) (main_arg16 : FVec F S128 .f32) (main_arg17 : FVec F S256x128 .f32) (main_arg18 : FVec F S128 .f32) (main_arg19 : FVec F S128x128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg3 main_arg4 main_arg20 main_arg21 main_arg22 main_v83 main_v84 main_cst_32

def fn_part3 {F : FTy → Type} [FloatOps F] (main_arg3 : IVec S524288 32) (main_arg4 : IVec S524288 32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg16 main_arg17 main_arg18 main_arg19 main_arg20 main_arg21 main_arg22 main_v63 main_v67

def fn_part2 {F : FTy → Type} [FloatOps F] (main_arg3 : IVec S524288 32) (main_arg4 : IVec S524288 32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128 .f32) (main_arg22 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_arg15 main_arg16 main_arg17 main_arg18 main_arg19 main_arg20 main_arg21 main_arg22 main_v48 main_v49 main_v50

def fn_part1 {F : FTy → Type} [FloatOps F] (main_arg3 : IVec S524288 32) (main_arg4 : IVec S524288 32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128 .f32) (main_arg22 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_v33

def fn {F : FTy → Type} [FloatOps F] (main_arg0 : FVec F S524288x128 .f32) (main_arg1 : FVec F S524288x128 .f32) (main_arg2 : FVec F S40962x128 .f32) (main_arg3 : IVec S524288 32) (main_arg4 : IVec S524288 32) (main_arg5 : FVec F S384x128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128 .f32) (main_arg22 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S40962x128 .f32 := Host.absf main_arg2
  let main_cst_2 : FVec F S_ .f32 := constant S_ .f32 0x7F800000#32
  let main_v10 : FVec F S40962x128 .f32 := broadcastInDim S40962x128 ![] bcast_S_S40962x128 main_cst_2
  let main_v11 : IVec S40962x128 1 := cmpf .olt main_v9 main_v10
  let main_c_3 : IVec S_ 1 := constantI S_ 1 1#1
  let main_v12 : IVec S_ 1 := (fun x v => Host.reduce IntOp.andi x v reducesTo_S40962x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S524288x128 : Shape := ⟨2, ![524288, 128]⟩
abbrev S40962x128 : Shape := ⟨2, ![40962, 128]⟩
abbrev S524288 : Shape := ⟨1, ![524288]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S1x128 : Shape := ⟨2, ![1, 128]⟩
abbrev S8192x128 : Shape := ⟨2, ![8192, 128]⟩
abbrev S8192x384 : Shape := ⟨2, ![8192, 384]⟩
abbrev S8192 : Shape := ⟨1, ![8192]⟩
abbrev S8192x1 : Shape := ⟨2, ![8192, 1]⟩
abbrev S41984x128 : Shape := ⟨2, ![41984, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 101
  | .vmem => 36
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S40962x128, .f32⟩
  | .hbm, ⟨3, _⟩ => ⟨S524288, .i32⟩
  | .hbm, ⟨4, _⟩ => ⟨S524288, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S256x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S1, .i32⟩
  | .hbm, ⟨32, _⟩ => ⟨S_, .i32⟩
  | .hbm, ⟨33, _⟩ => ⟨S524288x1, .i32⟩
  | .hbm, ⟨34, _⟩ => ⟨S524288x1, .i1⟩
  | .hbm, ⟨35, _⟩ => ⟨S1x1, .i32⟩
  | .hbm, ⟨36, _⟩ => ⟨S524288x1, .i32⟩
  | .hbm, ⟨37, _⟩ => ⟨S524288x1, .i1⟩
  | .hbm, ⟨38, _⟩ => ⟨S524288x1, .i1⟩
  | .hbm, ⟨39, _⟩ => ⟨S_, .i1⟩
  | .hbm, ⟨40, _⟩ => ⟨S524288, .i1⟩
  | .hbm, ⟨41, _⟩ => ⟨S524288x128, .f32⟩
  | .hbm, ⟨42, _⟩ => ⟨S524288x128, .i1⟩
  | .hbm, ⟨43, _⟩ => ⟨S_, .f32⟩
  | .hbm, ⟨44, _⟩ => ⟨S524288x128, .f32⟩
  | .hbm, ⟨45, _⟩ => ⟨S524288x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S1, .i32⟩
  | .hbm, ⟨55, _⟩ => ⟨S_, .i32⟩
  | .hbm, ⟨56, _⟩ => ⟨S524288x1, .i32⟩
  | .hbm, ⟨57, _⟩ => ⟨S524288x1, .i1⟩
  | .hbm, ⟨58, _⟩ => ⟨S1x1, .i32⟩
  | .hbm, ⟨59, _⟩ => ⟨S524288x1, .i32⟩
  | .hbm, ⟨60, _⟩ => ⟨S524288x1, .i1⟩
  | .hbm, ⟨61, _⟩ => ⟨S524288x1, .i1⟩
  | .hbm, ⟨62, _⟩ => ⟨S_, .i1⟩
  | .hbm, ⟨63, _⟩ => ⟨S524288, .i1⟩
  | .hbm, ⟨64, _⟩ => ⟨S524288x128, .f32⟩
  | .hbm, ⟨65, _⟩ => ⟨S524288x128, .i1⟩
  | .hbm, ⟨66, _⟩ => ⟨S_, .f32⟩
  | .hbm, ⟨67, _⟩ => ⟨S524288x128, .f32⟩
  | .hbm, ⟨68, _⟩ => ⟨S524288x128, .f32⟩
  | .hbm, ⟨69, _⟩ => ⟨S384x128, .bf16⟩
  | .hbm, ⟨70, _⟩ => ⟨S128x128, .bf16⟩
  | .hbm, ⟨71, _⟩ => ⟨S128x128, .bf16⟩
  | .hbm, ⟨72, _⟩ => ⟨S128x128, .bf16⟩
  | .hbm, ⟨73, _⟩ => ⟨S256x128, .bf16⟩
  | .hbm, ⟨74, _⟩ => ⟨S128x128, .bf16⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S524288x128, .f32⟩
  | .hbm, ⟨80, _⟩ => ⟨S_, .f32⟩
  | .hbm, ⟨81, _⟩ => ⟨S40962x128, .f32⟩
  | .hbm, ⟨82, _⟩ => ⟨S524288x1, .i32⟩
  | .hbm, ⟨83, _⟩ => ⟨S40962x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S524288x128, .f32⟩
  | .hbm, ⟨89, _⟩ => ⟨S_, .i32⟩
  | .hbm, ⟨90, _⟩ => ⟨S_, .f32⟩
  | .hbm, ⟨91, _⟩ => ⟨S41984x128, .f32⟩
  | .hbm, ⟨92, _⟩ => ⟨S_, .i32⟩
  | .hbm, ⟨93, _⟩ => ⟨S_, .f32⟩
  | .hbm, ⟨94, _⟩ => ⟨S41984x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S41984x128, .f32⟩
  | .hbm, ⟨100, _⟩ => ⟨S40962x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S384x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S8192x128, .f32⟩
  | .local _ .vmem, ⟨23, _⟩ => ⟨S8192x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S256x128, .bf16⟩
  | .local _ .vmem, ⟨29, _⟩ => ⟨S1x128, .f32⟩
  | .local _ .vmem, ⟨30, _⟩ => ⟨S128x128, .bf16⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1024x128, .f32⟩
  | .local _ .vmem, ⟨35, _⟩ => ⟨S1024x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v0 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v1 : Ref sig .tc := ⟨.hbm, 68, rfl⟩
abbrev main_v2 : Ref sig .tc := ⟨.hbm, 69, rfl⟩
abbrev main_v3 : Ref sig .tc := ⟨.hbm, 70, rfl⟩
abbrev main_v4 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_cst : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_c : Ref sig .tc := ⟨.hbm, 89, rfl⟩
abbrev main_call2_v0 : Ref sig .tc := ⟨.hbm, 90, rfl⟩
abbrev main_v21 : Ref sig .tc := ⟨.hbm, 91, rfl⟩
abbrev main_c_0 : Ref sig .tc := ⟨.hbm, 92, rfl⟩
abbrev main_call3_v0 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![41], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  bitsLt_bf16_f32 : FTy.bits .bf16 < FTy.bits .f32
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  concatenates_S8192x128_S8192x128_S8192x128_S8192x384_d1 : Shape.Concatenates [S8192x128, S8192x128, S8192x128] S8192x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S8192 : S8192x128.Reduces [1] S8192
  shapeCasts_S8192_S8192x1 : S8192.ShapeCasts S8192x1
  broadcasts_S8192x1_S8192x128 : S8192x1.Broadcasts S8192x128
  bcast_S_S40962x128 : S_.BroadcastsInDim S40962x128 (![] : Fin 0 → Fin S40962x128.rank)
  pads_S40962x128_S41984x128_010220_000 : S40962x128.Pads (![0, 0] : Fin 2 → Nat) ![1022, 0] ![0, 0] S41984x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x256_d1 : Shape.Concatenates [S1024x128, S1024x128] S1024x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  slices_S41984x128_S40962x128_0_0 : S41984x128.Slices ![0, 0] S40962x128
  gather_S524288x128_S524288x1_S524288x128_1_0_n_n_0_1_1128_wf : GatherDims.WF S524288x128 S524288x1 S524288x128 [1] [0] [] [0] [] 1 ![1, 128]
  gather_S40962x128_S524288x1_S524288x128_1_0_n_n_0_1_1128_wf : GatherDims.WF S40962x128 S524288x1 S524288x128 [1] [0] [] [0] [] 1 ![1, 128]
  dot_S8192x384_S384x128_S8192x128_1_0_0_1_n_n_wf : DotDims.WF S8192x384 S384x128 S8192x128 [1] [0] [0] [1] [] []
  dot_S8192x128_S128x128_S8192x128_1_0_0_1_n_n_wf : DotDims.WF S8192x128 S128x128 S8192x128 [1] [0] [0] [1] [] []
  scatter_S40962x128_S524288x1_S524288x128_1_0_0_1_wf : ScatterDims.WF S40962x128 S524288x1 S524288x128 [1] [0] [0] 1
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S524288x128.size a
  hwx0_9 : ∀ i : grid0.Coords, EltTy.bits .f32 = 32 ∨ (Rect.block (s := S524288x128) S8192x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x128.size a ≤ S524288x128.size a
  hwx1_7 : ∀ i : grid1.Coords, EltTy.bits .f32 = 32 ∨ (Rect.block (s := S524288x128) S8192x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S41984x128.size a
  hwx2_0 : ∀ i : grid2.Coords, EltTy.bits .f32 = 32 ∨ (Rect.block (s := S41984x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S41984x128.size a
  hwx2_1 : ∀ i : grid2.Coords, EltTy.bits .f32 = 32 ∨ (Rect.block (s := S41984x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S41984x128.size a
  hwx2_8 : ∀ i : grid2.Coords, EltTy.bits .f32 = 32 ∨ (Rect.block (s := S41984x128) S1024x128.size (cc2_transform_8 i) (hinb2_8 i)).WholeWords (EltTy.packing .f32)

variable [Facts₀]

def gather_S524288x128_S524288x1_S524288x128_1_0_n_n_0_1_1128 : GatherDims S524288x128 S524288x1 S524288x128 where
  offsetDims := [1]
  collapsedSliceDims := [0]
  operandBatchingDims := []
  startIndicesBatchingDims := []
  startIndexMap := [0]
  indexVectorDim := 1
  sliceSizes := ![1, 128]
  wf := gather_S524288x128_S524288x1_S524288x128_1_0_n_n_0_1_1128_wf
def gather_S40962x128_S524288x1_S524288x128_1_0_n_n_0_1_1128 : GatherDims S40962x128 S524288x1 S524288x128 where
  offsetDims := [1]
  collapsedSliceDims := [0]
  operandBatchingDims := []
  startIndicesBatchingDims := []
  startIndexMap := [0]
  indexVectorDim := 1
  sliceSizes := ![1, 128]
  wf := gather_S40962x128_S524288x1_S524288x128_1_0_n_n_0_1_1128_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S40962x128_S524288x1_S524288x128_1_0_0_1 : ScatterDims S40962x128 S524288x1 S524288x128 where
  updateWindowDims := [1]
  insertedWindowDims := [0]
  scatterDimsToOperandDims := [0]
  indexVectorDim := 1
  wf := scatter_S40962x128_S524288x1_S524288x128_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S8192x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S8192x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S1024x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S524288x128 : Shape := ⟨2, ![524288, 128]⟩
abbrev S40962x128 : Shape := ⟨2, ![40962, 128]⟩
abbrev S524288 : Shape := ⟨1, ![524288]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S524288x1 : Shape := ⟨2, ![524288, 1]⟩
abbrev S524288x384 : Shape := ⟨2, ![524288, 384]⟩
abbrev S1x128 : Shape := ⟨2, ![1, 128]⟩
abbrev S40962x256 : Shape := ⟨2, ![40962, 256]⟩
abbrev S40962 : Shape := ⟨1, ![40962]⟩
abbrev S40962x1 : Shape := ⟨2, ![40962, 1]⟩

abbrev nBuf : Space → Nat
  | .hbm => 187
  | .vmem => 0
  | .smem => 0
  | _ => 0

abbrev hbmTy0_0 (i : Nat) : BufTy := match i % 128 with
  | 0 => ⟨S524288x128, .f32⟩
  | 1 => ⟨S524288x128, .f32⟩
  | 2 => ⟨S40962x128, .f32⟩
  | 3 => ⟨S524288, .i32⟩
  | 4 => ⟨S524288, .i32⟩
  | 5 => ⟨S384x128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S256x128, .f32⟩
  | 18 => ⟨S128, .f32⟩
  | 19 => ⟨S128x128, .f32⟩
  | 20 => ⟨S128, .f32⟩
  | 21 => ⟨S128, .f32⟩
  | 22 => ⟨S128, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x128, .f32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288x128, .f32⟩
  | 41 => ⟨S524288x384, .f32⟩
  | 42 => ⟨S524288x128, .f32⟩
  | 43 => ⟨S1x128, .f32⟩
  | 44 => ⟨S524288x128, .f32⟩
  | 45 => ⟨S524288x128, .f32⟩
  | 46 => ⟨S524288x128, .f32⟩
  | 47 => ⟨S524288x128, .f32⟩
  | 48 => ⟨S_, .f32⟩
  | 49 => ⟨S524288x128, .f32⟩
  | 50 => ⟨S524288x128, .f32⟩
  | 51 => ⟨S_, .f32⟩
  | 52 => ⟨S524288x128, .f32⟩
  | 53 => ⟨S524288x128, .f32⟩
  | 54 => ⟨S524288x128, .f32⟩
  | 55 => ⟨S524288x128, .f32⟩
  | 56 => ⟨S1x128, .f32⟩
  | 57 => ⟨S524288x128, .f32⟩
  | 58 => ⟨S524288x128, .f32⟩
  | 59 => ⟨S_, .f32⟩
  | 60 => ⟨S524288, .f32⟩
  | 61 => ⟨S524288x1, .f32⟩
  | 62 => ⟨S_, .f32⟩
  | 63 => ⟨S524288x1, .f32⟩
  | 64 => ⟨S524288x1, .f32⟩
  | 65 => ⟨S524288x128, .f32⟩
  | 66 => ⟨S524288x128, .f32⟩
  | 67 => ⟨S524288x128, .f32⟩
  | 68 => ⟨S_, .f32⟩
  | 69 => ⟨S524288, .f32⟩
  | 70 => ⟨S524288x1, .f32⟩
  | 71 => ⟨S_, .f32⟩
  | 72 => ⟨S524288x1, .f32⟩
  | 73 => ⟨S524288x1, .f32⟩
  | 74 => ⟨S524288x128, .f32⟩
  | 75 => ⟨S524288x128, .f32⟩
  | 76 => ⟨S_, .f32⟩
  | 77 => ⟨S524288x1, .f32⟩
  | 78 => ⟨S524288x1, .f32⟩
  | 79 => ⟨S524288x1, .f32⟩
  | 80 => ⟨S524288x128, .f32⟩
  | 81 => ⟨S524288x128, .f32⟩
  | 82 => ⟨S1x128, .f32⟩
  | 83 => ⟨S524288x128, .f32⟩
  | 84 => ⟨S524288x128, .f32⟩
  | 85 => ⟨S1x128, .f32⟩
  | 86 => ⟨S524288x128, .f32⟩
  | 87 => ⟨S524288x128, .f32⟩
  | 88 => ⟨S_, .f32⟩
  | 89 => ⟨S40962x128, .f32⟩
  | 90 => ⟨S524288x1, .i32⟩
  | 91 => ⟨S40962x128, .f32⟩
  | 92 => ⟨S40962x256, .f32⟩
  | 93 => ⟨S40962x128, .f32⟩
  | 94 => ⟨S1x128, .f32⟩
  | 95 => ⟨S40962x128, .f32⟩
  | 96 => ⟨S40962x128, .f32⟩
  | 97 => ⟨S40962x128, .f32⟩
  | 98 => ⟨S40962x128, .f32⟩
  | 99 => ⟨S_, .f32⟩
  | 100 => ⟨S40962x128, .f32⟩
  | 101 => ⟨S40962x128, .f32⟩
  | 102 => ⟨S_, .f32⟩
  | 103 => ⟨S40962x128, .f32⟩
  | 104 => ⟨S40962x128, .f32⟩
  | 105 => ⟨S40962x128, .f32⟩
  | 106 => ⟨S40962x128, .f32⟩
  | 107 => ⟨S1x128, .f32⟩
  | 108 => ⟨S40962x128, .f32⟩
  | 109 => ⟨S40962x128, .f32⟩
  | 110 => ⟨S_, .f32⟩
  | 111 => ⟨S40962, .f32⟩
  | 112 => ⟨S40962x1, .f32⟩
  | 113 => ⟨S_, .f32⟩
  | 114 => ⟨S40962x1, .f32⟩
  | 115 => ⟨S40962x1, .f32⟩
  | 116 => ⟨S40962x128, .f32⟩
  | 117 => ⟨S40962x128, .f32⟩
  | 118 => ⟨S40962x128, .f32⟩
  | 119 => ⟨S_, .f32⟩
  | 120 => ⟨S40962, .f32⟩
  | 121 => ⟨S40962x1, .f32⟩
  | 122 => ⟨S_, .f32⟩
  | 123 => ⟨S40962x1, .f32⟩
  | 124 => ⟨S40962x1, .f32⟩
  | 125 => ⟨S40962x128, .f32⟩
  | 126 => ⟨S40962x128, .f32⟩
  | 127 => ⟨S_, .f32⟩
  | _ => ⟨S524288x128, .f32⟩

abbrev hbmTy0_1 (i : Nat) : BufTy := match i % 128 with
  | 0 => ⟨S40962x1, .f32⟩
  | 1 => ⟨S40962x1, .f32⟩
  | 2 => ⟨S40962x1, .f32⟩
  | 3 => ⟨S40962x128, .f32⟩
  | 4 => ⟨S40962x128, .f32⟩
  | 5 => ⟨S1x128, .f32⟩
  | 6 => ⟨S40962x128, .f32⟩
  | 7 => ⟨S40962x128, .f32⟩
  | 8 => ⟨S1x128, .f32⟩
  | 9 => ⟨S40962x128, .f32⟩
  | 10 => ⟨S40962x128, .f32⟩
  | 11 => ⟨S40962x128, .f32⟩
  | 12 => ⟨S524288x128, .f32⟩
  | 13 => ⟨S1x128, .f32⟩
  | 14 => ⟨S524288x128, .f32⟩
  | 15 => ⟨S524288x128, .f32⟩
  | 16 => ⟨S524288x128, .f32⟩
  | 17 => ⟨S524288x128, .f32⟩
  | 18 => ⟨S_, .f32⟩
  | 19 => ⟨S524288x128, .f32⟩
  | 20 => ⟨S524288x128, .f32⟩
  | 21 => ⟨S_, .f32⟩
  | 22 => ⟨S524288x128, .f32⟩
  | 23 => ⟨S524288x128, .f32⟩
  | 24 => ⟨S524288x128, .f32⟩
  | 25 => ⟨S524288x128, .f32⟩
  | 26 => ⟨S1x128, .f32⟩
  | 27 => ⟨S524288x128, .f32⟩
  | 28 => ⟨S524288x128, .f32⟩
  | 29 => ⟨S_, .f32⟩
  | 30 => ⟨S524288, .f32⟩
  | 31 => ⟨S524288x1, .f32⟩
  | 32 => ⟨S_, .f32⟩
  | 33 => ⟨S524288x1, .f32⟩
  | 34 => ⟨S524288x1, .f32⟩
  | 35 => ⟨S524288x128, .f32⟩
  | 36 => ⟨S524288x128, .f32⟩
  | 37 => ⟨S524288x128, .f32⟩
  | 38 => ⟨S_, .f32⟩
  | 39 => ⟨S524288, .f32⟩
  | 40 => ⟨S524288x1, .f32⟩
  | 41 => ⟨S_, .f32⟩
  | 42 => ⟨S524288x1, .f32⟩
  | 43 => ⟨S524288x1, .f32⟩
  | 44 => ⟨S524288x128, .f32⟩
  | 45 => ⟨S524288x128, .f32⟩
  | 46 => ⟨S_, .f32⟩
  | 47 => ⟨S524288x1, .f32⟩
  | 48 => ⟨S524288x1, .f32⟩
  | 49 => ⟨S524288x1, .f32⟩
  | 50 => ⟨S524288x128, .f32⟩
  | 51 => ⟨S524288x128, .f32⟩
  | 52 => ⟨S1x128, .f32⟩
  | 53 => ⟨S524288x128, .f32⟩
  | 54 => ⟨S524288x128, .f32⟩
  | 55 => ⟨S1x128, .f32⟩
  | 56 => ⟨S524288x128, .f32⟩
  | 57 => ⟨S524288x128, .f32⟩
  | 58 => ⟨S524288x128, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst : Ref sig .tc := ⟨.hbm, 59, rfl⟩
abbrev main_v24 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_7 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_8 : Ref sig .tc := ⟨.hbm, 110, rfl⟩
abbrev main_v61 : Ref sig .tc := ⟨.hbm, 111, rfl⟩
abbrev main_v62 : Ref sig .tc := ⟨.hbm, 112, rfl⟩
abbrev main_cst_9 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_10 : Ref sig .tc := ⟨.hbm, 119, rfl⟩
abbrev main_v68 : Ref sig .tc := ⟨.hbm, 120, rfl⟩
abbrev main_v69 : Ref sig .tc := ⟨.hbm, 121, rfl⟩
abbrev main_cst_11 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_12 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_13 : Ref sig .tc := ⟨.hbm, 157, rfl⟩
abbrev main_v95 : Ref sig .tc := ⟨.hbm, 158, rfl⟩
abbrev main_v96 : Ref sig .tc := ⟨.hbm, 159, rfl⟩
abbrev main_cst_14 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_15 : Ref sig .tc := ⟨.hbm, 166, rfl⟩
abbrev main_v102 : Ref sig .tc := ⟨.hbm, 167, rfl⟩
abbrev main_v103 : Ref sig .tc := ⟨.hbm, 168, rfl⟩
abbrev main_cst_16 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_17 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x128_S524288x384_d1 : Shape.Concatenates [S524288x128, S524288x128, S524288x128] S524288x384 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  reducesTo_S524288x128_S524288_d1 : S524288x128.ReducesTo [1] S524288
  h_S_ : 0 < S_.numel
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S40962x128 : S_.BroadcastsInDim S40962x128 (![] : Fin 0 → Fin S40962x128.rank)
  concatenates_S40962x128_S40962x128_S40962x256_d1 : Shape.Concatenates [S40962x128, S40962x128] S40962x256 1
  bcast_S1x128_S40962x128_0_1 : S1x128.BroadcastsInDim S40962x128 (![0, 1] : Fin 2 → Fin S40962x128.rank)
  reducesTo_S40962x128_S40962_d1 : S40962x128.ReducesTo [1] S40962
  bcast_S40962_S40962x1_0 : S40962.BroadcastsInDim S40962x1 (![0] : Fin 1 → Fin S40962x1.rank)
  bcast_S_S40962x1 : S_.BroadcastsInDim S40962x1 (![] : Fin 0 → Fin S40962x1.rank)
  bcast_S40962x1_S40962x128_0_1 : S40962x1.BroadcastsInDim S40962x128 (![0, 1] : Fin 2 → Fin S40962x128.rank)
  gather_S524288x128_S524288x1_S524288x128_1_0_n_n_0_1_1128_wf : GatherDims.WF S524288x128 S524288x1 S524288x128 [1] [0] [] [0] [] 1 ![1, 128]
  gather_S40962x128_S524288x1_S524288x128_1_0_n_n_0_1_1128_wf : GatherDims.WF S40962x128 S524288x1 S524288x128 [1] [0] [] [0] [] 1 ![1, 128]
  dot_S524288x384_S384x128_S524288x128_1_0_0_1_n_n_wf : DotDims.WF S524288x384 S384x128 S524288x128 [1] [0] [0] [1] [] []
  dot_S524288x128_S128x128_S524288x128_1_0_0_1_n_n_wf : DotDims.WF S524288x128 S128x128 S524288x128 [1] [0] [0] [1] [] []
  scatter_S40962x128_S524288x1_S524288x128_1_0_0_1_wf : ScatterDims.WF S40962x128 S524288x1 S524288x128 [1] [0] [0] 1
  dot_S40962x256_S256x128_S40962x128_1_0_0_1_n_n_wf : DotDims.WF S40962x256 S256x128 S40962x128 [1] [0] [0] [1] [] []
  dot_S40962x128_S128x128_S40962x128_1_0_0_1_n_n_wf : DotDims.WF S40962x128 S128x128 S40962x128 [1] [0] [0] [1] [] []

variable [Facts₀]

def gather_S524288x128_S524288x1_S524288x128_1_0_n_n_0_1_1128 : GatherDims S524288x128 S524288x1 S524288x128 where
  offsetDims := [1]
  collapsedSliceDims := [0]
  operandBatchingDims := []
  startIndicesBatchingDims := []
  startIndexMap := [0]
  indexVectorDim := 1
  sliceSizes := ![1, 128]
  wf := gather_S524288x128_S524288x1_S524288x128_1_0_n_n_0_1_1128_wf
def gather_S40962x128_S524288x1_S524288x128_1_0_n_n_0_1_1128 : GatherDims S40962x128 S524288x1 S524288x128 where
  offsetDims := [1]
  collapsedSliceDims := [0]
  operandBatchingDims := []
  startIndicesBatchingDims := []
  startIndexMap := [0]
  indexVectorDim := 1
  sliceSizes := ![1, 128]
  wf := gather_S40962x128_S524288x1_S524288x128_1_0_n_n_0_1_1128_wf
def dot_S524288x384_S384x128_S524288x128_1_0_0_1_n_n : DotDims S524288x384 S384x128 S524288x128 where
  lhsContracting := [1]
  rhsContracting := [0]
  lhsNonContracting := [0]
  rhsNonContracting := [1]
  lhsBatch := []
  rhsBatch := []
  wf := dot_S524288x384_S384x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S40962x128_S524288x1_S524288x128_1_0_0_1 : ScatterDims S40962x128 S524288x1 S524288x128 where
  updateWindowDims := [1]
  insertedWindowDims := [0]
  scatterDimsToOperandDims := [0]
  indexVectorDim := 1
  wf := scatter_S40962x128_S524288x1_S524288x128_1_0_0_1_wf
def dot_S40962x256_S256x128_S40962x128_1_0_0_1_n_n : DotDims S40962x256 S256x128 S40962x128 where
  lhsContracting := [1]
  rhsContracting := [0]
  lhsNonContracting := [0]
  rhsNonContracting := [1]
  lhsBatch := []
  rhsBatch := []
  wf := dot_S40962x256_S256x128_S40962x128_1_0_0_1_n_n_wf
def dot_S40962x128_S128x128_S40962x128_1_0_0_1_n_n : DotDims S40962x128 S128x128 S40962x128 where
  lhsContracting := [1]
  rhsContracting := [0]
  lhsNonContracting := [0]
  rhsNonContracting := [1]
  lhsBatch := []
  rhsBatch := []
  wf := dot_S40962x128_S128x128_S40962x128_1_0_0_1_n_n_wf

class Facts : Prop extends Facts₀ where

variable [Facts]
-- ==== Proof.LibNary3.lean ====
/-
  A result lemma for an operation over a literal family of THREE references (a three-operand concatenation), in the
  shape of the library's lemma for four references: the operation's result is its function applied to the three
  operands' contents, each read at its own reference. The three contents are kept as separate arguments of a small
  definition, at their own references' types, so that a simplification pass can go on rewriting them; unfolding the
  definition afterwards puts them back into the family the function expects.
-/
import Idealize.ShloMosaic.Lib.StableHlo.Run

noncomputable section

namespace Idealize.ShloMosaic.StableHlo

section Nary3

variable {nD : Nat} {τ : Topo} {sig : RefSig} {Val : EltTy → Type}
variable {x a b y : Ref sig .tc}

/-- A function of a three-entry family of contents, applied to the three entries given one by one, each at its own
    reference's type. -/
def nary3Apply
    (f : ((k : Fin 3) → ((![x, a, b] : Fin 3 → Ref sig .tc) k).ty.Contents Val) → y.ty.Contents Val)
    (A : BufTy.Contents Val (Proc.devRef (τ := τ) .tc x).ty) (B : BufTy.Contents Val (Proc.devRef (τ := τ) .tc a).ty)
    (C : BufTy.Contents Val (Proc.devRef (τ := τ) .tc b).ty) : y.ty.Contents Val :=
  f (Fin.cons A (Fin.cons B (Fin.cons C (fun i => i.elim0))))

/-- An operation over a LITERAL family of three references (a three-operand concatenation): its result is its function
    applied to the three operands' contents, each read AT ITS OWN REFERENCE, so that those contents can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = nary3Apply (τ := τ) f (F (Proc.devRef .tc x)) (F (Proc.devRef .tc a)) (F (Proc.devRef .tc b)) := by
  rw [nary_result]; unfold nary3Apply; congr 1; funext k; fin_cases k <;> rfl

/-- The same, with the result reference un-indexed, for one `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Apply (τ := τ) f (F (Proc.devRef .tc x)) (F (Proc.devRef .tc a)) (F (Proc.devRef .tc b)) :=
  nary3_result f hxs hy F

end Nary3

/-- The results by one `simp` pass, with the three-reference lemma in place of the general one. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibSsaFold.lean ====
/-
  A straight line of operations in single-assignment order, read at the buffers it writes.

  Rank each device buffer by its index in its table. A line is in single-assignment order from a bound when each
  operation in turn writes only buffers of one rank at or above the bound, decides what it writes from buffers of
  strictly smaller rank, and the rest of the line is in single-assignment order from just above that rank. Then no
  operation writes a buffer an earlier one read or wrote, so: a buffer ranked below the bound ends as it began
  (`SsaFrom.unwritten`), and what the whole line leaves is a fixed point of every operation of it — at each buffer an
  operation writes, the final contents are that operation's result computed from the FINAL contents (`SsaFrom.fixed`).
  The fixed-point equations are one per operation: they read a result buffer as its operation's function of the final
  contents of its operands, which are read the same way in turn, each buffer once however many operations consume it.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- What the operation leaves at the buffers it writes is decided by the contents of the buffers `R`. -/
def ReadsOnly (op : HloOp τ sig Val) (R : Finset (DevRef τ sig)) : Prop :=
  ∀ F G : Valuation τ sig Val, (∀ b ∈ R, F b = G b) → ∀ w ∈ op.writes, op.result F w = op.result G w

/-- A line in single-assignment order from the bound `lo`, buffers ranked by their index. -/
inductive SsaFrom : ℕ → List (HloOp τ sig Val) → Prop
  | nil (lo : ℕ) : SsaFrom lo []
  | cons {lo k : ℕ} {op : HloOp τ sig Val} {ops : List (HloOp τ sig Val)} (R : Finset (DevRef τ sig))
      (hk : lo ≤ k) (hR : ∀ b ∈ R, b.idx.val < k) (hw : ∀ w ∈ op.writes, w.idx.val = k) (hro : ReadsOnly op R)
      (h : SsaFrom (k + 1) ops) : SsaFrom lo (op :: ops)

/-- A buffer ranked below the bound is written by no operation of the line. -/
theorem SsaFrom.unwritten : ∀ {lo : ℕ} {ops : List (HloOp τ sig Val)}, SsaFrom lo ops →
    ∀ (V : Valuation τ sig Val) (b : DevRef τ sig), b.idx.val < lo → after ops V b = V b
  | _, _, .nil _, _, _, _ => rfl
  | _, _, .cons R hk hR hw hro h, V, b, hb => by
    rw [after_cons, h.unwritten _ b (by omega), HloOp.result_of_not_mem]
    intro hmem
    have := hw b hmem
    omega

/-- What the line leaves is a fixed point of each of its operations at the buffers that operation writes. -/
theorem SsaFrom.fixed : ∀ {lo : ℕ} {ops : List (HloOp τ sig Val)}, SsaFrom lo ops →
    ∀ V : Valuation τ sig Val, ops.Forall fun op => ∀ w ∈ op.writes, after ops V w = op.result (after ops V) w
  | _, _, .nil _, _ => trivial
  | _, _, .cons (op := op) (ops := ops) R hk hR hw hro h, V => by
    rw [List.forall_cons]
    refine ⟨fun w hwm => ?_, h.fixed (op.result V)⟩
    show after ops (op.result V) w = op.result (after ops (op.result V)) w
    rw [h.unwritten _ w (by have := hw w hwm; omega)]
    refine hro _ _ (fun b hb => ?_) w hwm
    rw [h.unwritten _ b (by have := hR b hb; omega), HloOp.result_of_not_mem]
    intro hmem
    have h1 := hw b hmem
    have h2 := hR b hb
    omega

/-! ## The builders' operations, one step of the order each -/

section Builders

variable (x a b c y : Ref sig .tc)

theorem SsaFrom.nullary {lo : ℕ} {ops : List (HloOp τ sig Val)} (v : y.ty.Contents Val) (hy)
    (h0 : lo ≤ y.idx.val) (h : SsaFrom (y.idx.val + 1) ops) : SsaFrom lo (StableHlo.nullary (τ := τ) y v hy :: ops) :=
  .cons ∅ h0 (fun _ hb => absurd hb (Finset.notMem_empty _))
    (fun w hw => by rw [nullary_writes, Finset.mem_singleton] at hw; rw [hw])
    (fun F G _ w hw => by
      rw [nullary_writes, Finset.mem_singleton] at hw; subst hw; rw [nullary_result, nullary_result]) h

theorem SsaFrom.unary {lo : ℕ} {ops : List (HloOp τ sig Val)} (f : x.ty.Contents Val → y.ty.Contents Val) (hx hy)
    (h0 : lo ≤ y.idx.val) (h1 : x.idx.val < y.idx.val) (h : SsaFrom (y.idx.val + 1) ops) :
    SsaFrom lo (StableHlo.unary (τ := τ) x y f hx hy :: ops) :=
  .cons {Proc.devRef .tc x} h0 (fun r hr => by rw [Finset.mem_singleton] at hr; rw [hr]; exact h1)
    (fun w hw => by rw [unary_writes, Finset.mem_singleton] at hw; rw [hw])
    (fun F G e w hw => by
      rw [unary_writes, Finset.mem_singleton] at hw; subst hw
      rw [unary_result, unary_result, e _ (Finset.mem_singleton_self _)]) h

theorem SsaFrom.binary {lo : ℕ} {ops : List (HloOp τ sig Val)}
    (f : a.ty.Contents Val → b.ty.Contents Val → y.ty.Contents Val) (ha hb hy)
    (h0 : lo ≤ y.idx.val) (h1 : a.idx.val < y.idx.val) (h2 : b.idx.val < y.idx.val) (h : SsaFrom (y.idx.val + 1) ops) :
    SsaFrom lo (StableHlo.binary (τ := τ) a b y f ha hb hy :: ops) :=
  .cons {Proc.devRef .tc a, Proc.devRef .tc b} h0
    (fun r hr => by
      rw [Finset.mem_insert, Finset.mem_singleton] at hr
      rcases hr with hr | hr <;> rw [hr] <;> assumption)
    (fun w hw => by rw [binary_writes, Finset.mem_singleton] at hw; rw [hw])
    (fun F G e w hw => by
      rw [binary_writes, Finset.mem_singleton] at hw; subst hw
      rw [binary_result, binary_result, e _ (Finset.mem_insert_self _ _),
        e _ (Finset.mem_insert_of_mem (Finset.mem_singleton_self _))]) h

theorem SsaFrom.ternary {lo : ℕ} {ops : List (HloOp τ sig Val)}
    (f : c.ty.Contents Val → a.ty.Contents Val → b.ty.Contents Val → y.ty.Contents Val) (hc ha hb hy)
    (h0 : lo ≤ y.idx.val) (h1 : c.idx.val < y.idx.val) (h2 : a.idx.val < y.idx.val) (h3 : b.idx.val < y.idx.val)
    (h : SsaFrom (y.idx.val + 1) ops) :
    SsaFrom lo (StableHlo.ternary (τ := τ) c a b y f hc ha hb hy :: ops) :=
  .cons {Proc.devRef .tc c, Proc.devRef .tc a, Proc.devRef .tc b} h0
    (fun r hr => by
      rw [Finset.mem_insert, Finset.mem_insert, Finset.mem_singleton] at hr
      rcases hr with hr | hr | hr <;> rw [hr] <;> assumption)
    (fun w hw => by rw [ternary_writes, Finset.mem_singleton] at hw; rw [hw])
    (fun F G e w hw => by
      rw [ternary_writes, Finset.mem_singleton] at hw; subst hw
      rw [ternary_result, ternary_result, e _ (Finset.mem_insert_self _ _),
        e _ (Finset.mem_insert_of_mem (Finset.mem_insert_self _ _)),
        e _ (Finset.mem_insert_of_mem (Finset.mem_insert_of_mem (Finset.mem_singleton_self _)))]) h

theorem SsaFrom.nary {lo : ℕ} {ops : List (HloOp τ sig Val)} {n : ℕ} (xs : Fin n → Ref sig .tc)
    (f : ((k : Fin n) → (xs k).ty.Contents Val) → y.ty.Contents Val) (hxs hy)
    (h0 : lo ≤ y.idx.val) (h1 : ∀ k, (xs k).idx.val < y.idx.val) (h : SsaFrom (y.idx.val + 1) ops) :
    SsaFrom lo (StableHlo.nary (τ := τ) xs y f hxs hy :: ops) :=
  .cons (Finset.univ.image fun k => Proc.devRef .tc (xs k)) h0
    (fun r hr => by
      obtain ⟨k, -, rfl⟩ := Finset.mem_image.mp hr
      exact h1 k)
    (fun w hw => by rw [nary_writes, Finset.mem_singleton] at hw; rw [hw])
    (fun F G e w hw => by
      rw [nary_writes, Finset.mem_singleton] at hw; subst hw
      rw [nary_result, nary_result]
      exact congrArg f (funext fun k => e _ (Finset.mem_image_of_mem _ (Finset.mem_univ k)))) h

end Builders

/-! ## A two-operand result kept applied

A rewriting pass beta-reduces `f (F a) (F b)` when `f` is a lambda; where the lambda's body places an operand inside a
dependent pair (a concatenation's list of pieces), the pass can then no longer rewrite that operand. Stated through
`applied2` the operands stay arguments of an application, so they can be rewritten; unfolding `applied2` gives back
`f (F a) (F b)`. -/

/-- `f a b`, as an application that a rewriting pass does not beta-reduce. -/
def applied2 {α β γ : Type} (f : α → β → γ) (a : α) (b : β) : γ := f a b

theorem binary_result_applied (a b y : Ref sig .tc) (f : a.ty.Contents Val → b.ty.Contents Val → y.ty.Contents Val)
    (ha hb hy) (F : Valuation τ sig Val) :
    (StableHlo.binary (τ := τ) a b y f ha hb hy).result F (no_index (Proc.devRef .tc y))
      = applied2 f (F (Proc.devRef .tc a)) (F (Proc.devRef .tc b)) := binary_result a b y f ha hb hy F

end Cert.Lib

end
-- ==== Proof.RefRunHand.lean ====
/-
  The run of the reference program, read at its stages.

  The reference's @main is a straight line of 164 operations in single-assignment order: ranking each buffer by its
  index, the arguments hold ranks 0 to 22 and each operation writes the next rank, reading only smaller ones. So what
  the line leaves is a fixed point of every operation (the general lemma on such lines): each result buffer ends at its
  operation's function of the final contents of its operands, and each argument ends as launched. Reading the two
  result buffers through these equations — every buffer once, however many operations consume it — gives the
  composition of the operations' functions over the arguments, which is what the stages are by definition.
-/
import proofs.«420804_j4698694221866_1_alg».proof.Proof.RefRunHead
import proofs.«420804_j4698694221866_1_alg».proof.Proof.RefRead
import proofs.«420804_j4698694221866_1_alg».proof.Proof.LibNary3
import proofs.«420804_j4698694221866_1_alg».proof.Proof.LibSsaFold
import Idealize.ShloMosaic.Lib.StableHlo.Run

set_option maxRecDepth 16384

noncomputable section

namespace Cert.ReferenceIdeal.HandRun
open Cert.ReferenceIdeal Cert.ReferenceIdeal.Gen Cert.ReferenceIdeal.ValueP Idealize.ShloMosaic Idealize.ShloMosaic.TcCoe Idealize.SL.Sem Idealize.ShloMosaic.StableHlo
variable {F : FTy → Type} [FloatOps F]

/-- One operation of the line checked: it writes the next rank, and reads smaller ranks. -/
local macro "ssa_step" : tactic => `(tactic| first
  | exact Cert.Lib.SsaFrom.nil _
  | (with_reducible refine Cert.Lib.SsaFrom.nullary _ _ _ ?_ ?_) <;> first | decide | skip
  | (with_reducible refine Cert.Lib.SsaFrom.unary _ _ _ _ _ ?_ ?_ ?_) <;> first | decide | skip
  | (with_reducible refine Cert.Lib.SsaFrom.binary _ _ _ _ _ _ _ ?_ ?_ ?_ ?_) <;> first | decide | skip
  | (with_reducible refine Cert.Lib.SsaFrom.ternary _ _ _ _ _ _ _ _ _ ?_ ?_ ?_ ?_ ?_) <;> first | decide | skip
  | (with_reducible refine Cert.Lib.SsaFrom.nary _ _ _ _ _ ?_ ?_ ?_) <;> first | decide | skip)

set_option maxHeartbeats 4000000 in
/-- The reference's operations are in single-assignment order: the arguments are ranked 0 to 22, and each operation
    writes the next rank from smaller ones. -/
theorem ssa_ops : Cert.Lib.SsaFrom (τ := τ) 23 (ops (F := F)) := by
  unfold ops
  repeat ssa_step

set_option maxHeartbeats 4000000 in
/-- What the line leaves at the two result buffers and at every argument buffer, on one device. -/
theorem ends (m : (ℓ : Loc nD τ sig) → Buf (Elt F) ℓ) (c : Dev nD) :
    (StableHlo.after (ops (F := F)) (launchContents m c) (Proc.devRef .tc main_v119)
        = Cert.ReferenceIdeal.ReadP.val_main_v119 (F := F) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ (StableHlo.after (ops (F := F)) (launchContents m c) (Proc.devRef .tc main_v85)
        = Cert.ReferenceIdeal.ReadP.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
      ∧ ∀ b : DevRef τ sig, b.idx.val < 23 → StableHlo.after (ops (F := F)) (launchContents m c) b = launchContents m c b := by
  -- the arguments end as launched; the final contents are a fixed point of every operation
  have hA := (ssa_ops (F := F)).unwritten (launchContents m c)
  have hfix := (ssa_ops (F := F)).fixed (launchContents m c)
  -- name the final contents, and spell each fixed-point equation out: result buffer = function of the operands' contents
  generalize StableHlo.after (ops (F := F)) (launchContents m c) = T at hA hfix ⊢
  simp only [ops, List.Forall, nullary_writes, unary_writes, binary_writes, ternary_writes, nary_writes,
    Finset.mem_singleton, forall_eq, nullary_result', unary_result', Cert.Lib.binary_result_applied, ternary_result', nary3_result'] at hfix
  refine ⟨?_, ?_, hA⟩
  -- each result: read through the equations down to the arguments, it is the stage by definition
  · simp (disch := decide) only [hfix, hA]
    rfl
  · simp (disch := decide) only [hfix, hA]
    rfl

/-- On every device, for any float values, from any memory with zero counters: every weakly fair execution of the
    reference's @main terminates with each result buffer at its stage — the composition of the operations' functions
    over the arguments — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = Cert.ReferenceIdeal.ReadP.val_main_v119 (F := F) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v85) = Cert.ReferenceIdeal.ReadP.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
    obtain ⟨e119, e85, hA⟩ := ends (F := F) m c
    exact ⟨(h c main_v119).trans e119, (h c main_v85).trans e85,
      (h c main_arg0).trans (hA _ (by decide)),
      (h c main_arg1).trans (hA _ (by decide)),
      (h c main_arg2).trans (hA _ (by decide)),
      (h c main_arg3).trans (hA _ (by decide)),
      (h c main_arg4).trans (hA _ (by decide)),
      (h c main_arg5).trans (hA _ (by decide)),
      (h c main_arg6).trans (hA _ (by decide)),
      (h c main_arg7).trans (hA _ (by decide)),
      (h c main_arg8).trans (hA _ (by decide)),
      (h c main_arg9).trans (hA _ (by decide)),
      (h c main_arg10).trans (hA _ (by decide)),
      (h c main_arg11).trans (hA _ (by decide)),
      (h c main_arg12).trans (hA _ (by decide)),
      (h c main_arg13).trans (hA _ (by decide)),
      (h c main_arg14).trans (hA _ (by decide)),
      (h c main_arg15).trans (hA _ (by decide)),
      (h c main_arg16).trans (hA _ (by decide)),
      (h c main_arg17).trans (hA _ (by decide)),
      (h c main_arg18).trans (hA _ (by decide)),
      (h c main_arg19).trans (hA _ (by decide)),
      (h c main_arg20).trans (hA _ (by decide)),
      (h c main_arg21).trans (hA _ (by decide)),
      (h c main_arg22).trans (hA _ (by decide))⟩)
    (run_seq scopedRefs_eq scopedSems_eq defs main (fun _ => ops) main_eq (fun _ => ops_sub) m ρ)

end Cert.ReferenceIdeal.HandRun

end
-- ==== Proof.Spec.lean ====
/-
  The mathematics both programs compute, row by row, on the extended reals.

  A multilayer perceptron acts on one row `x` of its input: a dense layer `x·W₁ + b₁`, the SiLU `h · σ(h)` with the
  logistic `σ`, a second dense layer, and a layer normalisation (subtract the row's mean, scale by the reciprocal root of
  the row's variance plus a small constant, then an affine map with the rows `g` and `b`). The mean and the variance
  divide the row's sum by the word `128.0`; the small constant is the word the programs share.

  Three results are built from it: an edge row is the perceptron of the concatenation of three rows; a grid row is the
  row itself plus its perceptron; a mesh row is the row plus the perceptron of the concatenation of an aggregated row
  and the row.
-/
import Idealize.ShloMosaic.PureOps.Ideal
import Idealize.ShloMosaic.Lib.ValueIdx

noncomputable section

namespace Cert.Spec

open Idealize.ShloMosaic Idealize.ShloMosaic.ValueIdx

/-- An `M × K` array of extended reals. -/
abbrev Mat (M K : ℕ) : Type := (⟨2, ![M, K]⟩ : Shape).Idx → EReal

/-- Row `p` of an array. -/
def row {M K : ℕ} (A : Mat M K) (p : Fin M) : Fin K → EReal := fun k => A (ix2 p k)

/-- The divisor of the mean and of the variance: the word `128.0`. -/
def nWord : EReal := Ideal.ofBits .f32 0x43000000#32

/-- The constant added to the variance: the word both programs carry for `1e-5`. -/
def epsWord : EReal := Ideal.ofBits .f32 0x3727C5AC#32

/-- A dense layer on a row: `x·W + b`. -/
def dense {K N : ℕ} (x : Fin K → EReal) (W : Mat K N) (b : Fin N → EReal) : Fin N → EReal :=
  fun j => (∑ k : Fin K, x k * W (ix2 k j)) + b j

/-- SiLU, entry by entry: `h · σ(h)`. -/
def silu {N : ℕ} (h : Fin N → EReal) : Fin N → EReal := fun j => h j * Ideal.logistic (h j)

/-- The mean of a row: its sum over the divisor word. -/
def mean {N : ℕ} (y : Fin N → EReal) : EReal := Ideal.div (∑ k : Fin N, y k) nWord

/-- The variance of a row: the mean of the squared deviations from the mean. -/
def var {N : ℕ} (y : Fin N → EReal) : EReal := Ideal.div (∑ k : Fin N, (y k - mean y) * (y k - mean y)) nWord

/-- Layer normalisation of a row with scale row `g` and shift row `b`. -/
def lnorm {N : ℕ} (y g b : Fin N → EReal) : Fin N → EReal :=
  fun j => (y j - mean y) * Ideal.rsqrt (var y + epsWord) * g j + b j

/-- The perceptron of a row. -/
def mlp {K : ℕ} (x : Fin K → EReal) (W1 : Mat K 128) (b1 : Fin 128 → EReal) (W2 : Mat 128 128)
    (b2 g be : Fin 128 → EReal) : Fin 128 → EReal :=
  lnorm (dense (silu (dense x W1 b1)) W2 b2) g be

/-- Three rows of length 128 laid end to end. -/
def cat3 (x y z : Fin 128 → EReal) : Fin 384 → EReal := fun k =>
  if h : k.val < 128 then x ⟨k.val, h⟩
  else if h2 : k.val < 256 then y ⟨k.val - 128, by omega⟩
  else z ⟨k.val - 256, by have := k.isLt; omega⟩

/-- Two rows of length 128 laid end to end. -/
def cat2 (x y : Fin 128 → EReal) : Fin 256 → EReal := fun k =>
  if h : k.val < 128 then x ⟨k.val, h⟩ else y ⟨k.val - 128, by have := k.isLt; omega⟩

/-- The edge features: row `i` is the perceptron of the edge row, the gathered source row and the gathered
    destination row laid end to end. -/
def edgeOut {M : ℕ} (E S D : Mat M 128) (W1 : Mat 384 128) (b1 : Fin 128 → EReal) (W2 : Mat 128 128)
    (b2 g be : Fin 128 → EReal) : Mat M 128 :=
  fun i => mlp (cat3 (row E (i 0)) (row S (i 0)) (row D (i 0))) W1 b1 W2 b2 g be (i 1)

/-- The grid nodes' result: each row plus its perceptron. -/
def gridOut {M : ℕ} (X : Mat M 128) (W1 : Mat 128 128) (b1 : Fin 128 → EReal) (W2 : Mat 128 128)
    (b2 g be : Fin 128 → EReal) : Mat M 128 :=
  fun i => X i + mlp (row X (i 0)) W1 b1 W2 b2 g be (i 1)

/-- The mesh nodes' result: each row plus the perceptron of the aggregated row and the row laid end to end. -/
def meshOut {M : ℕ} (A X : Mat M 128) (W1 : Mat 256 128) (b1 : Fin 128 → EReal) (W2 : Mat 128 128)
    (b2 g be : Fin 128 → EReal) : Mat M 128 :=
  fun i => X i + mlp (cat2 (row A (i 0)) (row X (i 0))) W1 b1 W2 b2 g be (i 1)

/-- A length-`N` vector as a function of its coordinate. -/
def vec {N : ℕ} (v : (⟨1, ![N]⟩ : Shape).Idx → EReal) : Fin N → EReal := fun k => v (ix1 k)

/-- The one row of a `1 × N` array. -/
def row1 {N : ℕ} (v : Mat 1 N) : Fin N → EReal := fun k => v (ix2 (0 : Fin 1) k)

end Cert.Spec

end
-- ==== Proof.PadSlice.lean ====
/-
  Padding rows and cutting them off again commute with a row-wise function: the mesh function of two arrays padded
  below with extra rows, cut back to the original rows, is the mesh function of the arrays themselves, because each
  result row depends only on the same row of the two arrays.
-/
import Idealize.ShloMosaic.Lib.KernelVsHost
import Idealize.ShloMosaic.Lib.Pipeline.Value
import proofs.«420804_j4698694221866_1_alg».proof.Proof.Spec

noncomputable section

namespace Cert.Spec

open Idealize.ShloMosaic Idealize.ShloMosaic.ValueIdx

/-- A row of an array padded below (no padding in front, none along the rows) is the array's row. -/
theorem row_pad {M M' N d : ℕ} (A : Mat M N) {u : Shape} (z : u.Idx → EReal)
    (h : (⟨2, ![M, N]⟩ : Shape).Pads ![0, 0] ![d, 0] ![0, 0] ⟨2, ![M', N]⟩) (hu : 0 < u.numel)
    (p : Fin M) (p' : Fin M') (hp : p'.val = p.val) :
    row (M := M') (pad ⟨2, ![M', N]⟩ ![0, 0] ![d, 0] ![0, 0] A z h hu) p' = row A p := by
  funext k
  unfold row
  refine pad_apply_of_inside _ _ _ A z h hu (ix2 p' k) (ix2 p k) fun a => ?_
  match a with
  | ⟨0, _⟩ => show p'.val = 0 + p.val * (0 + 1); omega
  | ⟨1, _⟩ => show k.val = 0 + k.val * (0 + 1); omega

/-- An entry of an array padded below, at a row of the array, is the array's entry. -/
theorem pad_rows_apply {M M' N d : ℕ} (A : Mat M N) {u : Shape} (z : u.Idx → EReal)
    (h : (⟨2, ![M, N]⟩ : Shape).Pads ![0, 0] ![d, 0] ![0, 0] ⟨2, ![M', N]⟩) (hu : 0 < u.numel)
    (p : Fin M) (p' : Fin M') (hp : p'.val = p.val) (q : Fin N) :
    pad ⟨2, ![M', N]⟩ ![0, 0] ![d, 0] ![0, 0] A z h hu (ix2 p' q) = A (ix2 p q) :=
  congrFun (row_pad A z h hu p p' hp) q

/-- The mesh function on arrays padded below, cut back to the arrays' rows, is the mesh function on the arrays. -/
theorem slice_meshOut_pad {M M' d : ℕ} (A X : Mat M 128) {u : Shape} (z : u.Idx → EReal)
    (W1 : Mat 256 128) (b1 : Fin 128 → EReal) (W2 : Mat 128 128) (b2 g be : Fin 128 → EReal)
    (h : (⟨2, ![M, 128]⟩ : Shape).Pads ![0, 0] ![d, 0] ![0, 0] ⟨2, ![M', 128]⟩) (hu : 0 < u.numel)
    (hs : (⟨2, ![M', 128]⟩ : Shape).Slices ![0, 0] ⟨2, ![M, 128]⟩) (hM : M ≤ M') :
    extractStridedSlice ⟨2, ![M, 128]⟩ ![0, 0]
        (meshOut (M := M') (pad ⟨2, ![M', 128]⟩ ![0, 0] ![d, 0] ![0, 0] A z h hu)
          (pad ⟨2, ![M', 128]⟩ ![0, 0] ![d, 0] ![0, 0] X z h hu) W1 b1 W2 b2 g be) hs
      = meshOut (M := M) A X W1 b1 W2 b2 g be := by
  funext i
  obtain ⟨p, q, rfl⟩ : ∃ (p : Fin M) (q : Fin 128), i = ix2 p q := ⟨i 0, i 1, eq_ix2 i⟩
  have hp' : p.val < M' := lt_of_lt_of_le p.isLt hM
  rw [extractStridedSlice_apply _ _ hs (ix2 p q) (ix2 (⟨p.val, hp'⟩ : Fin M') q) (fun a => by
    match a with
    | ⟨0, _⟩ => show p.val = 0 + p.val; omega
    | ⟨1, _⟩ => show q.val = 0 + q.val; omega)]
  show pad ⟨2, ![M', 128]⟩ ![0, 0] ![d, 0] ![0, 0] X z h hu (ix2 (⟨p.val, hp'⟩ : Fin M') q)
      + mlp (cat2 (row (M := M') (pad ⟨2, ![M', 128]⟩ ![0, 0] ![d, 0] ![0, 0] A z h hu) ⟨p.val, hp'⟩)
          (row (M := M') (pad ⟨2, ![M', 128]⟩ ![0, 0] ![d, 0] ![0, 0] X z h hu) ⟨p.val, hp'⟩)) W1 b1 W2 b2 g be q
      = X (ix2 p q) + mlp (cat2 (row A p) (row X p)) W1 b1 W2 b2 g be q
  rw [row_pad A z h hu p ⟨p.val, hp'⟩ rfl, row_pad X z h hu p ⟨p.val, hp'⟩ rfl, pad_rows_apply X z h hu p ⟨p.val, hp'⟩ rfl q]

/-- The one row of a length-`N` vector cast to a `1 × N` array is the vector. -/
theorem row1_shapeCast {N : ℕ} (b : (⟨1, ![N]⟩ : Shape).Idx → EReal) (h : (⟨1, ![N]⟩ : Shape).ShapeCasts ⟨2, ![1, N]⟩) :
    row1 (shapeCast ⟨2, ![1, N]⟩ b h) = vec b := by
  funext k
  unfold row1 vec
  exact shapeCast_apply b h _ _ (by
    rw [Shape.rowMajor_val_two, Shape.rowMajor_val_one]
    show k.val = 0 * N + k.val
    omega)

/-- The one row of an array that is a vector cast to a `1 × N` array is the vector. -/
theorem row1_eq {N : ℕ} {r : Mat 1 N} {b : (⟨1, ![N]⟩ : Shape).Idx → EReal} {h : (⟨1, ![N]⟩ : Shape).ShapeCasts ⟨2, ![1, N]⟩}
    (e : r = shapeCast ⟨2, ![1, N]⟩ b h) : row1 r = vec b := by
  rw [e]; exact row1_shapeCast b h

/-- The edge function of equal arguments. -/
theorem edgeOut_congr {M : ℕ} {E E' S S' D D' : Mat M 128} {W1 W1' : Mat 384 128} {b1 b1' : Fin 128 → EReal}
    {W2 W2' : Mat 128 128} {b2 b2' g g' be be' : Fin 128 → EReal}
    (hE : E = E') (hS : S = S') (hD : D = D') (hW1 : W1 = W1') (hb1 : b1 = b1') (hW2 : W2 = W2') (hb2 : b2 = b2')
    (hg : g = g') (hbe : be = be') :
    edgeOut E S D W1 b1 W2 b2 g be = edgeOut E' S' D' W1' b1' W2' b2' g' be' := by
  subst hE hS hD hW1 hb1 hW2 hb2 hg hbe; rfl

/-- The grid function of equal arguments. -/
theorem gridOut_congr {M : ℕ} {X X' : Mat M 128} {W1 W1' : Mat 128 128} {b1 b1' : Fin 128 → EReal}
    {W2 W2' : Mat 128 128} {b2 b2' g g' be be' : Fin 128 → EReal}
    (hX : X = X') (hW1 : W1 = W1') (hb1 : b1 = b1') (hW2 : W2 = W2') (hb2 : b2 = b2') (hg : g = g') (hbe : be = be') :
    gridOut X W1 b1 W2 b2 g be = gridOut X' W1' b1' W2' b2' g' be' := by
  subst hX hW1 hb1 hW2 hb2 hg hbe; rfl

/-- The mesh function of equal arguments. -/
theorem meshOut_congr {M : ℕ} {A A' X X' : Mat M 128} {W1 W1' : Mat 256 128} {b1 b1' : Fin 128 → EReal}
    {W2 W2' : Mat 128 128} {b2 b2' g g' be be' : Fin 128 → EReal}
    (hA : A = A') (hX : X = X') (hW1 : W1 = W1') (hb1 : b1 = b1') (hW2 : W2 = W2') (hb2 : b2 = b2') (hg : g = g')
    (hbe : be = be') :
    meshOut A X W1 b1 W2 b2 g be = meshOut A' X' W1' b1' W2' b2' g' be' := by
  subst hA hX hW1 hb1 hW2 hb2 hg hbe; rfl

end Cert.Spec

end
-- ==== Proof.Fold.lean ====
/-
  What each pallas_call finds in the arrays it reads, and what @main returns, as terms of the launch memory.

  The contents of the TensorCore's buffers at each boundary between @main's segments are a fold of the host operations and
  of the calls' write-backs over the launch memory. Read at the buffers that matter: a weight matrix is the argument
  narrowed to bf16 (the identity on extended reals); a bias or normalisation row is the argument vector cast to one
  row; the gathered rows are the host gather at the wrapped indices, the fill branch of `jnp.take` never taken when
  every index is in range; the aggregate is the host scatter-add of the edge call's result; the padded arrays are the
  host pads; the first result is the grid call's result array and the second the leading rows of the mesh call's.
-/
import proofs.«420804_j4698694221866_1_alg».proof.Proof.Gen.KernelIdeal.Frame
import Idealize.ShloMosaic.Lib.StableHlo.Run
import Idealize.ShloMosaic.PureOps.Ideal
import Idealize.ShloMosaic.PureOps.Reduce
import Idealize.ShloMosaic.Lib.Affine

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Every source index names a row of the grid array, and every destination index a row of the mesh array (signed). -/
def InRange (c : Dev nD) : Prop :=
  (∀ i : S524288.Idx, IntOp.cmpi .sge ((m ((c : Thread nD τ).loc main_arg3)) i) 0#32 = 1#1 ∧ IntOp.cmpi .slt ((m ((c : Thread nD τ).loc main_arg3)) i) 524288#32 = 1#1)
  ∧ (∀ i : S524288.Idx, IntOp.cmpi .sge ((m ((c : Thread nD τ).loc main_arg4)) i) 0#32 = 1#1 ∧ IntOp.cmpi .slt ((m ((c : Thread nD τ).loc main_arg4)) i) 40962#32 = 1#1)

/-- The source indices as jax wraps them (a negative index counts from the end), as a column. -/
def srcIdx (c : Dev nD) : IVec S524288x1 32 :=
  broadcastInDim S524288x1 ![0] bcast_S524288_S524288x1_0
    (select (cmpi .slt (m ((c : Thread nD τ).loc main_arg3)) (broadcastInDim S524288 ![] bcast_S_S524288 (constantI S_ 32 0#32)))
      (addi (m ((c : Thread nD τ).loc main_arg3)) (broadcastInDim S524288 ![] bcast_S_S524288 (constantI S_ 32 524288#32))) (m ((c : Thread nD τ).loc main_arg3)))

/-- The destination indices as jax wraps them, as a column. -/
def dstIdx (c : Dev nD) : IVec S524288x1 32 :=
  broadcastInDim S524288x1 ![0] bcast_S524288_S524288x1_0
    (select (cmpi .slt (m ((c : Thread nD τ).loc main_arg4)) (broadcastInDim S524288 ![] bcast_S_S524288 (constantI S_ 32 0#32)))
      (addi (m ((c : Thread nD τ).loc main_arg4)) (broadcastInDim S524288 ![] bcast_S_S524288 (constantI S_ 32 40962#32))) (m ((c : Thread nD τ).loc main_arg4)))

/-! ## A buffer outside a stretch's results keeps its contents through the stretch -/

/-- The buffers the first gather's operations write. -/
private abbrev res0 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v0]
/-- The buffers the second gather's operations write. -/
private abbrev res1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v1]
/-- The buffers the narrowings and the row casts write. -/
private abbrev res2 : List (Ref sig .tc) :=
  [main_v2, main_v3, main_v4, main_v5, main_v6, main_v7, main_v8, main_v9, main_v10, main_v11]

private theorem single_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

private theorem skip0 (V : Valuation τ sig (Elt Ideal)) {r : Ref sig .tc} (hr : r ∉ res0) :
    StableHlo.after hostOps0 V (Proc.devRef .tc r) = V (Proc.devRef .tc r) :=
  StableHlo.after_of_writes_sub (W := res0) _ V (by
    simp only [hostOps0, List.Forall, StableHlo.nullary_writes, StableHlo.unary_writes, StableHlo.binary_writes, StableHlo.ternary_writes]
    repeat' apply And.intro
    all_goals exact single_sub (by decide)) hr

private theorem skip1 (V : Valuation τ sig (Elt Ideal)) {r : Ref sig .tc} (hr : r ∉ res1) :
    StableHlo.after hostOps0_1 V (Proc.devRef .tc r) = V (Proc.devRef .tc r) :=
  StableHlo.after_of_writes_sub (W := res1) _ V (by
    simp only [hostOps0_1, List.Forall, StableHlo.nullary_writes, StableHlo.unary_writes, StableHlo.binary_writes, StableHlo.ternary_writes]
    repeat' apply And.intro
    all_goals exact single_sub (by decide)) hr

private theorem skip2 (V : Valuation τ sig (Elt Ideal)) {r : Ref sig .tc} (hr : r ∉ res2) :
    StableHlo.after hostOps0_2 V (Proc.devRef .tc r) = V (Proc.devRef .tc r) :=
  StableHlo.after_of_writes_sub (W := res2) _ V (by
    simp only [hostOps0_2, List.Forall, StableHlo.unary_writes, StableHlo.reshape_writes]
    repeat' apply And.intro
    all_goals exact single_sub (by decide)) hr

/-- Before the narrowings and the row casts, a buffer neither gather writes holds what it held at launch. -/
private theorem W2_launch (c : Dev nD) {r : Ref sig .tc} (h1 : r ∉ res1) (h0 : r ∉ res0) :
    W2 m ρ c (Proc.devRef .tc r) = m ((c : Thread nD τ).loc r) :=
  (skip1 _ h1).trans ((skip0 _ h0).trans rfl)

/-! ## The fill branch of a gather is never taken when every index is in range -/

/-- A left fold by the conjunction of words that are all 1, from 1, is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by conjunction, from 1, of words that are all 1 is 1 at every index. -/
private theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- A select whose condition is such a reduction, broadcast, returns its first branch. -/
private theorem select_of_mask_one {α : Type} {sc sr st u : Shape} {axes : List (Fin sc.rank)}
    {dims : Fin sr.rank → Fin st.rank} (hb : sr.BroadcastsInDim st dims) (hr : sc.ReducesTo axes sr) (hu : 0 < u.numel)
    (x : IVec sc 1) (init : IVec u 1) (hinit : ∀ k, init k = 1#1) (hx : ∀ i, x i = 1#1) (a b : st.Idx → α) :
    select (broadcastInDim st dims hb (Host.reduce IntOp.andi x init hr hu)) a b = a := by
  funext j
  have e : broadcastInDim st dims hb (Host.reduce IntOp.andi x init hr hu) j = 1#1 :=
    reduce_andi_one x init hr hu hinit hx _
  show Scalar.select (broadcastInDim st dims hb (Host.reduce IntOp.andi x init hr hu) j) (a j) (b j) = a j
  rw [e]
  exact if_pos rfl

/-- A word in [0, N) (signed) is not wrapped, and lies between 0 and N − 1. -/
private theorem wrap_inBounds {x N N1 : BitVec 32} (hN : N1.toInt + 1 = N.toInt)
    (h0 : IntOp.cmpi .sge x 0#32 = 1#1) (h1 : IntOp.cmpi .slt x N = 1#1) :
    IntOp.andi (IntOp.cmpi .sge (Scalar.select (IntOp.cmpi .slt x 0#32) (IntOp.addi x N) x) 0#32)
      (IntOp.cmpi .sle (Scalar.select (IntOp.cmpi .slt x 0#32) (IntOp.addi x N) x) N1) = 1#1 := by
  have z : (0#32 : BitVec 32).toInt = 0 := by decide
  have h0' := IntOp.cmpi_sge.1 h0
  have h1' := IntOp.cmpi_slt.1 h1
  have hn : IntOp.cmpi .slt x 0#32 ≠ 1#1 := fun e => by have := IntOp.cmpi_slt.1 e; omega
  have hs : Scalar.select (IntOp.cmpi .slt x 0#32) (IntOp.addi x N) x = x := if_neg hn
  rw [hs]
  exact IntOp.andi_eq_one.2 ⟨h0, IntOp.cmpi_sle.2 (by omega)⟩

/-- Every wrapped source index lies between 0 and the last row of the grid array. -/
private theorem srcIdx_inBounds (c : Dev nD) (h : InRange m c) (i : S524288x1.Idx) :
    IntOp.andi (IntOp.cmpi .sge (srcIdx m c i) 0#32) (IntOp.cmpi .sle (srcIdx m c i) 524287#32) = 1#1 := by
  obtain ⟨k, hk⟩ : ∃ k : S524288.Idx, srcIdx m c i
      = Scalar.select (IntOp.cmpi .slt (m ((c : Thread nD τ).loc main_arg3) k) 0#32)
          (IntOp.addi (m ((c : Thread nD τ).loc main_arg3) k) 524288#32) (m ((c : Thread nD τ).loc main_arg3) k) := ⟨_, rfl⟩
  rw [hk]
  exact wrap_inBounds (by decide) (h.1 k).1 (h.1 k).2

/-- Every wrapped destination index lies between 0 and the last row of the mesh array. -/
private theorem dstIdx_inBounds (c : Dev nD) (h : InRange m c) (i : S524288x1.Idx) :
    IntOp.andi (IntOp.cmpi .sge (dstIdx m c i) 0#32) (IntOp.cmpi .sle (dstIdx m c i) 40961#32) = 1#1 := by
  obtain ⟨k, hk⟩ : ∃ k : S524288.Idx, dstIdx m c i
      = Scalar.select (IntOp.cmpi .slt (m ((c : Thread nD τ).loc main_arg4) k) 0#32)
          (IntOp.addi (m ((c : Thread nD τ).loc main_arg4) k) 40962#32) (m ((c : Thread nD τ).loc main_arg4) k) := ⟨_, rfl⟩
  rw [hk]
  exact wrap_inBounds (by decide) (h.2 k).1 (h.2 k).2

/-! ## What the edge call reads -/

theorem V3_arg0 (c : Dev nD) : V3 m ρ c main_arg0 = (m ((c : Thread nD τ).loc main_arg0)) :=
  (skip2 _ (by decide)).trans (W2_launch m ρ c (by decide) (by decide))
theorem V3_v0 (c : Dev nD) (h : InRange m c) :
    V3 m ρ c main_v0 = Host.gather gather_S524288x128_S524288x1_S524288x128_1_0_n_n_0_1_1128 (m ((c : Thread nD τ).loc main_arg1)) (srcIdx m c) := by
  refine (skip2 _ (by decide)).trans ((skip1 _ (by decide)).trans ?_)
  show StableHlo.after hostOps0 (W0 m ρ c) (Proc.devRef .tc main_v0) = _
  after_results_simp
  simp only [TRef.ofBuf, TRef.toBuf, cast_eq]
  refine (select_of_mask_one _ _ _ _ _ (fun _ => rfl) (fun i => ?_) _ _).trans rfl
  exact srcIdx_inBounds m c h i
theorem V3_v1 (c : Dev nD) (h : InRange m c) :
    V3 m ρ c main_v1 = Host.gather gather_S40962x128_S524288x1_S524288x128_1_0_n_n_0_1_1128 (m ((c : Thread nD τ).loc main_arg2)) (dstIdx m c) := by
  refine (skip2 _ (by decide)).trans ?_
  show StableHlo.after hostOps0_1 (W1 m ρ c) (Proc.devRef .tc main_v1) = _
  after_results_simp
  simp only [TRef.ofBuf, TRef.toBuf, cast_eq]
  refine (select_of_mask_one _ _ _ _ _ (fun _ => rfl) (fun i => ?_) _ _).trans rfl
  exact dstIdx_inBounds m c h i
theorem V3_v2 (c : Dev nD) : V3 m ρ c main_v2 = (truncf .bf16 ((m ((c : Thread nD τ).loc main_arg5)) : FVec Ideal S384x128 .f32) bitsLt_bf16_f32 : FVec Ideal S384x128 .bf16) := by
  show StableHlo.after hostOps0_2 (W2 m ρ c) (Proc.devRef .tc main_v2) = _
  after_results
theorem V3_v8 (c : Dev nD) : V3 m ρ c main_v8 = shapeCast S1x128 (m ((c : Thread nD τ).loc main_arg6)) shapeCasts_S128_S1x128 := by
  show StableHlo.after hostOps0_2 (W2 m ρ c) (Proc.devRef .tc main_v8) = _
  after_results
  rfl
theorem V3_v3 (c : Dev nD) : V3 m ρ c main_v3 = (truncf .bf16 ((m ((c : Thread nD τ).loc main_arg7)) : FVec Ideal S128x128 .f32) bitsLt_bf16_f32 : FVec Ideal S128x128 .bf16) := by
  show StableHlo.after hostOps0_2 (W2 m ρ c) (Proc.devRef .tc main_v3) = _
  after_results
theorem V3_v9 (c : Dev nD) : V3 m ρ c main_v9 = shapeCast S1x128 (m ((c : Thread nD τ).loc main_arg8)) shapeCasts_S128_S1x128 := by
  show StableHlo.after hostOps0_2 (W2 m ρ c) (Proc.devRef .tc main_v9) = _
  after_results
  rfl
theorem V3_v10 (c : Dev nD) : V3 m ρ c main_v10 = shapeCast S1x128 (m ((c : Thread nD τ).loc main_arg9)) shapeCasts_S128_S1x128 := by
  show StableHlo.after hostOps0_2 (W2 m ρ c) (Proc.devRef .tc main_v10) = _
  after_results
  rfl
theorem V3_v11 (c : Dev nD) : V3 m ρ c main_v11 = shapeCast S1x128 (m ((c : Thread nD τ).loc main_arg10)) shapeCasts_S128_S1x128 := by
  show StableHlo.after hostOps0_2 (W2 m ρ c) (Proc.devRef .tc main_v11) = _
  after_results
  rfl

/-! ## The aggregate the mesh call reads (through a pad) -/

/-- The aggregate: the edge call's result rows added up at their destination rows. -/
def agg (c : Dev nD) : FVec Ideal S40962x128 .f32 :=
  Host.scatterAdd scatter_S40962x128_S524288x1_S524288x128_1_0_0_1
    (broadcastInDim S40962x128 ![] bcast_S_S40962x128 (constant S_ .f32 0x00000000#32))
    (broadcastInDim S524288x1 ![0] bcast_S524288_S524288x1_0 (m ((c : Thread nD τ).loc main_arg4)))
    ((dat0 (F := Ideal) (V3 m ρ) c).arrAt 9 cfg0.N)

end Cert.KernelIdeal.Fold

end
-- ==== Proof.Fold2.lean ====
/-
  What the grid call and the mesh call find in the arrays they read, and what @main returns, as terms of the launch
  memory (the second half of the fold of @main's segments: see Fold.lean).
-/
import proofs.«420804_j4698694221866_1_alg».proof.Proof.Gen.KernelIdeal.Frame
import proofs.«420804_j4698694221866_1_alg».proof.Proof.Fold
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- One step back through a stretch of host operations none of which writes the buffer read: the buffer holds after
    the stretch what it held before. -/
local macro "back_host" : tactic => `(tactic| (
  refine Eq.trans (StableHlo.after_of_forall_not_mem _ _ (List.forall_iff_forall_mem.mp ?_)) ?_
  · simp only [hostOps0, hostOps0_1, hostOps0_2, hostOps1, hostOps2, hostOps2_1, hostOps2_2, hostOps2_3, hostOps2_4, hostOps3,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- One step back through a call that does not have the buffer among its arrays: the buffer holds at the call's exit
    what it held at its entry. -/
local macro "back_call0" : tactic => `(tactic| refine Eq.trans (W4_of_ne _ _ _ _ (by decide)) ?_)
local macro "back_call1" : tactic => `(tactic| refine Eq.trans (W6_of_ne _ _ _ _ (by decide)) ?_)
local macro "back_call2" : tactic => `(tactic| refine Eq.trans (W12_of_ne _ _ _ _ (by decide)) ?_)

/-! ## What each stretch of host operations leaves at the buffers it writes, from any contents

Each is the operation's function at the contents of its operand buffers before the stretch (no earlier operation of
the stretch writes an operand, except where an operand is itself the stretch's own result, which is then composed). -/

section Stretch
variable (V : Valuation τ sig (Elt Ideal))

private theorem ops0_2_v4 : StableHlo.after hostOps0_2 V (Proc.devRef .tc main_v4)
    = (truncf .bf16 (V (Proc.devRef .tc main_arg11) : FVec Ideal S128x128 .f32) bitsLt_bf16_f32 : FVec Ideal S128x128 .bf16) := by
  after_results
private theorem ops0_2_v5 : StableHlo.after hostOps0_2 V (Proc.devRef .tc main_v5)
    = (truncf .bf16 (V (Proc.devRef .tc main_arg13) : FVec Ideal S128x128 .f32) bitsLt_bf16_f32 : FVec Ideal S128x128 .bf16) := by
  after_results
private theorem ops0_2_v6 : StableHlo.after hostOps0_2 V (Proc.devRef .tc main_v6)
    = (truncf .bf16 (V (Proc.devRef .tc main_arg17) : FVec Ideal S256x128 .f32) bitsLt_bf16_f32 : FVec Ideal S256x128 .bf16) := by
  after_results
private theorem ops0_2_v7 : StableHlo.after hostOps0_2 V (Proc.devRef .tc main_v7)
    = (truncf .bf16 (V (Proc.devRef .tc main_arg19) : FVec Ideal S128x128 .f32) bitsLt_bf16_f32 : FVec Ideal S128x128 .bf16) := by
  after_results

private theorem ops1_v16 : StableHlo.after hostOps1 V (Proc.devRef .tc main_v16)
    = shapeCast S1x128 (V (Proc.devRef .tc main_arg12) : FVec Ideal S128 .f32) shapeCasts_S128_S1x128 := by
  after_results; rfl
private theorem ops1_v17 : StableHlo.after hostOps1 V (Proc.devRef .tc main_v17)
    = shapeCast S1x128 (V (Proc.devRef .tc main_arg14) : FVec Ideal S128 .f32) shapeCasts_S128_S1x128 := by
  after_results; rfl
private theorem ops1_v18 : StableHlo.after hostOps1 V (Proc.devRef .tc main_v18)
    = shapeCast S1x128 (V (Proc.devRef .tc main_arg15) : FVec Ideal S128 .f32) shapeCasts_S128_S1x128 := by
  after_results; rfl
private theorem ops1_v19 : StableHlo.after hostOps1 V (Proc.devRef .tc main_v19)
    = shapeCast S1x128 (V (Proc.devRef .tc main_arg16) : FVec Ideal S128 .f32) shapeCasts_S128_S1x128 := by
  after_results; rfl
private theorem ops1_v15 : StableHlo.after hostOps1 V (Proc.devRef .tc main_v15)
    = (Host.scatterAdd scatter_S40962x128_S524288x1_S524288x128_1_0_0_1
        (broadcastInDim S40962x128 ![] bcast_S_S40962x128 (constant S_ .f32 0x00000000#32))
        (broadcastInDim S524288x1 ![0] bcast_S524288_S524288x1_0 (V (Proc.devRef .tc main_arg4) : IVec S524288 32))
        (V (Proc.devRef .tc main_v12) : FVec Ideal S524288x128 .f32) : FVec Ideal S40962x128 .f32) := by
  after_results

private theorem ops2_c : StableHlo.after hostOps2 V (Proc.devRef .tc main_c) = constantI S_ 32 0#32 := by
  after_results
private theorem ops2_1_v21 : StableHlo.after hostOps2_1 V (Proc.devRef .tc main_v21)
    = (pad S41984x128 ![0, 0] ![1022, 0] ![0, 0] (V (Proc.devRef .tc main_v15) : FVec Ideal S40962x128 .f32)
        (sitofp (F := Ideal) .f32 (V (Proc.devRef .tc main_c) : IVec S_ 32)) pads_S40962x128_S41984x128_010220_000 h_S_ : FVec Ideal S41984x128 .f32) := by
  after_results; rfl
private theorem ops2_2_c_0 : StableHlo.after hostOps2_2 V (Proc.devRef .tc main_c_0) = constantI S_ 32 0#32 := by
  after_results
private theorem ops2_3_v22 : StableHlo.after hostOps2_3 V (Proc.devRef .tc main_v22)
    = (pad S41984x128 ![0, 0] ![1022, 0] ![0, 0] (V (Proc.devRef .tc main_arg2) : FVec Ideal S40962x128 .f32)
        (sitofp (F := Ideal) .f32 (V (Proc.devRef .tc main_c_0) : IVec S_ 32)) pads_S40962x128_S41984x128_010220_000 h_S_ : FVec Ideal S41984x128 .f32) := by
  after_results; rfl

private theorem ops2_4_v23 : StableHlo.after hostOps2_4 V (Proc.devRef .tc main_v23)
    = shapeCast S1x128 (V (Proc.devRef .tc main_arg18) : FVec Ideal S128 .f32) shapeCasts_S128_S1x128 := by
  after_results; rfl
private theorem ops2_4_v24 : StableHlo.after hostOps2_4 V (Proc.devRef .tc main_v24)
    = shapeCast S1x128 (V (Proc.devRef .tc main_arg20) : FVec Ideal S128 .f32) shapeCasts_S128_S1x128 := by
  after_results; rfl
private theorem ops2_4_v25 : StableHlo.after hostOps2_4 V (Proc.devRef .tc main_v25)
    = shapeCast S1x128 (V (Proc.devRef .tc main_arg21) : FVec Ideal S128 .f32) shapeCasts_S128_S1x128 := by
  after_results; rfl
private theorem ops2_4_v26 : StableHlo.after hostOps2_4 V (Proc.devRef .tc main_v26)
    = shapeCast S1x128 (V (Proc.devRef .tc main_arg22) : FVec Ideal S128 .f32) shapeCasts_S128_S1x128 := by
  after_results; rfl

private theorem ops3_v28 : StableHlo.after hostOps3 V (Proc.devRef .tc main_v28)
    = (extractStridedSlice S40962x128 ![0, 0] (V (Proc.devRef .tc main_v27) : FVec Ideal S41984x128 .f32) slices_S41984x128_S40962x128_0_0 : FVec Ideal S40962x128 .f32) := by
  after_results

end Stretch

variable (m : (ℓ : Loc nD τ sig) → Buf (Elt Ideal) ℓ) (ρ : Dev nD → PrngReg)

/-! ## What the grid call reads -/

theorem V5_arg1 (c : Dev nD) : V5 m ρ c main_arg1 = (m ((c : Thread nD τ).loc main_arg1)) := by
  show W5 m ρ c (Proc.devRef .tc main_arg1) = _
  back_host; back_call0; back_host; back_host; back_host; rfl
theorem V5_v4 (c : Dev nD) : V5 m ρ c main_v4 = (truncf .bf16 ((m ((c : Thread nD τ).loc main_arg11)) : FVec Ideal S128x128 .f32) bitsLt_bf16_f32 : FVec Ideal S128x128 .bf16) := by
  have e : W2 m ρ c (Proc.devRef .tc main_arg11) = m ((c : Thread nD τ).loc main_arg11) := by
    back_host; back_host; rfl
  show W5 m ρ c (Proc.devRef .tc main_v4) = _
  back_host; back_call0
  refine (ops0_2_v4 (W2 m ρ c)).trans ?_
  rw [e]
theorem V5_v16 (c : Dev nD) : V5 m ρ c main_v16 = shapeCast S1x128 (m ((c : Thread nD τ).loc main_arg12)) shapeCasts_S128_S1x128 := by
  have e : W4 m ρ c (Proc.devRef .tc main_arg12) = m ((c : Thread nD τ).loc main_arg12) := by
    back_call0; back_host; back_host; back_host; rfl
  refine (ops1_v16 (W4 m ρ c)).trans ?_
  rw [e]
theorem V5_v5 (c : Dev nD) : V5 m ρ c main_v5 = (truncf .bf16 ((m ((c : Thread nD τ).loc main_arg13)) : FVec Ideal S128x128 .f32) bitsLt_bf16_f32 : FVec Ideal S128x128 .bf16) := by
  have e : W2 m ρ c (Proc.devRef .tc main_arg13) = m ((c : Thread nD τ).loc main_arg13) := by
    back_host; back_host; rfl
  show W5 m ρ c (Proc.devRef .tc main_v5) = _
  back_host; back_call0
  refine (ops0_2_v5 (W2 m ρ c)).trans ?_
  rw [e]
theorem V5_v17 (c : Dev nD) : V5 m ρ c main_v17 = shapeCast S1x128 (m ((c : Thread nD τ).loc main_arg14)) shapeCasts_S128_S1x128 := by
  have e : W4 m ρ c (Proc.devRef .tc main_arg14) = m ((c : Thread nD τ).loc main_arg14) := by
    back_call0; back_host; back_host; back_host; rfl
  refine (ops1_v17 (W4 m ρ c)).trans ?_
  rw [e]
theorem V5_v18 (c : Dev nD) : V5 m ρ c main_v18 = shapeCast S1x128 (m ((c : Thread nD τ).loc main_arg15)) shapeCasts_S128_S1x128 := by
  have e : W4 m ρ c (Proc.devRef .tc main_arg15) = m ((c : Thread nD τ).loc main_arg15) := by
    back_call0; back_host; back_host; back_host; rfl
  refine (ops1_v18 (W4 m ρ c)).trans ?_
  rw [e]
theorem V5_v19 (c : Dev nD) : V5 m ρ c main_v19 = shapeCast S1x128 (m ((c : Thread nD τ).loc main_arg16)) shapeCasts_S128_S1x128 := by
  have e : W4 m ρ c (Proc.devRef .tc main_arg16) = m ((c : Thread nD τ).loc main_arg16) := by
    back_call0; back_host; back_host; back_host; rfl
  refine (ops1_v19 (W4 m ρ c)).trans ?_
  rw [e]

/-! ## What the mesh call reads -/

theorem V11_v21 (c : Dev nD) :
    V11 m ρ c main_v21 = pad S41984x128 ![0, 0] ![1022, 0] ![0, 0] (agg m ρ c) (sitofp (F := Ideal) .f32 (constantI S_ 32 0#32))
      pads_S40962x128_S41984x128_010220_000 h_S_ := by
  -- the edge call's result array, and the destination indices, as the scatter-add finds them
  have e12 : W4 m ρ c (Proc.devRef .tc main_v12) = (dat0 (F := Ideal) (V3 m ρ) c).arrAt 9 cfg0.N := W4_arr m ρ c 9
  have e4 : W4 m ρ c (Proc.devRef .tc main_arg4) = m ((c : Thread nD τ).loc main_arg4) := by
    back_call0; back_host; back_host; back_host; rfl
  -- the aggregate, as the pad finds it
  have e15 : W7 m ρ c (Proc.devRef .tc main_v15) = agg m ρ c := by
    back_host; back_call1
    refine (ops1_v15 (W4 m ρ c)).trans ?_
    rw [e12, e4]; rfl
  have ec : W7 m ρ c (Proc.devRef .tc main_c) = constantI S_ 32 0#32 := ops2_c (W6 m ρ c)
  show W11 m ρ c (Proc.devRef .tc main_v21) = _
  back_host; back_host; back_host
  refine (ops2_1_v21 (W7 m ρ c)).trans ?_
  rw [e15, ec]
theorem V11_v22 (c : Dev nD) :
    V11 m ρ c main_v22 = pad S41984x128 ![0, 0] ![1022, 0] ![0, 0] (m ((c : Thread nD τ).loc main_arg2)) (sitofp (F := Ideal) .f32 (constantI S_ 32 0#32))
      pads_S40962x128_S41984x128_010220_000 h_S_ := by
  have e : W9 m ρ c (Proc.devRef .tc main_arg2) = m ((c : Thread nD τ).loc main_arg2) := by
    back_host; back_host; back_host; back_call1; back_host; back_call0; back_host; back_host; back_host; rfl
  have ec : W9 m ρ c (Proc.devRef .tc main_c_0) = constantI S_ 32 0#32 := ops2_2_c_0 (W8 m ρ c)
  show W11 m ρ c (Proc.devRef .tc main_v22) = _
  back_host
  refine (ops2_3_v22 (W9 m ρ c)).trans ?_
  rw [e, ec]
theorem V11_v6 (c : Dev nD) : V11 m ρ c main_v6 = (truncf .bf16 ((m ((c : Thread nD τ).loc main_arg17)) : FVec Ideal S256x128 .f32) bitsLt_bf16_f32 : FVec Ideal S256x128 .bf16) := by
  have e : W2 m ρ c (Proc.devRef .tc main_arg17) = m ((c : Thread nD τ).loc main_arg17) := by
    back_host; back_host; rfl
  show W11 m ρ c (Proc.devRef .tc main_v6) = _
  back_host; back_host; back_host; back_host; back_host; back_call1; back_host; back_call0
  refine (ops0_2_v6 (W2 m ρ c)).trans ?_
  rw [e]
theorem V11_v23 (c : Dev nD) : V11 m ρ c main_v23 = shapeCast S1x128 (m ((c : Thread nD τ).loc main_arg18)) shapeCasts_S128_S1x128 := by
  have e : W10 m ρ c (Proc.devRef .tc main_arg18) = m ((c : Thread nD τ).loc main_arg18) := by
    back_host; back_host; back_host; back_host; back_call1; back_host; back_call0; back_host; back_host; back_host; rfl
  refine (ops2_4_v23 (W10 m ρ c)).trans ?_
  rw [e]
theorem V11_v7 (c : Dev nD) : V11 m ρ c main_v7 = (truncf .bf16 ((m ((c : Thread nD τ).loc main_arg19)) : FVec Ideal S128x128 .f32) bitsLt_bf16_f32 : FVec Ideal S128x128 .bf16) := by
  have e : W2 m ρ c (Proc.devRef .tc main_arg19) = m ((c : Thread nD τ).loc main_arg19) := by
    back_host; back_host; rfl
  show W11 m ρ c (Proc.devRef .tc main_v7) = _
  back_host; back_host; back_host; back_host; back_host; back_call1; back_host; back_call0
  refine (ops0_2_v7 (W2 m ρ c)).trans ?_
  rw [e]
theorem V11_v24 (c : Dev nD) : V11 m ρ c main_v24 = shapeCast S1x128 (m ((c : Thread nD τ).loc main_arg20)) shapeCasts_S128_S1x128 := by
  have e : W10 m ρ c (Proc.devRef .tc main_arg20) = m ((c : Thread nD τ).loc main_arg20) := by
    back_host; back_host; back_host; back_host; back_call1; back_host; back_call0; back_host; back_host; back_host; rfl
  refine (ops2_4_v24 (W10 m ρ c)).trans ?_
  rw [e]
theorem V11_v25 (c : Dev nD) : V11 m ρ c main_v25 = shapeCast S1x128 (m ((c : Thread nD τ).loc main_arg21)) shapeCasts_S128_S1x128 := by
  have e : W10 m ρ c (Proc.devRef .tc main_arg21) = m ((c : Thread nD τ).loc main_arg21) := by
    back_host; back_host; back_host; back_host; back_call1; back_host; back_call0; back_host; back_host; back_host; rfl
  refine (ops2_4_v25 (W10 m ρ c)).trans ?_
  rw [e]
theorem V11_v26 (c : Dev nD) : V11 m ρ c main_v26 = shapeCast S1x128 (m ((c : Thread nD τ).loc main_arg22)) shapeCasts_S128_S1x128 := by
  have e : W10 m ρ c (Proc.devRef .tc main_arg22) = m ((c : Thread nD τ).loc main_arg22) := by
    back_host; back_host; back_host; back_host; back_call1; back_host; back_call0; back_host; back_host; back_host; rfl
  refine (ops2_4_v26 (W10 m ρ c)).trans ?_
  rw [e]

/-! ## What @main returns -/

theorem W13_v20 (c : Dev nD) :
    W13 m ρ c (Proc.devRef .tc main_v20) = (dat1 (F := Ideal) (V5 m ρ) c).arrAt 7 cfg1.N := by
  back_host; back_call2; back_host; back_host; back_host; back_host; back_host
  exact W6_arr m ρ c 7
theorem W13_v28 (c : Dev nD) :
    W13 m ρ c (Proc.devRef .tc main_v28)
      = extractStridedSlice S40962x128 ![0, 0] ((dat2 (F := Ideal) (V11 m ρ) c).arrAt 8 cfg2.N) slices_S41984x128_S40962x128_0_0 := by
  refine (ops3_v28 (W12 m ρ c)).trans ?_
  rw [show W12 m ρ c (Proc.devRef .tc main_v27) = _ from W12_arr m ρ c 8]

end Cert.KernelIdeal.Fold

end
-- ==== Proof.PreRead.lean ====
/-
  The precondition's index conjuncts, read: the printed predicate ends in four `jnp.all` conjuncts over the two index
  vectors (each entry at least 0 and below the extent of the array it indexes), and-ed onto the finiteness conjuncts; an
  `and` of one-bit words that is 1 has both operands 1, and an all-reduction by `and` that is 1 has every entry 1.
-/
import proofs.«420804_j4698694221866_1_alg».proof.Defs
import proofs.«420804_j4698694221866_1_alg».proof.Proof.Gen.Pre_finite_inputs
import proofs.«420804_j4698694221866_1_alg».proof.Proof.Fold
import Idealize.ShloMosaic.Lib.ReduceAll
import Idealize.ShloMosaic.Lib.StableHlo.Predicate

set_option maxRecDepth 16384

noncomputable section

namespace Cert.KernelIdeal.PreRead

open Cert.KernelIdeal
open Idealize.ShloMosaic Idealize.ShloMosaic.TcCoe Idealize.SL.Sem

/-- The scalar shape has one index. -/
private instance : Subsingleton Cert.Pre_finite_inputs.S_.Idx := ⟨fun a b => funext fun d => d.elim0⟩

/-- The tail of the printed predicate, read: it and-s four all-reductions onto what came before — of the source
    indices compared with 0 and with 524288, and of the destination indices compared with 0 and with 40962 —, so where
    it is 1 each of the four is 1, and each all-reduction that is 1 has every entry 1; a compare with a broadcast
    constant, read at an entry, is the compare of that entry with the constant. -/
private theorem tail_read [Cert.Pre_finite_inputs.Facts] {F : FTy → Type} [FloatOps F]
    (a3 a4 : IVec Cert.Pre_finite_inputs.S524288 32) (v98 : IVec Cert.Pre_finite_inputs.S_ 1)
    (v101 : IVec Cert.Pre_finite_inputs.S128 1) (c39 : IVec Cert.Pre_finite_inputs.S_ 1) (j : Cert.Pre_finite_inputs.S_.Idx)
    (e : Cert.Pre_finite_inputs.fn_part6 (F := F) a3 a4 v98 v101 c39 j = 1#1) :
    (∀ i, IntOp.cmpi .sge (a3 i) 0#32 = 1#1 ∧ IntOp.cmpi .slt (a3 i) 524288#32 = 1#1)
      ∧ (∀ i, IntOp.cmpi .sge (a4 i) 0#32 = 1#1 ∧ IntOp.cmpi .slt (a4 i) 40962#32 = 1#1) := by
  unfold Cert.Pre_finite_inputs.fn_part6 Cert.Pre_finite_inputs.fn_part7 at e
  obtain ⟨e1, h4⟩ := IntOp.andi_eq_one.1 e
  obtain ⟨e2, h3⟩ := IntOp.andi_eq_one.1 e1
  obtain ⟨e3, h2⟩ := IntOp.andi_eq_one.1 e2
  obtain ⟨e4, h1⟩ := IntOp.andi_eq_one.1 e3
  exact ⟨fun i => ⟨Host.reduce_andi_all _ _ _ _ _ h1 i, Host.reduce_andi_all _ _ _ _ _ h2 i⟩,
    fun i => ⟨Host.reduce_andi_all _ _ _ _ _ h3 i, Host.reduce_andi_all _ _ _ _ _ h4 i⟩⟩

/-- Under the precondition every source index names a row of the grid array and every destination index a row of the
    mesh array. -/
theorem inRange_of_pre [Cert.Pre_finite_inputs.Facts] (m : (ℓ : Loc nD τ sig) → Buf (Elt Ideal) ℓ)
    (h : Cert.Pre_KernelIdeal m) (c : Dev nD) : Cert.KernelIdeal.Fold.InRange m c := by
  have e := congrFun (h c) (fun a => a.elim0)
  exact tail_read (F := Ideal) _ _ _ _ _ _ e

end Cert.KernelIdeal.PreRead

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«420804_j4698694221866_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibMlpRows.lean ====
/-
  Rows of a two-layer perceptron with layer normalisation, read at an index at the ideal values.

  A block of `M` rows goes through a dense layer, the SiLU, a second dense layer and a layer normalisation, each row by
  itself. The lemmas here read the steps that are not entry-by-entry at an entry `(p, q)` of the block, for any number of
  rows `M`: the sum of a row (`rowSum_apply`), a column of row statistics divided by a constant (`colDiv_apply`), a
  dense layer (`dense_apply`), the two dense layers with the SiLU between them (`twoLayer_apply`), and two or three
  blocks of 128 columns laid side by side (`concat2_apply`, `concat3_apply`). Their right-hand sides are the row
  functions of Spec.lean.
-/
import Idealize.ShloMosaic.PureOps.Ideal
import Idealize.ShloMosaic.PureOps.Ideal.Laws
import Idealize.ShloMosaic.Lib.ValueIdx
import Idealize.ShloMosaic.Lib.Pipeline.Value
import proofs.«420804_j4698694221866_1_alg».proof.Proof.LibPlainMatmul
import proofs.«420804_j4698694221866_1_alg».proof.Proof.LibRowOps
import proofs.«420804_j4698694221866_1_alg».proof.Proof.LibKeepdims
import proofs.«420804_j4698694221866_1_alg».proof.Proof.Spec

noncomputable section

namespace Cert.Lib

open Idealize.ShloMosaic Idealize.ShloMosaic.ValueIdx
open Cert.Spec

/-- The sum along axis 1 of an `[M, N]` block, at row `p`: the sum of the row's entries. -/
theorem rowSum_apply {M N : ℕ} (src : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction (F := Ideal) .add [1] ⟨1, ![M]⟩ src 0x00000000#32 h hφ hacc (ix1 p) = ∑ k : Fin N, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- A length-`M` vector of row statistics viewed as a column and divided by the splat of a constant, at `(p, u)`. -/
theorem colDiv_apply {M : ℕ} (v : FVec Ideal ⟨1, ![M]⟩ .f32) (h : (⟨1, ![M]⟩ : Shape).ShapeCasts ⟨2, ![M, 1]⟩)
    (c : Ideal .f32) (p : Fin M) (u : Fin 1) :
    divf (shapeCast ⟨2, ![M, 1]⟩ v h) (broadcast ⟨2, ![M, 1]⟩ c) (ix2 p u) = Ideal.div (v (ix1 p)) c := by
  rw [divf_apply, broadcast_apply, shapeCast_a_a1_apply]

/-- The mean column of a block: the row sums over the splat of a constant, at `(p, u)`. -/
theorem rowMean_apply {M N : ℕ} (src : FVec Ideal ⟨2, ![M, N]⟩ .f32)
    (h : (⟨2, ![M, N]⟩ : Shape).Reduces [1] ⟨1, ![M]⟩) (hφ : FKind.Formats .f32)
    (hacc : (0x00000000#32 : BitVec 32) = 0x00000000#32)
    (hc : (⟨1, ![M]⟩ : Shape).ShapeCasts ⟨2, ![M, 1]⟩) (c : Ideal .f32) (p : Fin M) (u : Fin 1) :
    divf (shapeCast ⟨2, ![M, 1]⟩ (multiReduction (F := Ideal) .add [1] ⟨1, ![M]⟩ src 0x00000000#32 h hφ hacc) hc)
        (broadcast ⟨2, ![M, 1]⟩ c) (ix2 p u)
      = Ideal.div (∑ k : Fin N, src (ix2 p k)) c := by
  rw [colDiv_apply, rowSum_apply]

/-- The logistic of a block, entry by entry. -/
theorem logistic_apply {s : Shape} {φ : FTy} (a : FVec Ideal s φ) (i : s.Idx) : logistic a i = Ideal.logistic (a i) := rfl

/-- The reciprocal root of a block, entry by entry. -/
theorem rsqrt_apply {s : Shape} {φ : FTy} (a : FVec Ideal s φ) (i : s.Idx) : rsqrt a i = Ideal.rsqrt (a i) := rfl

/-- A block minus a column broadcast along its rows, at `(p, q)`. -/
theorem subCol_apply {M N : ℕ} (Y : FVec Ideal ⟨2, ![M, N]⟩ .f32) (m : FVec Ideal ⟨2, ![M, 1]⟩ .f32)
    (h : (⟨2, ![M, 1]⟩ : Shape).Broadcasts ⟨2, ![M, N]⟩) (p : Fin M) (q : Fin N) :
    subf Y (broadcastTo ⟨2, ![M, N]⟩ m h) (ix2 p q) = Y (ix2 p q) - m (ix2 p (0 : Fin 1)) := by
  rw [subf_apply, broadcastTo_a1_ab_apply]

/-- The row sums of the squares of a block, at row `p`. -/
theorem sqSum_apply {M N : ℕ} (D : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction (F := Ideal) .add [1] ⟨1, ![M]⟩ (mulf D D) 0x00000000#32 h hφ hacc (ix1 p)
      = ∑ k : Fin N, D (ix2 p k) * D (ix2 p k) :=
  rowSum_apply (mulf D D) h hφ hacc p

/-- A block scaled by the reciprocal root of a column, then by a row, then shifted by a row, at `(p, q)`. -/
theorem scaleShift_apply {M N : ℕ} (C : FVec Ideal ⟨2, ![M, N]⟩ .f32) (V : FVec Ideal ⟨2, ![M, 1]⟩ .f32)
    (g b : FVec Ideal ⟨2, ![1, N]⟩ .f32) (hc : (⟨2, ![M, 1]⟩ : Shape).Broadcasts ⟨2, ![M, N]⟩)
    (hr : (⟨2, ![1, N]⟩ : Shape).Broadcasts ⟨2, ![M, N]⟩) (p : Fin M) (q : Fin N) :
    addf (mulf (mulf C (broadcastTo ⟨2, ![M, N]⟩ (rsqrt V) hc)) (broadcastTo ⟨2, ![M, N]⟩ g hr))
        (broadcastTo ⟨2, ![M, N]⟩ b hr) (ix2 p q)
      = C (ix2 p q) * Ideal.rsqrt (V (ix2 p (0 : Fin 1))) * g (ix2 (0 : Fin 1) q) + b (ix2 (0 : Fin 1) q) := by
  rw [addf_apply, mulf_apply, mulf_apply, broadcastTo_a1_ab_apply, rsqrt_apply, broadcastTo_row_apply,
    broadcastTo_row_apply]

/-- A dense layer on a block: a plain product into the zero accumulator plus the bias row, at `(p, q)`. -/
theorem dense_apply {φ₁ φ₂ : FTy} {M K N : ℕ} (prec : Option ContractPrecision)
    (l : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec l W (constant ⟨2, ![M, N]⟩ .f32 0x00000000#32))
        (broadcastTo ⟨2, ![M, N]⟩ b hb) (ix2 p q)
      = dense (fun k => l (ix2 p k)) W (row1 b) q := by
  rw [addf_apply, matmul_plain_zero_apply, broadcastTo_row_apply]
  rfl

/-- Two dense layers with the SiLU between them, as a kernel body spells them (the operand and the hidden block
    narrowed, the weights and bias rows cast to their own shapes), at `(p, q)`: the row `p` of the operand through
    `dense`, `silu`, `dense`. -/
theorem twoLayer_apply {M K : ℕ} (prec : Option ContractPrecision)
    (l : FVec Ideal ⟨2, ![M, K]⟩ .f32) (W1 : FVec Ideal ⟨2, ![K, 128]⟩ .bf16) (b1 : FVec Ideal ⟨2, ![1, 128]⟩ .f32)
    (W2 : FVec Ideal ⟨2, ![128, 128]⟩ .bf16) (b2 : FVec Ideal ⟨2, ![1, 128]⟩ .f32)
    (hlt : FTy.bits .bf16 < FTy.bits .f32)
    (hW1 : (⟨2, ![K, 128]⟩ : Shape).ShapeCasts ⟨2, ![K, 128]⟩)
    (hW2 : (⟨2, ![128, 128]⟩ : Shape).ShapeCasts ⟨2, ![128, 128]⟩)
    (hb : (⟨2, ![1, 128]⟩ : Shape).ShapeCasts ⟨2, ![1, 128]⟩)
    (hbr : (⟨2, ![1, 128]⟩ : Shape).Broadcasts ⟨2, ![M, 128]⟩) (p : Fin M) (q : Fin 128) :
    addf (FloatOps.matmul (DotDims.plain M 128 128) prec
          (truncf .bf16
            (mulf
              (addf (FloatOps.matmul (DotDims.plain M K 128) prec (truncf .bf16 l hlt) (shapeCast ⟨2, ![K, 128]⟩ W1 hW1)
                  (constant ⟨2, ![M, 128]⟩ .f32 0x00000000#32))
                (broadcastTo ⟨2, ![M, 128]⟩ (shapeCast ⟨2, ![1, 128]⟩ b1 hb) hbr))
              (logistic
                (addf (FloatOps.matmul (DotDims.plain M K 128) prec (truncf .bf16 l hlt) (shapeCast ⟨2, ![K, 128]⟩ W1 hW1)
                    (constant ⟨2, ![M, 128]⟩ .f32 0x00000000#32))
                  (broadcastTo ⟨2, ![M, 128]⟩ (shapeCast ⟨2, ![1, 128]⟩ b1 hb) hbr))))
            hlt)
          (shapeCast ⟨2, ![128, 128]⟩ W2 hW2) (constant ⟨2, ![M, 128]⟩ .f32 0x00000000#32))
        (broadcastTo ⟨2, ![M, 128]⟩ (shapeCast ⟨2, ![1, 128]⟩ b2 hb) hbr) (ix2 p q)
      = dense (silu (dense (fun k => l (ix2 p k)) W1 (row1 b1))) W2 (row1 b2) q := by
  rw [shapeCast_self, shapeCast_self, shapeCast_self, shapeCast_self, dense_apply]
  refine congrArg (fun x => dense x W2 (row1 b2) q) (funext fun j => ?_)
  rw [truncf_apply, mulf_apply, logistic_apply, dense_apply]
  rfl

/-- Three blocks of 128 columns side by side, at `(p, k)`: the three rows `p` laid end to end. -/
theorem concat3_apply {M : ℕ} (x y z : FVec Ideal ⟨2, ![M, 128]⟩ .f32)
    (h : Shape.Concatenates [(⟨2, ![M, 128]⟩ : Shape), ⟨2, ![M, 128]⟩, ⟨2, ![M, 128]⟩] ⟨2, ![M, 384]⟩ 1)
    (p : Fin M) (k : Fin 384) :
    concatenate ⟨2, ![M, 384]⟩ 1 [⟨⟨2, ![M, 128]⟩, x⟩, ⟨⟨2, ![M, 128]⟩, y⟩, ⟨⟨2, ![M, 128]⟩, z⟩] h (ix2 p k)
      = cat3 (fun j => x (ix2 p j)) (fun j => y (ix2 p j)) (fun j => z (ix2 p j)) k := by
  unfold cat3
  split
  · rename_i h1
    refine concatenate_apply_piece (t := ⟨2, ![M, 384]⟩) (1 : Fin 2) [⟨⟨2, ![M, 128]⟩, x⟩, ⟨⟨2, ![M, 128]⟩, y⟩, ⟨⟨2, ![M, 128]⟩, z⟩] h (ix2 p k) 0 (by show 0 < 3; omega) ⟨2, ![M, 128]⟩ x rfl rfl 0 rfl
      (ix2 p ⟨k.val, h1⟩) (fun b hb => ?_) ?_
    · match b with
      | ⟨0, _⟩ => rfl
      | ⟨1, _⟩ => exact absurd rfl hb
    · show 0 + k.val = k.val
      omega
  · rename_i h1
    split
    · rename_i h2
      refine concatenate_apply_piece (t := ⟨2, ![M, 384]⟩) (1 : Fin 2) [⟨⟨2, ![M, 128]⟩, x⟩, ⟨⟨2, ![M, 128]⟩, y⟩, ⟨⟨2, ![M, 128]⟩, z⟩] h (ix2 p k) 1 (by show 1 < 3; omega) ⟨2, ![M, 128]⟩ y rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · rename_i h2
      refine concatenate_apply_piece (t := ⟨2, ![M, 384]⟩) (1 : Fin 2) [⟨⟨2, ![M, 128]⟩, x⟩, ⟨⟨2, ![M, 128]⟩, y⟩, ⟨⟨2, ![M, 128]⟩, z⟩] h (ix2 p k) 2 (by show 2 < 3; omega) ⟨2, ![M, 128]⟩ z rfl rfl 256 rfl
        (ix2 p ⟨k.val - 256, by have := k.isLt; omega⟩) (fun b hb => ?_) ?_
      · match b with
        | ⟨0, _⟩ => rfl
        | ⟨1, _⟩ => exact absurd rfl hb
      · show 256 + (k.val - 256) = k.val
        omega

/-- Two blocks of 128 columns side by side, at `(p, k)`: the two rows `p` laid end to end. -/
theorem concat2_apply {M : ℕ} (x y : FVec Ideal ⟨2, ![M, 128]⟩ .f32)
    (h : Shape.Concatenates [(⟨2, ![M, 128]⟩ : Shape), ⟨2, ![M, 128]⟩] ⟨2, ![M, 256]⟩ 1)
    (p : Fin M) (k : Fin 256) :
    concatenate ⟨2, ![M, 256]⟩ 1 [⟨⟨2, ![M, 128]⟩, x⟩, ⟨⟨2, ![M, 128]⟩, y⟩] h (ix2 p k)
      = cat2 (fun j => x (ix2 p j)) (fun j => y (ix2 p j)) k := by
  unfold cat2
  split
  · rename_i h1
    refine concatenate_apply_piece (t := ⟨2, ![M, 256]⟩) (1 : Fin 2) [⟨⟨2, ![M, 128]⟩, x⟩, ⟨⟨2, ![M, 128]⟩, y⟩] h (ix2 p k) 0 (by show 0 < 2; omega) ⟨2, ![M, 128]⟩ x rfl rfl 0 rfl
      (ix2 p ⟨k.val, h1⟩) (fun b hb => ?_) ?_
    · match b with
      | ⟨0, _⟩ => rfl
      | ⟨1, _⟩ => exact absurd rfl hb
    · show 0 + k.val = k.val
      omega
  · rename_i h1
    refine concatenate_apply_piece (t := ⟨2, ![M, 256]⟩) (1 : Fin 2) [⟨⟨2, ![M, 128]⟩, x⟩, ⟨⟨2, ![M, 128]⟩, y⟩] h (ix2 p k) 1 (by show 1 < 2; omega) ⟨2, ![M, 128]⟩ y rfl rfl 128 rfl
      (ix2 p ⟨k.val - 128, by have := k.isLt; omega⟩) (fun b hb => ?_) ?_
    · match b with
      | ⟨0, _⟩ => rfl
      | ⟨1, _⟩ => exact absurd rfl hb
    · show 128 + (k.val - 128) = k.val
      omega

end Cert.Lib

end
-- ==== Proof.Blocks.lean ====
/-
  What each kernel body leaves in its output block, as a function of the blocks it loads: the rows of the block are
  the perceptron of the rows of the input blocks (Spec.lean), with the residual row added where the kernel adds it.

  Each proof reads the stored value at an entry `(p, q)` of the block. The two dense layers with the SiLU between them
  are one value `Y`, whose row `p` is the row function of Spec.lean applied to the input rows (`twoLayer_apply`, with the
  operand's rows read through the concatenation where there is one). The rest is the layer normalisation of `Y`: the
  mean column is the row sum over the divisor word, the centred block is `Y` minus that column, the variance column is
  the row sum of the squares of the centred block over the divisor word, and the result is the centred entry times the
  reciprocal root of the variance plus the small constant, times the scale row, plus the shift row.
-/
import proofs.«420804_j4698694221866_1_alg».proof.Proof.Gen.KernelIdeal.Frame
import proofs.«420804_j4698694221866_1_alg».proof.Proof.Spec
import proofs.«420804_j4698694221866_1_alg».proof.Proof.LibMlpRows

noncomputable section

namespace Cert.KernelIdeal.Blocks

open Cert.KernelIdeal Cert.KernelIdeal.Gen
open Idealize.ShloMosaic Idealize.ShloMosaic.ValueIdx
open Cert.Spec

/-- The edge kernel's block: each row is the perceptron of the three input rows laid end to end. -/
theorem edge_block (x0 x1 x2 : Vec Ideal S8192x128 .f32) (x3 : Vec Ideal S384x128 .bf16) (x4 : Vec Ideal S1x128 .f32)
    (x5 : Vec Ideal S128x128 .bf16) (x6 x7 x8 : Vec Ideal S1x128 .f32) :
    out0_9 (F := Ideal) x0 x1 x2 x3 x4 x5 x6 x7 x8
      = edgeOut (M := 8192) x0 x1 x2 x3 (row1 x4) x5 (row1 x6) (row1 x7) (row1 x8) := by
  have hz : (![0, 0] : Fin 2 → Nat) = fun _ => 0 := funext fun a => by fin_cases a <;> rfl
  unfold out0_9
  rw [View.canon_unit_zero hz]
  simp only [View.ld_unit_zero (S := S8192x128) hz, View.ld_unit_zero (S := S384x128) hz,
    View.ld_unit_zero (S := S1x128) hz, View.ld_unit_zero (S := S128x128) hz]
  funext i
  obtain ⟨p, q, rfl⟩ : ∃ (p : Fin 8192) (q : Fin 128), i = ix2 p q := ⟨i 0, i 1, eq_ix2 i⟩
  have hY : ∀ (r : Fin 8192) (j : Fin 128), k0_pay2 x0 x1 x2 x3 x4 x5 x6 (ix2 r j)
      = dense (silu (dense (cat3 (row x0 r) (row x1 r) (row x2 r)) x3 (row1 x4))) x5 (row1 x6) j := by
    intro r j
    unfold k0_pay2
    refine (Cert.Lib.twoLayer_apply none _ x3 x4 x5 x6 _ _ _ _ _ r j).trans ?_
    refine congrArg (fun x => dense (silu (dense x x3 (row1 x4))) x5 (row1 x6) j) (funext fun k => ?_)
    rw [shapeCast_self, shapeCast_self]
    exact Cert.Lib.concat3_apply x0 x1 x2 _ r k
  unfold k0_pay1 k0_pay3 k0_pay4 k0_pay6 k0_pay5
  generalize k0_pay2 x0 x1 x2 x3 x4 x5 x6 = Y at hY ⊢
  have hsum : ∀ (Z : FVec Ideal S8192x128 .f32) (r : Fin 8192),
      multiReduction (F := Ideal) .add [1] S8192 Z 0x00000000#32 reduces_S8192x128_S8192 (.inl rfl) rfl (ix1 r)
        = ∑ k : Fin 128, Z (ix2 r k) := fun Z r => Cert.Lib.rowSum_apply Z _ _ _ r
  simp only [Cert.Lib.scaleShift_apply]
  simp only [Cert.Lib.subCol_apply, shapeCast_self]
  simp only [addf_apply, broadcast_apply, Cert.Lib.colDiv_apply, hsum]
  simp only [mulf_apply, Cert.Lib.subCol_apply, Cert.Lib.colDiv_apply, hsum]
  show _ = lnorm (dense (silu (dense (cat3 (row x0 p) (row x1 p) (row x2 p)) x3 (row1 x4))) x5 (row1 x6))
    (row1 x7) (row1 x8) q
  rw [show dense (silu (dense (cat3 (row x0 p) (row x1 p) (row x2 p)) x3 (row1 x4))) x5 (row1 x6)
    = fun j => Y (ix2 p j) from funext fun j => (hY p j).symm]
  rfl

/-- The grid kernel's block: each row plus its perceptron. -/
theorem grid_block (x0 : Vec Ideal S8192x128 .f32) (x1 : Vec Ideal S128x128 .bf16) (x2 : Vec Ideal S1x128 .f32)
    (x3 : Vec Ideal S128x128 .bf16) (x4 x5 x6 : Vec Ideal S1x128 .f32) :
    out1_7 (F := Ideal) x0 x1 x2 x3 x4 x5 x6
      = gridOut (M := 8192) x0 x1 (row1 x2) x3 (row1 x4) (row1 x5) (row1 x6) := by
  have hz : (![0, 0] : Fin 2 → Nat) = fun _ => 0 := funext fun a => by fin_cases a <;> rfl
  unfold out1_7
  rw [View.canon_unit_zero hz]
  simp only [View.ld_unit_zero (S := S8192x128) hz, View.ld_unit_zero (S := S128x128) hz,
    View.ld_unit_zero (S := S1x128) hz]
  funext i
  obtain ⟨p, q, rfl⟩ : ∃ (p : Fin 8192) (q : Fin 128), i = ix2 p q := ⟨i 0, i 1, eq_ix2 i⟩
  have hY : ∀ (r : Fin 8192) (j : Fin 128), k1_pay2 x0 x1 x2 x3 x4 (ix2 r j)
      = dense (silu (dense (row x0 r) x1 (row1 x2))) x3 (row1 x4) j := by
    intro r j
    unfold k1_pay2
    exact Cert.Lib.twoLayer_apply none x0 x1 x2 x3 x4 _ _ _ _ _ r j
  unfold k1_pay1 k1_pay3 k1_pay4 k1_pay6 k1_pay7 k1_pay5
  generalize k1_pay2 x0 x1 x2 x3 x4 = Y at hY ⊢
  have hsum : ∀ (Z : FVec Ideal S8192x128 .f32) (r : Fin 8192),
      multiReduction (F := Ideal) .add [1] S8192 Z 0x00000000#32 reduces_S8192x128_S8192 (.inl rfl) rfl (ix1 r)
        = ∑ k : Fin 128, Z (ix2 r k) := fun Z r => Cert.Lib.rowSum_apply Z _ _ _ r
  rw [addf_apply]
  simp only [Cert.Lib.scaleShift_apply]
  simp only [Cert.Lib.subCol_apply, shapeCast_self]
  simp only [addf_apply, broadcast_apply, Cert.Lib.colDiv_apply, hsum]
  simp only [mulf_apply, Cert.Lib.subCol_apply, Cert.Lib.colDiv_apply, hsum]
  show _ = x0 (ix2 p q) + lnorm (dense (silu (dense (row x0 p) x1 (row1 x2))) x3 (row1 x4)) (row1 x5) (row1 x6) q
  rw [show dense (silu (dense (row x0 p) x1 (row1 x2))) x3 (row1 x4) = fun j => Y (ix2 p j) from
    funext fun j => (hY p j).symm]
  rfl

/-- The mesh kernel's block: each mesh row plus the perceptron of the aggregated row and the mesh row. -/
theorem mesh_block (x0 x1 : Vec Ideal S1024x128 .f32) (x2 : Vec Ideal S256x128 .bf16) (x3 : Vec Ideal S1x128 .f32)
    (x4 : Vec Ideal S128x128 .bf16) (x5 x6 x7 : Vec Ideal S1x128 .f32) :
    out2_8 (F := Ideal) x0 x1 x2 x3 x4 x5 x6 x7
      = meshOut (M := 1024) x0 x1 x2 (row1 x3) x4 (row1 x5) (row1 x6) (row1 x7) := by
  have hz : (![0, 0] : Fin 2 → Nat) = fun _ => 0 := funext fun a => by fin_cases a <;> rfl
  unfold out2_8
  rw [View.canon_unit_zero hz]
  simp only [View.ld_unit_zero (S := S1024x128) hz, View.ld_unit_zero (S := S256x128) hz,
    View.ld_unit_zero (S := S128x128) hz, View.ld_unit_zero (S := S1x128) hz]
  funext i
  obtain ⟨p, q, rfl⟩ : ∃ (p : Fin 1024) (q : Fin 128), i = ix2 p q := ⟨i 0, i 1, eq_ix2 i⟩
  have hY : ∀ (r : Fin 1024) (j : Fin 128), k2_pay3 x0 x1 x2 x3 x4 x5 (ix2 r j)
      = dense (silu (dense (cat2 (row x0 r) (row x1 r)) x2 (row1 x3))) x4 (row1 x5) j := by
    intro r j
    unfold k2_pay3 k2_pay2
    refine (Cert.Lib.twoLayer_apply none _ x2 x3 x4 x5 _ _ _ _ _ r j).trans ?_
    refine congrArg (fun x => dense (silu (dense x x2 (row1 x3))) x4 (row1 x5) j) (funext fun k => ?_)
    rw [shapeCast_self, shapeCast_self]
    exact Cert.Lib.concat2_apply x0 x1 _ r k
  unfold k2_pay1 k2_pay2 k2_pay4 k2_pay5 k2_pay7 k2_pay6 k2_pay8
  generalize k2_pay3 x0 x1 x2 x3 x4 x5 = Y at hY ⊢
  have hsum : ∀ (Z : FVec Ideal S1024x128 .f32) (r : Fin 1024),
      multiReduction (F := Ideal) .add [1] S1024 Z 0x00000000#32 reduces_S1024x128_S1024 (.inl rfl) rfl (ix1 r)
        = ∑ k : Fin 128, Z (ix2 r k) := fun Z r => Cert.Lib.rowSum_apply Z _ _ _ r
  rw [addf_apply]
  simp only [Cert.Lib.scaleShift_apply]
  simp only [Cert.Lib.subCol_apply, shapeCast_self]
  simp only [addf_apply, divf_apply, broadcast_apply, Cert.Lib.shapeCast_a_a1_apply, hsum]
  simp only [mulf_apply, Cert.Lib.subCol_apply, divf_apply, broadcast_apply, Cert.Lib.shapeCast_a_a1_apply, hsum]
  show _ = x1 (ix2 p q) + lnorm (dense (silu (dense (cat2 (row x0 p) (row x1 p)) x2 (row1 x3))) x4 (row1 x5))
    (row1 x6) (row1 x7) q
  rw [show dense (silu (dense (cat2 (row x0 p) (row x1 p)) x2 (row1 x3))) x4 (row1 x5) = fun j => Y (ix2 p j) from
    funext fun j => (hY p j).symm]
  rfl

end Cert.KernelIdeal.Blocks

end
-- ==== Proof.Arrays.lean ====
/-
  From blocks to arrays: each pallas_call's result array, after all grid points have written their blocks back, is one
  function of the arrays the call reads. Point `t` writes rows `t·B … t·B + B − 1` (B the block's row count), and those
  rows of the result depend only on the same rows of the row-blocked inputs and on the whole weight arrays.
-/
import proofs.«420804_j4698694221866_1_alg».proof.Proof.Gen.KernelIdeal.Frame
import proofs.«420804_j4698694221866_1_alg».proof.Proof.Spec
import proofs.«420804_j4698694221866_1_alg».proof.Proof.Blocks
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

variable (V : (c : Dev nD) → (b : Ref sig .tc) → Buf (Elt Ideal) ((c : Thread nD τ).loc b))

/-! ## The edge call -/

/-- The edge call's index maps, decided over its 64 points: the three row-blocked inputs and the result sit at row
    block `t`, column block 0; the six weight arrays sit at block (0, 0). -/
theorem edge_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Entry `y` of the edge-row block at point `t` is entry (`8192·t + y₀`, `y₁`) of the edge array. -/
theorem edge_rows0 (c : Dev nD) (t : Fin cfg0.N) (y : S8192x128.Idx) (i : S524288x128.Idx)
    (h0 : (i 0).val = 8192 * t.val + (y 0).val) (h1 : (i 1).val = (y 1).val) :
    (iblk0 V c 0 t : Vec Ideal S8192x128 .f32) y = (V c main_arg0 : S524288x128.Idx → EReal) i := by
  obtain ⟨⟨e0, e1⟩, -⟩ := edge_idx t
  show V c main_arg0 (((cfg0.win 0).blk t).view.emb y) = V c main_arg0 i
  congr 1
  funext a; apply Fin.ext
  match a with
  | ⟨0, _⟩ => show win0_0.index t (0 : Fin 2) * 8192 + 1 * (y 0).val = (i 0).val; rw [e0, h0]; omega
  | ⟨1, _⟩ => show win0_0.index t (1 : Fin 2) * 128 + 1 * (y 1).val = (i 1).val; rw [e1, h1]; omega

/-- The same for the block of gathered source rows. -/
theorem edge_rows1 (c : Dev nD) (t : Fin cfg0.N) (y : S8192x128.Idx) (i : S524288x128.Idx)
    (h0 : (i 0).val = 8192 * t.val + (y 0).val) (h1 : (i 1).val = (y 1).val) :
    (iblk0 V c 1 t : Vec Ideal S8192x128 .f32) y = (V c main_v0 : S524288x128.Idx → EReal) i := by
  obtain ⟨-, ⟨e0, e1⟩, -⟩ := edge_idx t
  show V c main_v0 (((cfg0.win 1).blk t).view.emb y) = V c main_v0 i
  congr 1
  funext a; apply Fin.ext
  match a with
  | ⟨0, _⟩ => show win0_1.index t (0 : Fin 2) * 8192 + 1 * (y 0).val = (i 0).val; rw [e0, h0]; omega
  | ⟨1, _⟩ => show win0_1.index t (1 : Fin 2) * 128 + 1 * (y 1).val = (i 1).val; rw [e1, h1]; omega

/-- The same for the block of gathered destination rows. -/
theorem edge_rows2 (c : Dev nD) (t : Fin cfg0.N) (y : S8192x128.Idx) (i : S524288x128.Idx)
    (h0 : (i 0).val = 8192 * t.val + (y 0).val) (h1 : (i 1).val = (y 1).val) :
    (iblk0 V c 2 t : Vec Ideal S8192x128 .f32) y = (V c main_v1 : S524288x128.Idx → EReal) i := by
  obtain ⟨-, -, ⟨e0, e1⟩, -⟩ := edge_idx t
  show V c main_v1 (((cfg0.win 2).blk t).view.emb y) = V c main_v1 i
  congr 1
  funext a; apply Fin.ext
  match a with
  | ⟨0, _⟩ => show win0_2.index t (0 : Fin 2) * 8192 + 1 * (y 0).val = (i 0).val; rw [e0, h0]; omega
  | ⟨1, _⟩ => show win0_2.index t (1 : Fin 2) * 128 + 1 * (y 1).val = (i 1).val; rw [e1, h1]; omega

/-- The first weight matrix's window holds the whole matrix at every point. -/
theorem edge_whole3 (c : Dev nD) (t : Fin cfg0.N) :
    (iblk0 V c 3 t : Vec Ideal S384x128 .bf16) = (V c main_v2 : S384x128.Idx → EReal) := by
  obtain ⟨-, -, -, ⟨e0, e1⟩, -⟩ := edge_idx t
  funext y
  show V c main_v2 (((cfg0.win 3).blk t).view.emb y) = V c main_v2 y
  congr 1
  funext a; apply Fin.ext
  match a with
  | ⟨0, _⟩ => show win0_3.index t (0 : Fin 2) * 384 + 1 * (y 0).val = (y 0).val; rw [e0]; omega
  | ⟨1, _⟩ => show win0_3.index t (1 : Fin 2) * 128 + 1 * (y 1).val = (y 1).val; rw [e1]; omega

/-- The first bias row's window holds the whole row at every point. -/
theorem edge_whole4 (c : Dev nD) (t : Fin cfg0.N) :
    (iblk0 V c 4 t : Vec Ideal S1x128 .f32) = (V c main_v8 : S1x128.Idx → EReal) := by
  obtain ⟨-, -, -, -, ⟨e0, e1⟩, -⟩ := edge_idx t
  funext y
  show V c main_v8 (((cfg0.win 4).blk t).view.emb y) = V c main_v8 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix's window holds the whole matrix at every point. -/
theorem edge_whole5 (c : Dev nD) (t : Fin cfg0.N) :
    (iblk0 V c 5 t : Vec Ideal S128x128 .bf16) = (V c main_v3 : S128x128.Idx → EReal) := by
  obtain ⟨-, -, -, -, -, ⟨e0, e1⟩, -⟩ := edge_idx t
  funext y
  show V c main_v3 (((cfg0.win 5).blk t).view.emb y) = V c main_v3 y
  congr 1
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The second bias row's window holds the whole row at every point. -/
theorem edge_whole6 (c : Dev nD) (t : Fin cfg0.N) :
    (iblk0 V c 6 t : Vec Ideal S1x128 .f32) = (V c main_v9 : S1x128.Idx → EReal) := by
  obtain ⟨-, -, -, -, -, -, ⟨e0, e1⟩, -⟩ := edge_idx t
  funext y
  show V c main_v9 (((cfg0.win 6).blk t).view.emb y) = V c main_v9 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The normalisation's scale row's window holds the whole row at every point. -/
theorem edge_whole7 (c : Dev nD) (t : Fin cfg0.N) :
    (iblk0 V c 7 t : Vec Ideal S1x128 .f32) = (V c main_v10 : S1x128.Idx → EReal) := by
  obtain ⟨-, -, -, -, -, -, -, ⟨e0, e1⟩, -⟩ := edge_idx t
  funext y
  show V c main_v10 (((cfg0.win 7).blk t).view.emb y) = V c main_v10 y
  congr 1
  funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The normalisation's shift row's window holds the whole row at every point. -/
theorem edge_whole8 (c : Dev nD) (t : Fin cfg0.N) :
    (iblk0 V c 8 t : Vec Ideal S1x128 .f32) = (V c main_v11 : S1x128.Idx → EReal) := by
  obtain ⟨-, -, -, -, -, -, -, -, ⟨e0, e1⟩, -⟩ := edge_idx t
  funext y
  show V c main_v11 (((cfg0.win 8).blk t).view.emb y) = V c main_v11 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Entry `y` of the result block at point `t` lands at entry (`8192·t + y₀`, `y₁`) of the result array. -/
theorem edge_out_at (t : Fin cfg0.N) (y : S8192x128.Idx) :
    ((((cfg0.win 9).blk t).view.emb y) 0).val = 8192 * t.val + (y 0).val
    ∧ ((((cfg0.win 9).blk t).view.emb y) 1).val = (y 1).val := by
  obtain ⟨-, -, -, -, -, -, -, -, -, e0, e1⟩ := edge_idx t
  constructor
  · show win0_9.index t (0 : Fin 2) * 8192 + 1 * (y 0).val = _; rw [e0]; omega
  · show win0_9.index t (1 : Fin 2) * 128 + 1 * (y 1).val = _; rw [e1]; omega

/-- What point `t` writes back is block `t` of the edge features of the whole arrays: row `8192·t + p` of the result is the
    perceptron of rows `8192·t + p` of the three row-blocked arrays. -/
theorem edge_flushed (c : Dev nD) (t : Fin cfg0.N) :
    (dat0 (F := Ideal) V c).flushed 9 t = ((cfg0.win 9).blk t).view.read (Elt Ideal)
      (edgeOut (M := 524288) (V c main_arg0) (V c main_v0) (V c main_v1) (V c main_v2) (row1 (V c main_v8))
          (V c main_v3) (row1 (V c main_v9)) (row1 (V c main_v10)) (row1 (V c main_v11))) := by
  show (cfg0.win 9).cut (grid0.coords t) ((dat0 (F := Ideal) V c).after 9 t) = _
  rw [after0_9, Blocks.edge_block, edge_whole3, edge_whole4, edge_whole5, edge_whole6, edge_whole7, edge_whole8]
  funext y
  obtain ⟨r0, r1⟩ := edge_out_at t y
  show edgeOut (M := 8192) (iblk0 V c 0 t) (iblk0 V c 1 t) (iblk0 V c 2 t) _ _ _ _ _ _ y
     = edgeOut (M := 524288) _ _ _ _ _ _ _ _ _ (((cfg0.win 9).blk t).view.emb y)
  unfold edgeOut
  have hE : row (M := 8192) (iblk0 V c 0 t : Vec Ideal S8192x128 .f32) (y 0)
      = row (M := 524288) (V c main_arg0) ((((cfg0.win 9).blk t).view.emb y) 0) :=
    funext fun k => edge_rows0 V c t _ _ r0 rfl
  have hS : row (M := 8192) (iblk0 V c 1 t : Vec Ideal S8192x128 .f32) (y 0)
      = row (M := 524288) (V c main_v0) ((((cfg0.win 9).blk t).view.emb y) 0) :=
    funext fun k => edge_rows1 V c t _ _ r0 rfl
  have hD : row (M := 8192) (iblk0 V c 2 t : Vec Ideal S8192x128 .f32) (y 0)
      = row (M := 524288) (V c main_v1) ((((cfg0.win 9).blk t).view.emb y) 0) :=
    funext fun k => edge_rows2 V c t _ _ r0 rfl
  rw [hE, hS, hD]
  exact congrArg _ (Fin.ext r1.symm)

/-- An entry of the result array is in point `t`'s block iff each coordinate is in the block's range on its axis. -/
theorem edge_mem_blk (t : Fin cfg0.N) (i : S524288x128.Idx) :
    i ∈ ((cfg0.win 9).blk t).view.set ↔ ∀ a : Fin 2, win0_9.index t a * S8192x128.size a ≤ (i a).val
      ∧ (i a).val < win0_9.index t a * S8192x128.size a + S8192x128.size a := by
  show i ∈ ((View.whole main_v12).slice (win0_9.rect t)).set ↔ _
  rw [View.set_slice_whole, Rect.mem_set_unit]
  exact Iff.rfl

/-- Row `r` of the result array is written by point `r / 8192`. -/
theorem edge_cover (i : S524288x128.Idx) :
    ∃ t : Fin cfg0.N, (cfg0.win 9).flush t = true ∧ i ∈ ((cfg0.win 9).blk t).view.set := by
  have hi0 : (i 0).val < 524288 := (i 0).isLt
  have hi1 : (i 1).val < 128 := (i 1).isLt
  obtain ⟨t, ht⟩ : ∃ t : Fin cfg0.N, t.val = (i 0).val / 8192 :=
    ⟨⟨(i 0).val / 8192, by rw [show cfg0.N = 64 from N_0]; omega⟩, rfl⟩
  obtain ⟨-, -, -, -, -, -, -, -, -, e0, e1⟩ := edge_idx t
  refine ⟨t, flush0_9 t, ?_⟩
  rw [edge_mem_blk]
  intro a
  match a with
  | ⟨0, _⟩ =>
    show win0_9.index t (0 : Fin 2) * 8192 ≤ (i 0).val ∧ (i 0).val < win0_9.index t (0 : Fin 2) * 8192 + 8192
    rw [e0]; omega
  | ⟨1, _⟩ =>
    show win0_9.index t (1 : Fin 2) * 128 ≤ (i 1).val ∧ (i 1).val < win0_9.index t (1 : Fin 2) * 128 + 128
    rw [e1]; omega

/-- The edge call's result array. -/
theorem edge_final (c : Dev nD) :
    (dat0 (F := Ideal) V c).arrAt 9 cfg0.N
      = edgeOut (M := 524288) (V c main_arg0) (V c main_v0) (V c main_v1) (V c main_v2) (row1 (V c main_v8))
          (V c main_v3) (row1 (V c main_v9)) (row1 (V c main_v10)) (row1 (V c main_v11)) :=
  (dat0 (F := Ideal) V c).arrAt_eq_of_cover 9 _ (fun t _ => edge_flushed V c t) edge_cover

/-! ## The grid-node call -/

/-- The grid-node call's index maps, decided over its 64 points: the row-blocked input and the result sit at row block
    `t`, column block 0; the six weight arrays sit at block (0, 0). -/
theorem grid_idx : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Entry `y` of the grid-row block at point `t` is entry (`8192·t + y₀`, `y₁`) of the grid-node array. -/
theorem grid_rows0 (c : Dev nD) (t : Fin cfg1.N) (y : S8192x128.Idx) (i : S524288x128.Idx)
    (h0 : (i 0).val = 8192 * t.val + (y 0).val) (h1 : (i 1).val = (y 1).val) :
    (iblk1 V c 0 t : Vec Ideal S8192x128 .f32) y = (V c main_arg1 : S524288x128.Idx → EReal) i := by
  obtain ⟨⟨e0, e1⟩, -⟩ := grid_idx t
  show V c main_arg1 (((cfg1.win 0).blk t).view.emb y) = V c main_arg1 i
  congr 1
  funext a; apply Fin.ext
  match a with
  | ⟨0, _⟩ => show win1_0.index t (0 : Fin 2) * 8192 + 1 * (y 0).val = (i 0).val; rw [e0, h0]; omega
  | ⟨1, _⟩ => show win1_0.index t (1 : Fin 2) * 128 + 1 * (y 1).val = (i 1).val; rw [e1, h1]; omega

/-- The first weight matrix's window holds the whole matrix at every point. -/
theorem grid_whole1 (c : Dev nD) (t : Fin cfg1.N) :
    (iblk1 V c 1 t : Vec Ideal S128x128 .bf16) = (V c main_v4 : S128x128.Idx → EReal) := by
  obtain ⟨-, ⟨e0, e1⟩, -⟩ := grid_idx t
  funext y
  show V c main_v4 (((cfg1.win 1).blk t).view.emb y) = V c main_v4 y
  congr 1
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The first bias row's window holds the whole row at every point. -/
theorem grid_whole2 (c : Dev nD) (t : Fin cfg1.N) :
    (iblk1 V c 2 t : Vec Ideal S1x128 .f32) = (V c main_v16 : S1x128.Idx → EReal) := by
  obtain ⟨-, -, ⟨e0, e1⟩, -⟩ := grid_idx t
  funext y
  show V c main_v16 (((cfg1.win 2).blk t).view.emb y) = V c main_v16 y
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second weight matrix's window holds the whole matrix at every point. -/
theorem grid_whole3 (c : Dev nD) (t : Fin cfg1.N) :
    (iblk1 V c 3 t : Vec Ideal S128x128 .bf16) = (V c main_v5 : S128x128.Idx → EReal) := by
  obtain ⟨-, -, -, ⟨e0, e1⟩, -⟩ := grid_idx t
  funext y
  show V c main_v5 (((cfg1.win 3).blk t).view.emb y) = V c main_v5 y
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second bias row's window holds the whole row at every point. -/
theorem grid_whole4 (c : Dev nD) (t : Fin cfg1.N) :
    (iblk1 V c 4 t : Vec Ideal S1x128 .f32) = (V c main_v17 : S1x128.Idx → EReal) := by
  obtain ⟨-, -, -, -, ⟨e0, e1⟩, -⟩ := grid_idx t
  funext y
  show V c main_v17 (((cfg1.win 4).blk t).view.emb y) = V c main_v17 y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The normalisation's scale row's window holds the whole row at every point. -/
theorem grid_whole5 (c : Dev nD) (t : Fin cfg1.N) :
    (iblk1 V c 5 t : Vec Ideal S1x128 .f32) = (V c main_v18 : S1x128.Idx → EReal) := by
  obtain ⟨-, -, -, -, -, ⟨e0, e1⟩, -⟩ := grid_idx t
  funext y
  show V c main_v18 (((cfg1.win 5).blk t).view.emb y) = V c main_v18 y
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The normalisation's shift row's window holds the whole row at every point. -/
theorem grid_whole6 (c : Dev nD) (t : Fin cfg1.N) :
    (iblk1 V c 6 t : Vec Ideal S1x128 .f32) = (V c main_v19 : S1x128.Idx → EReal) := by
  obtain ⟨-, -, -, -, -, -, ⟨e0, e1⟩, -⟩ := grid_idx t
  funext y
  show V c main_v19 (((cfg1.win 6).blk t).view.emb y) = V c main_v19 y
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Entry `y` of the result block at point `t` lands at entry (`8192·t + y₀`, `y₁`) of the result array. -/
theorem grid_out_at (t : Fin cfg1.N) (y : S8192x128.Idx) :
    ((((cfg1.win 7).blk t).view.emb y) 0).val = 8192 * t.val + (y 0).val
    ∧ ((((cfg1.win 7).blk t).view.emb y) 1).val = (y 1).val := by
  obtain ⟨-, -, -, -, -, -, -, e0, e1⟩ := grid_idx t
  constructor
  · show win1_7.index t (0 : Fin 2) * 8192 + 1 * (y 0).val = _; rw [e0]; omega
  · show win1_7.index t (1 : Fin 2) * 128 + 1 * (y 1).val = _; rw [e1]; omega

/-- What point `t` writes back is block `t` of the grid nodes' result on the whole arrays: row `8192·t + p` of the result is
    row `8192·t + p` of the grid-node array plus its perceptron. -/
theorem grid_flushed (c : Dev nD) (t : Fin cfg1.N) :
    (dat1 (F := Ideal) V c).flushed 7 t = ((cfg1.win 7).blk t).view.read (Elt Ideal)
      (gridOut (M := 524288) (V c main_arg1) (V c main_v4) (row1 (V c main_v16)) (V c main_v5)
          (row1 (V c main_v17)) (row1 (V c main_v18)) (row1 (V c main_v19))) := by
  show (cfg1.win 7).cut (grid1.coords t) ((dat1 (F := Ideal) V c).after 7 t) = _
  rw [after1_7, Blocks.grid_block, grid_whole1, grid_whole2, grid_whole3, grid_whole4, grid_whole5, grid_whole6]
  funext y
  obtain ⟨r0, r1⟩ := grid_out_at t y
  show gridOut (M := 8192) (iblk1 V c 0 t) _ _ _ _ _ _ y
     = gridOut (M := 524288) _ _ _ _ _ _ _ (((cfg1.win 7).blk t).view.emb y)
  unfold gridOut
  have hX : (iblk1 V c 0 t : Vec Ideal S8192x128 .f32) y
      = (V c main_arg1 : S524288x128.Idx → EReal) (((cfg1.win 7).blk t).view.emb y) :=
    grid_rows0 V c t _ _ r0 r1
  have hR : row (M := 8192) (iblk1 V c 0 t : Vec Ideal S8192x128 .f32) (y 0)
      = row (M := 524288) (V c main_arg1) ((((cfg1.win 7).blk t).view.emb y) 0) :=
    funext fun k => grid_rows0 V c t _ _ r0 rfl
  rw [hX, hR]
  exact congrArg _ (congrArg _ (Fin.ext r1.symm))

/-- An entry of the result array is in point `t`'s block iff each coordinate is in the block's range on its axis. -/
theorem grid_mem_blk (t : Fin cfg1.N) (i : S524288x128.Idx) :
    i ∈ ((cfg1.win 7).blk t).view.set ↔ ∀ a : Fin 2, win1_7.index t a * S8192x128.size a ≤ (i a).val
      ∧ (i a).val < win1_7.index t a * S8192x128.size a + S8192x128.size a := by
  show i ∈ ((View.whole main_v20).slice (win1_7.rect t)).set ↔ _
  rw [View.set_slice_whole, Rect.mem_set_unit]
  exact Iff.rfl

/-- Row `r` of the result array is written by point `r / 8192`. -/
theorem grid_cover (i : S524288x128.Idx) :
    ∃ t : Fin cfg1.N, (cfg1.win 7).flush t = true ∧ i ∈ ((cfg1.win 7).blk t).view.set := by
  have hi0 : (i 0).val < 524288 := (i 0).isLt
  have hi1 : (i 1).val < 128 := (i 1).isLt
  obtain ⟨t, ht⟩ : ∃ t : Fin cfg1.N, t.val = (i 0).val / 8192 :=
    ⟨⟨(i 0).val / 8192, by rw [show cfg1.N = 64 from N_1]; omega⟩, rfl⟩
  obtain ⟨-, -, -, -, -, -, -, e0, e1⟩ := grid_idx t
  refine ⟨t, flush1_7 t, ?_⟩
  rw [grid_mem_blk]
  intro a
  match a with
  | ⟨0, _⟩ =>
    show win1_7.index t (0 : Fin 2) * 8192 ≤ (i 0).val ∧ (i 0).val < win1_7.index t (0 : Fin 2) * 8192 + 8192
    rw [e0]; omega
  | ⟨1, _⟩ =>
    show win1_7.index t (1 : Fin 2) * 128 ≤ (i 1).val ∧ (i 1).val < win1_7.index t (1 : Fin 2) * 128 + 128
    rw [e1]; omega

/-- The grid call's result array. -/
theorem grid_final (c : Dev nD) :
    (dat1 (F := Ideal) V c).arrAt 7 cfg1.N
      = gridOut (M := 524288) (V c main_arg1) (V c main_v4) (row1 (V c main_v16)) (V c main_v5)
          (row1 (V c main_v17)) (row1 (V c main_v18)) (row1 (V c main_v19)) :=
  (dat1 (F := Ideal) V c).arrAt_eq_of_cover 7 _ (fun t _ => grid_flushed V c t) grid_cover

/-! ## The mesh-node call -/

/-- The mesh-node call's index maps, decided over its 41 points: the two row-blocked inputs and the result sit at row
    block `t`, column block 0; the six weight arrays sit at block (0, 0). -/
theorem mesh_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- Entry `y` of the aggregated-row block at point `t` is entry (`1024·t + y₀`, `y₁`) of the aggregated array. -/
theorem mesh_rows0 (c : Dev nD) (t : Fin cfg2.N) (y : S1024x128.Idx) (i : S41984x128.Idx)
    (h0 : (i 0).val = 1024 * t.val + (y 0).val) (h1 : (i 1).val = (y 1).val) :
    (iblk2 V c 0 t : Vec Ideal S1024x128 .f32) y = (V c main_v21 : S41984x128.Idx → EReal) i := by
  obtain ⟨⟨e0, e1⟩, -⟩ := mesh_idx t
  show V c main_v21 (((cfg2.win 0).blk t).view.emb y) = V c main_v21 i
  congr 1
  funext a; apply Fin.ext
  match a with
  | ⟨0, _⟩ => show win2_0.index t (0 : Fin 2) * 1024 + 1 * (y 0).val = (i 0).val; rw [e0, h0]; omega
  | ⟨1, _⟩ => show win2_0.index t (1 : Fin 2) * 128 + 1 * (y 1).val = (i 1).val; rw [e1, h1]; omega

/-- The same for the block of mesh-node rows. -/
theorem mesh_rows1 (c : Dev nD) (t : Fin cfg2.N) (y : S1024x128.Idx) (i : S41984x128.Idx)
    (h0 : (i 0).val = 1024 * t.val + (y 0).val) (h1 : (i 1).val = (y 1).val) :
    (iblk2 V c 1 t : Vec Ideal S1024x128 .f32) y = (V c main_v22 : S41984x128.Idx → EReal) i := by
  obtain ⟨-, ⟨e0, e1⟩, -⟩ := mesh_idx t
  show V c main_v22 (((cfg2.win 1).blk t).view.emb y) = V c main_v22 i
  congr 1
  funext a; apply Fin.ext
  match a with
  | ⟨0, _⟩ => show win2_1.index t (0 : Fin 2) * 1024 + 1 * (y 0).val = (i 0).val; rw [e0, h0]; omega
  | ⟨1, _⟩ => show win2_1.index t (1 : Fin 2) * 128 + 1 * (y 1).val = (i 1).val; rw [e1, h1]; omega

/-- The first weight matrix's window holds the whole matrix at every point. -/
theorem mesh_whole2 (c : Dev nD) (t : Fin cfg2.N) :
    (iblk2 V c 2 t : Vec Ideal S256x128 .bf16) = (V c main_v6 : S256x128.Idx → EReal) := by
  obtain ⟨-, -, ⟨e0, e1⟩, -⟩ := mesh_idx t
  funext y
  show V c main_v6 (((cfg2.win 2).blk t).view.emb y) = V c main_v6 y
  congr 1
  funext a; apply Fin.ext
  match a with
  | ⟨0, _⟩ => show win2_2.index t (0 : Fin 2) * 256 + 1 * (y 0).val = (y 0).val; rw [e0]; omega
  | ⟨1, _⟩ => show win2_2.index t (1 : Fin 2) * 128 + 1 * (y 1).val = (y 1).val; rw [e1]; omega

/-- The first bias row's window holds the whole row at every point. -/
theorem mesh_whole3 (c : Dev nD) (t : Fin cfg2.N) :
    (iblk2 V c 3 t : Vec Ideal S1x128 .f32) = (V c main_v23 : S1x128.Idx → EReal) := by
  obtain ⟨-, -, -, ⟨e0, e1⟩, -⟩ := mesh_idx t
  funext y
  show V c main_v23 (((cfg2.win 3).blk t).view.emb y) = V c main_v23 y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second weight matrix's window holds the whole matrix at every point. -/
theorem mesh_whole4 (c : Dev nD) (t : Fin cfg2.N) :
    (iblk2 V c 4 t : Vec Ideal S128x128 .bf16) = (V c main_v7 : S128x128.Idx → EReal) := by
  obtain ⟨-, -, -, -, ⟨e0, e1⟩, -⟩ := mesh_idx t
  funext y
  show V c main_v7 (((cfg2.win 4).blk t).view.emb y) = V c main_v7 y
  congr 1
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second bias row's window holds the whole row at every point. -/
theorem mesh_whole5 (c : Dev nD) (t : Fin cfg2.N) :
    (iblk2 V c 5 t : Vec Ideal S1x128 .f32) = (V c main_v24 : S1x128.Idx → EReal) := by
  obtain ⟨-, -, -, -, -, ⟨e0, e1⟩, -⟩ := mesh_idx t
  funext y
  show V c main_v24 (((cfg2.win 5).blk t).view.emb y) = V c main_v24 y
  congr 1
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The normalisation's scale row's window holds the whole row at every point. -/
theorem mesh_whole6 (c : Dev nD) (t : Fin cfg2.N) :
    (iblk2 V c 6 t : Vec Ideal S1x128 .f32) = (V c main_v25 : S1x128.Idx → EReal) := by
  obtain ⟨-, -, -, -, -, -, ⟨e0, e1⟩, -⟩ := mesh_idx t
  funext y
  show V c main_v25 (((cfg2.win 6).blk t).view.emb y) = V c main_v25 y
  congr 1
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- The normalisation's shift row's window holds the whole row at every point. -/
theorem mesh_whole7 (c : Dev nD) (t : Fin cfg2.N) :
    (iblk2 V c 7 t : Vec Ideal S1x128 .f32) = (V c main_v26 : S1x128.Idx → EReal) := by
  obtain ⟨-, -, -, -, -, -, -, ⟨e0, e1⟩, -⟩ := mesh_idx t
  funext y
  show V c main_v26 (((cfg2.win 7).blk t).view.emb y) = V c main_v26 y
  congr 1
  funext a; apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- Entry `y` of the result block at point `t` lands at entry (`1024·t + y₀`, `y₁`) of the result array. -/
theorem mesh_out_at (t : Fin cfg2.N) (y : S1024x128.Idx) :
    ((((cfg2.win 8).blk t).view.emb y) 0).val = 1024 * t.val + (y 0).val
    ∧ ((((cfg2.win 8).blk t).view.emb y) 1).val = (y 1).val := by
  obtain ⟨-, -, -, -, -, -, -, -, e0, e1⟩ := mesh_idx t
  constructor
  · show win2_8.index t (0 : Fin 2) * 1024 + 1 * (y 0).val = _; rw [e0]; omega
  · show win2_8.index t (1 : Fin 2) * 128 + 1 * (y 1).val = _; rw [e1]; omega

/-- What point `t` writes back is block `t` of the mesh nodes' result on the whole arrays: row `1024·t + p` of the result is
    row `1024·t + p` of the mesh-node array plus the perceptron of rows `1024·t + p` of the aggregated and mesh-node arrays. -/
theorem mesh_flushed (c : Dev nD) (t : Fin cfg2.N) :
    (dat2 (F := Ideal) V c).flushed 8 t = ((cfg2.win 8).blk t).view.read (Elt Ideal)
      (meshOut (M := 41984) (V c main_v21) (V c main_v22) (V c main_v6) (row1 (V c main_v23)) (V c main_v7)
          (row1 (V c main_v24)) (row1 (V c main_v25)) (row1 (V c main_v26))) := by
  show (cfg2.win 8).cut (grid2.coords t) ((dat2 (F := Ideal) V c).after 8 t) = _
  rw [after2_8, Blocks.mesh_block, mesh_whole2, mesh_whole3, mesh_whole4, mesh_whole5, mesh_whole6, mesh_whole7]
  funext y
  obtain ⟨r0, r1⟩ := mesh_out_at t y
  show meshOut (M := 1024) (iblk2 V c 0 t) (iblk2 V c 1 t) _ _ _ _ _ _ y
     = meshOut (M := 41984) _ _ _ _ _ _ _ _ (((cfg2.win 8).blk t).view.emb y)
  unfold meshOut
  have hX : (iblk2 V c 1 t : Vec Ideal S1024x128 .f32) y
      = (V c main_v22 : S41984x128.Idx → EReal) (((cfg2.win 8).blk t).view.emb y) :=
    mesh_rows1 V c t _ _ r0 r1
  have hA : row (M := 1024) (iblk2 V c 0 t : Vec Ideal S1024x128 .f32) (y 0)
      = row (M := 41984) (V c main_v21) ((((cfg2.win 8).blk t).view.emb y) 0) :=
    funext fun k => mesh_rows0 V c t _ _ r0 rfl
  have hR : row (M := 1024) (iblk2 V c 1 t : Vec Ideal S1024x128 .f32) (y 0)
      = row (M := 41984) (V c main_v22) ((((cfg2.win 8).blk t).view.emb y) 0) :=
    funext fun k => mesh_rows1 V c t _ _ r0 rfl
  rw [hX, hA, hR]
  exact congrArg _ (congrArg _ (Fin.ext r1.symm))

/-- An entry of the result array is in point `t`'s block iff each coordinate is in the block's range on its axis. -/
theorem mesh_mem_blk (t : Fin cfg2.N) (i : S41984x128.Idx) :
    i ∈ ((cfg2.win 8).blk t).view.set ↔ ∀ a : Fin 2, win2_8.index t a * S1024x128.size a ≤ (i a).val
      ∧ (i a).val < win2_8.index t a * S1024x128.size a + S1024x128.size a := by
  show i ∈ ((View.whole main_v27).slice (win2_8.rect t)).set ↔ _
  rw [View.set_slice_whole, Rect.mem_set_unit]
  exact Iff.rfl

/-- Row `r` of the result array is written by point `r / 1024`. -/
theorem mesh_cover (i : S41984x128.Idx) :
    ∃ t : Fin cfg2.N, (cfg2.win 8).flush t = true ∧ i ∈ ((cfg2.win 8).blk t).view.set := by
  have hi0 : (i 0).val < 41984 := (i 0).isLt
  have hi1 : (i 1).val < 128 := (i 1).isLt
  obtain ⟨t, ht⟩ : ∃ t : Fin cfg2.N, t.val = (i 0).val / 1024 :=
    ⟨⟨(i 0).val / 1024, by rw [show cfg2.N = 41 from N_2]; omega⟩, rfl⟩
  obtain ⟨-, -, -, -, -, -, -, -, e0, e1⟩ := mesh_idx t
  refine ⟨t, flush2_8 t, ?_⟩
  rw [mesh_mem_blk]
  intro a
  match a with
  | ⟨0, _⟩ =>
    show win2_8.index t (0 : Fin 2) * 1024 ≤ (i 0).val ∧ (i 0).val < win2_8.index t (0 : Fin 2) * 1024 + 1024
    rw [e0]; omega
  | ⟨1, _⟩ =>
    show win2_8.index t (1 : Fin 2) * 128 ≤ (i 1).val ∧ (i 1).val < win2_8.index t (1 : Fin 2) * 128 + 128
    rw [e1]; omega

/-- The mesh call's result array (on the arrays padded to 41984 rows). -/
theorem mesh_final (c : Dev nD) :
    (dat2 (F := Ideal) V c).arrAt 8 cfg2.N
      = meshOut (M := 41984) (V c main_v21) (V c main_v22) (V c main_v6) (row1 (V c main_v23)) (V c main_v7)
          (row1 (V c main_v24)) (row1 (V c main_v25)) (row1 (V c main_v26)) :=
  (dat2 (F := Ideal) V c).arrAt_eq_of_cover 8 _ (fun t _ => mesh_flushed V c t) mesh_cover

end Cert.KernelIdeal.Arrays

end
-- ==== Proof.Consts.lean ====
/-
  The one float constant the reference's logistic spells that has to be evaluated: the word of `1.0` denotes the
  extended real `1`. (The divisor `128.0` and the small constant of the layer normalisation stay words: both
  programs carry the same ones.)
-/
import Idealize.ShloMosaic.PureOps.Ideal

noncomputable section

namespace Cert.Consts

open Idealize.ShloMosaic

/-- The word `0x3F800000` (`1.0` in binary32) denotes `1`. -/
theorem ofBits_one : Ideal.ofBits .f32 0x3F800000#32 = 1 := by
  simp [Ideal.ofBits, Ideal.ieee, -EReal.coe_mul]; norm_num

end Cert.Consts

end
-- ==== Proof.RefValue.lean ====
/-
  The reference program's results are the edge, grid and mesh functions of Spec.lean: each stage of the reference read
  at an index is the matching step of the perceptron on the index's row (the host's `dot_general` a sum along the
  contracted axis, its `reduce` from the zero word the row's sum, its logistic spelt `1 / (1 + exp (−h))`).
-/
import proofs.«420804_j4698694221866_1_alg».proof.Proof.RefRead
import proofs.«420804_j4698694221866_1_alg».proof.Proof.Spec
import proofs.«420804_j4698694221866_1_alg».proof.Proof.Consts

set_option maxRecDepth 16384

noncomputable section

namespace Cert.ReferenceIdeal.RefValue

open Cert.ReferenceIdeal Cert.ReferenceIdeal.ReadP
open Idealize.ShloMosaic Idealize.ShloMosaic.ValueIdx
open Cert.Spec

/-- Two index functions are equal when they agree coordinate by coordinate (rank two, then rank one). -/
local macro "idx_eq" : tactic =>
  `(tactic| exact funext fun a => Fin.ext (by
      first
        | (match a with | ⟨0, _⟩ => rfl | ⟨1, _⟩ => rfl)
        | (match a with | ⟨0, _⟩ => rfl)))

/-! ## The edge perceptron: stages %14 to %47 -/

section Edge

variable (x0 x1 : FVec Ideal S524288x128 .f32) (x2 : FVec Ideal S40962x128 .f32) (x3 x4 : IVec S524288 32)
    (x5 : FVec Ideal S384x128 .f32) (x6 : FVec Ideal S128 .f32) (x7 : FVec Ideal S128x128 .f32)
    (x8 x9 x10 : FVec Ideal S128 .f32)

/-- Row `p` of the edge perceptron's input: the edge row, the gathered source row and the gathered destination row
    laid end to end. -/
abbrev edgeIn (p : Fin 524288) : Fin 384 → EReal :=
  cat3 (row x0 p) (row (val_main_v6 (F := Ideal) x1 x3) p) (row (val_main_v13 (F := Ideal) x2 x4) p)

/-- Stage %14 (the concatenation along the columns) on row `p`: column `k` falls in the piece whose span of 128
    columns holds it, at the column less the spans before it. -/
theorem edge_cat (p : Fin 524288) (k : Fin 384) :
    val_main_v14 (F := Ideal) x0 x1 x2 x3 x4 (ix2 p k) = edgeIn x0 x1 x2 x3 x4 p k := by
  unfold val_main_v14 edgeIn cat3
  split
  · next h1 =>
    exact concatenate_apply_piece (1 : Fin S524288x384.rank) _ _ (ix2 p k) 0 (by show 0 < 3; omega) S524288x128 x0 rfl rfl 0 rfl
      (ix2 p ⟨k.val, h1⟩) (fun b hb => by match b with | ⟨0, _⟩ => rfl | ⟨1, _⟩ => exact absurd (Fin.ext rfl) hb)
      (by show 0 + k.val = k.val; omega)
  · split
    · next h1 h2 =>
      exact concatenate_apply_piece (1 : Fin S524288x384.rank) _ _ (ix2 p k) 1 (by show 1 < 3; omega) S524288x128
        (val_main_v6 (F := Ideal) x1 x3) rfl rfl 128 rfl (ix2 p ⟨k.val - 128, by omega⟩)
        (fun b hb => by match b with | ⟨0, _⟩ => rfl | ⟨1, _⟩ => exact absurd (Fin.ext rfl) hb)
        (by show 128 + (k.val - 128) = k.val; omega)
    · next h1 h2 =>
      exact concatenate_apply_piece (1 : Fin S524288x384.rank) _ _ (ix2 p k) 2 (by show 2 < 3; omega) S524288x128
        (val_main_v13 (F := Ideal) x2 x4) rfl rfl 256 rfl (ix2 p ⟨k.val - 256, by have := k.isLt; omega⟩)
        (fun b hb => by match b with | ⟨0, _⟩ => rfl | ⟨1, _⟩ => exact absurd (Fin.ext rfl) hb)
        (by show 256 + (k.val - 256) = k.val; omega)

/-- Stage %18 on row `p`: the first dense layer of the concatenated row. -/
theorem edge_dense1 (p : Fin 524288) (q : Fin 128) :
    val_main_v18 (F := Ideal) x0 x1 x2 x3 x4 x5 x6 (ix2 p q) = dense (edgeIn x0 x1 x2 x3 x4 p) x5 (vec x6) q := by
  have el : ∀ k : Fin 384, lidx_main_v15 (ix2 p q) k = ix2 p k := fun k => by idx_eq
  have er : ∀ k : Fin 384, ridx_main_v15 (ix2 p q) k = ix2 k q := fun k => by idx_eq
  have eb : idx_main_v16 (idx_main_v17 (ix2 p q)) = ix1 q := by idx_eq
  rw [val_main_v18_apply, val_main_v15_apply, val_main_v17_apply, val_main_v16_apply, eb]
  simp only [el, er, edge_cat, Ideal.addf_def]
  rfl

/-- Stage %19 on row `p`: the SiLU of the first dense layer. -/
theorem edge_silu (p : Fin 524288) (q : Fin 128) :
    val_main_v19 (F := Ideal) x0 x1 x2 x3 x4 x5 x6 (ix2 p q)
      = silu (dense (edgeIn x0 x1 x2 x3 x4 p) x5 (vec x6)) q := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, edge_dense1]
  simp only [Ideal.mulf_def, Ideal.hostDivf_def, Ideal.addf_def, Ideal.hostUnary_exp_def, Ideal.hostNegf_def,
    Ideal.negf_def, Ideal.ofBits_def, Cert.Consts.ofBits_one]
  rfl

/-- Stage %23 on row `p`: the second dense layer. -/
theorem edge_dense2 (p : Fin 524288) (q : Fin 128) :
    val_main_v23 (F := Ideal) x0 x1 x2 x3 x4 x5 x6 x7 x8 (ix2 p q)
      = dense (silu (dense (edgeIn x0 x1 x2 x3 x4 p) x5 (vec x6))) x7 (vec x8) q := by
  have el : ∀ k : Fin 128, lidx_main_v20 (ix2 p q) k = ix2 p k := fun k => by idx_eq
  have er : ∀ k : Fin 128, ridx_main_v20 (ix2 p q) k = ix2 k q := fun k => by idx_eq
  have eb : idx_main_v21 (idx_main_v22 (ix2 p q)) = ix1 q := by idx_eq
  rw [val_main_v23_apply, val_main_v20_apply, val_main_v22_apply, val_main_v21_apply, eb]
  simp only [el, er, edge_silu, Ideal.addf_def]
  rfl

/-- Stage %27 on row `p`: the mean of the row of stage %23. -/
theorem edge_mean (Y : Fin 524288 → Fin 128 → EReal)
    (hY : ∀ (p : Fin 524288) (q : Fin 128),
      val_main_v23 (F := Ideal) x0 x1 x2 x3 x4 x5 x6 x7 x8 (ix2 p q) = Y p q)
    (p : Fin 524288) (j : Fin 1) :
    val_main_v27 (F := Ideal) x0 x1 x2 x3 x4 x5 x6 x7 x8 (ix2 p j) = mean (Y p) := by
  have e25 : idx_main_v25 (ix2 p j) = ix1 p := by idx_eq
  have e24 : ∀ k : Fin 128, idx_main_v24 (ix1 p) k = ix2 p k := fun k => by idx_eq
  rw [val_main_v27_apply, val_main_v25_apply, val_main_v26_apply, val_main_cst_3_apply, e25, val_main_v24_apply,
    val_main_cst_apply]
  simp only [e24, hY, Ideal.hostDivf_def, Ideal.ofBits_def, Ideal.ofBits_zero_f32, zero_add]
  rfl

/-- Stage %34 on row `p`: the variance of the row of stage %23. -/
theorem edge_var (Y : Fin 524288 → Fin 128 → EReal)
    (hY : ∀ (p : Fin 524288) (q : Fin 128),
      val_main_v23 (F := Ideal) x0 x1 x2 x3 x4 x5 x6 x7 x8 (ix2 p q) = Y p q)
    (p : Fin 524288) (j : Fin 1) :
    val_main_v34 (F := Ideal) x0 x1 x2 x3 x4 x5 x6 x7 x8 (ix2 p j) = var (Y p) := by
  have e32 : idx_main_v32 (ix2 p j) = ix1 p := by idx_eq
  have e31 : ∀ k : Fin 128, idx_main_v31 (ix1 p) k = ix2 p k := fun k => by idx_eq
  have e28 : ∀ k : Fin 128, idx_main_v28 (ix2 p k) = ix2 p (0 : Fin 1) := fun k => by idx_eq
  rw [val_main_v34_apply, val_main_v32_apply, val_main_v33_apply, val_main_cst_5_apply, e32, val_main_v31_apply,
    val_main_cst_4_apply]
  simp only [e31, val_main_v30_apply, val_main_v29_apply, val_main_v28_apply, e28, hY,
    edge_mean x0 x1 x2 x3 x4 x5 x6 x7 x8 Y hY, Ideal.hostDivf_def, Ideal.mulf_def, Ideal.subf_def, Ideal.ofBits_def,
    Ideal.ofBits_zero_f32, zero_add]
  rfl

/-- Stage %47 on row `p`: the layer normalisation of the row of stage %23. -/
theorem edge_lnorm (Y : Fin 524288 → Fin 128 → EReal)
    (hY : ∀ (p : Fin 524288) (q : Fin 128),
      val_main_v23 (F := Ideal) x0 x1 x2 x3 x4 x5 x6 x7 x8 (ix2 p q) = Y p q)
    (p : Fin 524288) (q : Fin 128) :
    val_main_v47 (F := Ideal) x0 x1 x2 x3 x4 x5 x6 x7 x8 x9 x10 (ix2 p q) = lnorm (Y p) (vec x9) (vec x10) q := by
  have e35 : idx_main_v35 (ix2 p q) = ix2 p (0 : Fin 1) := by idx_eq
  have e40 : idx_main_v40 (ix2 p q) = ix2 p (0 : Fin 1) := by idx_eq
  have eg : idx_main_v42 (idx_main_v43 (ix2 p q)) = ix1 q := by idx_eq
  have eb : idx_main_v45 (idx_main_v46 (ix2 p q)) = ix1 q := by idx_eq
  rw [val_main_v47_apply, val_main_v44_apply, val_main_v41_apply, val_main_v36_apply, val_main_v35_apply, e35,
    edge_mean x0 x1 x2 x3 x4 x5 x6 x7 x8 Y hY, hY, val_main_v40_apply, e40, val_main_v39_apply, val_main_v38_apply,
    edge_var x0 x1 x2 x3 x4 x5 x6 x7 x8 Y hY, val_main_v37_apply, val_main_cst_6_apply, val_main_v43_apply,
    val_main_v42_apply, eg, val_main_v46_apply, val_main_v45_apply, eb]
  simp only [Ideal.addf_def, Ideal.mulf_def, Ideal.subf_def, Ideal.hostUnary_rsqrt_def, Ideal.ofBits_def]
  rfl

end Edge

/-- The reference's edge features (its stage %47): the edge function of the edge array, the two gathered arrays and the
    edge perceptron's weights. -/
theorem ref_edge (x0 x1 : FVec Ideal S524288x128 .f32) (x2 : FVec Ideal S40962x128 .f32) (x3 x4 : IVec S524288 32)
    (x5 : FVec Ideal S384x128 .f32) (x6 : FVec Ideal S128 .f32) (x7 : FVec Ideal S128x128 .f32)
    (x8 x9 x10 : FVec Ideal S128 .f32) :
    val_main_v47 (F := Ideal) x0 x1 x2 x3 x4 x5 x6 x7 x8 x9 x10
      = edgeOut (M := 524288) x0 (val_main_v6 (F := Ideal) x1 x3) (val_main_v13 (F := Ideal) x2 x4) x5 (vec x6) x7 (vec x8) (vec x9) (vec x10) := by
  funext i
  obtain ⟨p, q, rfl⟩ : ∃ (p : Fin 524288) (q : Fin 128), i = ix2 p q := ⟨i 0, i 1, eq_ix2 i⟩
  rw [edge_lnorm x0 x1 x2 x3 x4 x5 x6 x7 x8 x9 x10 _ (edge_dense2 x0 x1 x2 x3 x4 x5 x6 x7 x8)]
  rfl

/-! ## The grid nodes' perceptron: stages %86 to %119 -/

section Grid

variable (x1 : FVec Ideal S524288x128 .f32) (x11 : FVec Ideal S128x128 .f32) (x12 : FVec Ideal S128 .f32)
    (x13 : FVec Ideal S128x128 .f32) (x14 x15 x16 : FVec Ideal S128 .f32)

/-- Stage %89 on row `p`: the first dense layer of the row. -/
theorem grid_dense1 (p : Fin 524288) (q : Fin 128) :
    val_main_v89 (F := Ideal) x1 x11 x12 (ix2 p q) = dense (row x1 p) x11 (vec x12) q := by
  have el : ∀ k : Fin 128, lidx_main_v86 (ix2 p q) k = ix2 p k := fun k => by idx_eq
  have er : ∀ k : Fin 128, ridx_main_v86 (ix2 p q) k = ix2 k q := fun k => by idx_eq
  have eb : idx_main_v87 (idx_main_v88 (ix2 p q)) = ix1 q := by idx_eq
  rw [val_main_v89_apply, val_main_v86_apply, val_main_v88_apply, val_main_v87_apply, eb]
  simp only [el, er, Ideal.addf_def]
  rfl

/-- Stage %90 on row `p`: the SiLU of the first dense layer (the logistic spelt `1 / (1 + exp (−h))`). -/
theorem grid_silu (p : Fin 524288) (q : Fin 128) :
    val_main_v90 (F := Ideal) x1 x11 x12 (ix2 p q) = silu (dense (row x1 p) x11 (vec x12)) q := by
  rw [val_main_v90_apply, val_main_call2_v5_apply, val_main_call2_v4_apply, val_main_call2_cst_0_apply,
    val_main_call2_v3_apply, val_main_call2_v2_apply, val_main_call2_cst_apply, val_main_call2_v1_apply,
    val_main_call2_v0_apply, grid_dense1]
  simp only [Ideal.mulf_def, Ideal.hostDivf_def, Ideal.addf_def, Ideal.hostUnary_exp_def, Ideal.hostNegf_def,
    Ideal.negf_def, Ideal.ofBits_def, Cert.Consts.ofBits_one]
  rfl

/-- Stage %94 on row `p`: the second dense layer. -/
theorem grid_dense2 (p : Fin 524288) (q : Fin 128) :
    val_main_v94 (F := Ideal) x1 x11 x12 x13 x14 (ix2 p q)
      = dense (silu (dense (row x1 p) x11 (vec x12))) x13 (vec x14) q := by
  have el : ∀ k : Fin 128, lidx_main_v91 (ix2 p q) k = ix2 p k := fun k => by idx_eq
  have er : ∀ k : Fin 128, ridx_main_v91 (ix2 p q) k = ix2 k q := fun k => by idx_eq
  have eb : idx_main_v92 (idx_main_v93 (ix2 p q)) = ix1 q := by idx_eq
  rw [val_main_v94_apply, val_main_v91_apply, val_main_v93_apply, val_main_v92_apply, eb]
  simp only [el, er, grid_silu, Ideal.addf_def]
  rfl

/-- Stage %98 on row `p`: the mean of the row of stage %94. -/
theorem grid_mean (Y : Fin 524288 → Fin 128 → EReal)
    (hY : ∀ (p : Fin 524288) (q : Fin 128), val_main_v94 (F := Ideal) x1 x11 x12 x13 x14 (ix2 p q) = Y p q)
    (p : Fin 524288) (j : Fin 1) :
    val_main_v98 (F := Ideal) x1 x11 x12 x13 x14 (ix2 p j) = mean (Y p) := by
  have e96 : idx_main_v96 (ix2 p j) = ix1 p := by idx_eq
  have e95 : ∀ k : Fin 128, idx_main_v95 (ix1 p) k = ix2 p k := fun k => by idx_eq
  rw [val_main_v98_apply, val_main_v96_apply, val_main_v97_apply, val_main_cst_14_apply, e96, val_main_v95_apply,
    val_main_cst_13_apply]
  simp only [e95, hY, Ideal.hostDivf_def, Ideal.ofBits_def, Ideal.ofBits_zero_f32, zero_add]
  rfl

/-- Stage %105 on row `p`: the variance of the row of stage %94. -/
theorem grid_var (Y : Fin 524288 → Fin 128 → EReal)
    (hY : ∀ (p : Fin 524288) (q : Fin 128), val_main_v94 (F := Ideal) x1 x11 x12 x13 x14 (ix2 p q) = Y p q)
    (p : Fin 524288) (j : Fin 1) :
    val_main_v105 (F := Ideal) x1 x11 x12 x13 x14 (ix2 p j) = var (Y p) := by
  have e103 : idx_main_v103 (ix2 p j) = ix1 p := by idx_eq
  have e102 : ∀ k : Fin 128, idx_main_v102 (ix1 p) k = ix2 p k := fun k => by idx_eq
  have e99 : ∀ k : Fin 128, idx_main_v99 (ix2 p k) = ix2 p (0 : Fin 1) := fun k => by idx_eq
  rw [val_main_v105_apply, val_main_v103_apply, val_main_v104_apply, val_main_cst_16_apply, e103, val_main_v102_apply,
    val_main_cst_15_apply]
  simp only [e102, val_main_v101_apply, val_main_v100_apply, val_main_v99_apply, e99, hY,
    grid_mean x1 x11 x12 x13 x14 Y hY, Ideal.hostDivf_def, Ideal.mulf_def, Ideal.subf_def, Ideal.ofBits_def,
    Ideal.ofBits_zero_f32, zero_add]
  rfl

/-- Stage %118 on row `p`: the layer normalisation of the row of stage %94. -/
theorem grid_lnorm (Y : Fin 524288 → Fin 128 → EReal)
    (hY : ∀ (p : Fin 524288) (q : Fin 128), val_main_v94 (F := Ideal) x1 x11 x12 x13 x14 (ix2 p q) = Y p q)
    (p : Fin 524288) (q : Fin 128) :
    val_main_v118 (F := Ideal) x1 x11 x12 x13 x14 x15 x16 (ix2 p q) = lnorm (Y p) (vec x15) (vec x16) q := by
  have e106 : idx_main_v106 (ix2 p q) = ix2 p (0 : Fin 1) := by idx_eq
  have e111 : idx_main_v111 (ix2 p q) = ix2 p (0 : Fin 1) := by idx_eq
  have eg : idx_main_v113 (idx_main_v114 (ix2 p q)) = ix1 q := by idx_eq
  have eb : idx_main_v116 (idx_main_v117 (ix2 p q)) = ix1 q := by idx_eq
  rw [val_main_v118_apply, val_main_v115_apply, val_main_v112_apply, val_main_v107_apply, val_main_v106_apply, e106,
    grid_mean x1 x11 x12 x13 x14 Y hY, hY, val_main_v111_apply, e111, val_main_v110_apply, val_main_v109_apply,
    grid_var x1 x11 x12 x13 x14 Y hY, val_main_v108_apply, val_main_cst_17_apply, val_main_v114_apply,
    val_main_v113_apply, eg, val_main_v117_apply, val_main_v116_apply, eb]
  simp only [Ideal.addf_def, Ideal.mulf_def, Ideal.subf_def, Ideal.hostUnary_rsqrt_def, Ideal.ofBits_def]
  rfl

end Grid

/-- The reference's first result (its stage %119): the grid function. -/
theorem ref_grid (x1 : FVec Ideal S524288x128 .f32) (x11 : FVec Ideal S128x128 .f32) (x12 : FVec Ideal S128 .f32)
    (x13 : FVec Ideal S128x128 .f32) (x14 x15 x16 : FVec Ideal S128 .f32) :
    val_main_v119 (F := Ideal) x1 x11 x12 x13 x14 x15 x16
      = gridOut (M := 524288) x1 x11 (vec x12) x13 (vec x14) (vec x15) (vec x16) := by
  funext i
  obtain ⟨p, q, rfl⟩ : ∃ (p : Fin 524288) (q : Fin 128), i = ix2 p q := ⟨i 0, i 1, eq_ix2 i⟩
  rw [val_main_v119_apply, grid_lnorm x1 x11 x12 x13 x14 x15 x16 _ (grid_dense2 x1 x11 x12 x13 x14), Ideal.addf_def]
  rfl

/-! ## The mesh nodes' perceptron: stages %51 to %85 -/

section Mesh

variable (x0 x1 : FVec Ideal S524288x128 .f32) (x2 : FVec Ideal S40962x128 .f32) (x3 x4 : IVec S524288 32)
    (x5 : FVec Ideal S384x128 .f32) (x6 : FVec Ideal S128 .f32) (x7 : FVec Ideal S128x128 .f32)
    (x8 x9 x10 : FVec Ideal S128 .f32) (x17 : FVec Ideal S256x128 .f32) (x18 : FVec Ideal S128 .f32)
    (x19 : FVec Ideal S128x128 .f32) (x20 x21 x22 : FVec Ideal S128 .f32)

/-- Row `p` of the mesh perceptron's input: the aggregated row (stage %50) and the mesh row laid end to end. -/
abbrev meshIn (p : Fin 40962) : Fin 256 → EReal :=
  cat2 (row (val_main_v50 (F := Ideal) x0 x1 x2 x3 x4 x5 x6 x7 x8 x9 x10) p) (row x2 p)

/-- Stage %51 (the concatenation along the columns) on row `p`: column `k` falls in the first piece below 128 and in
    the second, at the column less 128, from there on. -/
theorem mesh_cat (p : Fin 40962) (k : Fin 256) :
    val_main_v51 (F := Ideal) x0 x1 x2 x3 x4 x5 x6 x7 x8 x9 x10 (ix2 p k)
      = meshIn x0 x1 x2 x3 x4 x5 x6 x7 x8 x9 x10 p k := by
  unfold val_main_v51 meshIn cat2
  split
  · next h1 =>
    exact concatenate_apply_piece (1 : Fin S40962x256.rank) _ _ (ix2 p k) 0 (by show 0 < 2; omega) S40962x128
      (val_main_v50 (F := Ideal) x0 x1 x2 x3 x4 x5 x6 x7 x8 x9 x10) rfl rfl 0 rfl (ix2 p ⟨k.val, h1⟩)
      (fun b hb => by match b with | ⟨0, _⟩ => rfl | ⟨1, _⟩ => exact absurd (Fin.ext rfl) hb)
      (by show 0 + k.val = k.val; omega)
  · next h1 =>
    exact concatenate_apply_piece (1 : Fin S40962x256.rank) _ _ (ix2 p k) 1 (by show 1 < 2; omega) S40962x128 x2 rfl rfl
      128 rfl (ix2 p ⟨k.val - 128, by have := k.isLt; omega⟩)
      (fun b hb => by match b with | ⟨0, _⟩ => rfl | ⟨1, _⟩ => exact absurd (Fin.ext rfl) hb)
      (by show 128 + (k.val - 128) = k.val; omega)

/-- Stage %55 on row `p`: the first dense layer of the concatenated row. -/
theorem mesh_dense1 (p : Fin 40962) (q : Fin 128) :
    val_main_v55 (F := Ideal) x0 x1 x2 x3 x4 x5 x6 x7 x8 x9 x10 x17 x18 (ix2 p q)
      = dense (meshIn x0 x1 x2 x3 x4 x5 x6 x7 x8 x9 x10 p) x17 (vec x18) q := by
  have el : ∀ k : Fin 256, lidx_main_v52 (ix2 p q) k = ix2 p k := fun k => by idx_eq
  have er : ∀ k : Fin 256, ridx_main_v52 (ix2 p q) k = ix2 k q := fun k => by idx_eq
  have eb : idx_main_v53 (idx_main_v54 (ix2 p q)) = ix1 q := by idx_eq
  rw [val_main_v55_apply, val_main_v52_apply, val_main_v54_apply, val_main_v53_apply, eb]
  simp only [el, er, mesh_cat, Ideal.addf_def]
  rfl

/-- Stage %56 on row `p`: the SiLU of the first dense layer. -/
theorem mesh_silu (p : Fin 40962) (q : Fin 128) :
    val_main_v56 (F := Ideal) x0 x1 x2 x3 x4 x5 x6 x7 x8 x9 x10 x17 x18 (ix2 p q)
      = silu (dense (meshIn x0 x1 x2 x3 x4 x5 x6 x7 x8 x9 x10 p) x17 (vec x18)) q := by
  rw [val_main_v56_apply, val_main_call1_v5_apply, val_main_call1_v4_apply, val_main_call1_cst_0_apply,
    val_main_call1_v3_apply, val_main_call1_v2_apply, val_main_call1_cst_apply, val_main_call1_v1_apply,
    val_main_call1_v0_apply, mesh_dense1]
  simp only [Ideal.mulf_def, Ideal.hostDivf_def, Ideal.addf_def, Ideal.hostUnary_exp_def, Ideal.hostNegf_def,
    Ideal.negf_def, Ideal.ofBits_def, Cert.Consts.ofBits_one]
  rfl

/-- Stage %60 on row `p`: the second dense layer. -/
theorem mesh_dense2 (p : Fin 40962) (q : Fin 128) :
    val_main_v60 (F := Ideal) x0 x1 x2 x3 x4 x5 x6 x7 x8 x9 x10 x17 x18 x19 x20 (ix2 p q)
      = dense (silu (dense (meshIn x0 x1 x2 x3 x4 x5 x6 x7 x8 x9 x10 p) x17 (vec x18))) x19 (vec x20) q := by
  have el : ∀ k : Fin 128, lidx_main_v57 (ix2 p q) k = ix2 p k := fun k => by idx_eq
  have er : ∀ k : Fin 128, ridx_main_v57 (ix2 p q) k = ix2 k q := fun k => by idx_eq
  have eb : idx_main_v58 (idx_main_v59 (ix2 p q)) = ix1 q := by idx_eq
  rw [val_main_v60_apply, val_main_v57_apply, val_main_v59_apply, val_main_v58_apply, eb]
  simp only [el, er, mesh_silu, Ideal.addf_def]
  rfl

/-- Stage %64 on row `p`: the mean of the row of stage %60. -/
theorem mesh_mean (Y : Fin 40962 → Fin 128 → EReal)
    (hY : ∀ (p : Fin 40962) (q : Fin 128),
      val_main_v60 (F := Ideal) x0 x1 x2 x3 x4 x5 x6 x7 x8 x9 x10 x17 x18 x19 x20 (ix2 p q) = Y p q)
    (p : Fin 40962) (j : Fin 1) :
    val_main_v64 (F := Ideal) x0 x1 x2 x3 x4 x5 x6 x7 x8 x9 x10 x17 x18 x19 x20 (ix2 p j) = mean (Y p) := by
  have e62 : idx_main_v62 (ix2 p j) = ix1 p := by idx_eq
  have e61 : ∀ k : Fin 128, idx_main_v61 (ix1 p) k = ix2 p k := fun k => by idx_eq
  rw [val_main_v64_apply, val_main_v62_apply, val_main_v63_apply, val_main_cst_9_apply, e62, val_main_v61_apply,
    val_main_cst_8_apply]
  simp only [e61, hY, Ideal.hostDivf_def, Ideal.ofBits_def, Ideal.ofBits_zero_f32, zero_add]
  rfl

/-- Stage %71 on row `p`: the variance of the row of stage %60. -/
theorem mesh_var (Y : Fin 40962 → Fin 128 → EReal)
    (hY : ∀ (p : Fin 40962) (q : Fin 128),
      val_main_v60 (F := Ideal) x0 x1 x2 x3 x4 x5 x6 x7 x8 x9 x10 x17 x18 x19 x20 (ix2 p q) = Y p q)
    (p : Fin 40962) (j : Fin 1) :
    val_main_v71 (F := Ideal) x0 x1 x2 x3 x4 x5 x6 x7 x8 x9 x10 x17 x18 x19 x20 (ix2 p j) = var (Y p) := by
  have e69 : idx_main_v69 (ix2 p j) = ix1 p := by idx_eq
  have e68 : ∀ k : Fin 128, idx_main_v68 (ix1 p) k = ix2 p k := fun k => by idx_eq
  have e65 : ∀ k : Fin 128, idx_main_v65 (ix2 p k) = ix2 p (0 : Fin 1) := fun k => by idx_eq
  rw [val_main_v71_apply, val_main_v69_apply, val_main_v70_apply, val_main_cst_11_apply, e69, val_main_v68_apply,
    val_main_cst_10_apply]
  simp only [e68, val_main_v67_apply, val_main_v66_apply, val_main_v65_apply, e65, hY,
    mesh_mean x0 x1 x2 x3 x4 x5 x6 x7 x8 x9 x10 x17 x18 x19 x20 Y hY, Ideal.hostDivf_def, Ideal.mulf_def,
    Ideal.subf_def, Ideal.ofBits_def, Ideal.ofBits_zero_f32, zero_add]
  rfl

/-- Stage %84 on row `p`: the layer normalisation of the row of stage %60. -/
theorem mesh_lnorm (Y : Fin 40962 → Fin 128 → EReal)
    (hY : ∀ (p : Fin 40962) (q : Fin 128),
      val_main_v60 (F := Ideal) x0 x1 x2 x3 x4 x5 x6 x7 x8 x9 x10 x17 x18 x19 x20 (ix2 p q) = Y p q)
    (p : Fin 40962) (q : Fin 128) :
    val_main_v84 (F := Ideal) x0 x1 x2 x3 x4 x5 x6 x7 x8 x9 x10 x17 x18 x19 x20 x21 x22 (ix2 p q)
      = lnorm (Y p) (vec x21) (vec x22) q := by
  have e72 : idx_main_v72 (ix2 p q) = ix2 p (0 : Fin 1) := by idx_eq
  have e77 : idx_main_v77 (ix2 p q) = ix2 p (0 : Fin 1) := by idx_eq
  have eg : idx_main_v79 (idx_main_v80 (ix2 p q)) = ix1 q := by idx_eq
  have eb : idx_main_v82 (idx_main_v83 (ix2 p q)) = ix1 q := by idx_eq
  rw [val_main_v84_apply, val_main_v81_apply, val_main_v78_apply, val_main_v73_apply, val_main_v72_apply, e72,
    mesh_mean x0 x1 x2 x3 x4 x5 x6 x7 x8 x9 x10 x17 x18 x19 x20 Y hY, hY, val_main_v77_apply, e77,
    val_main_v76_apply, val_main_v75_apply, mesh_var x0 x1 x2 x3 x4 x5 x6 x7 x8 x9 x10 x17 x18 x19 x20 Y hY,
    val_main_v74_apply, val_main_cst_12_apply, val_main_v80_apply, val_main_v79_apply, eg, val_main_v83_apply,
    val_main_v82_apply, eb]
  simp only [Ideal.addf_def, Ideal.mulf_def, Ideal.subf_def, Ideal.hostUnary_rsqrt_def, Ideal.ofBits_def]
  rfl

end Mesh

/-- The reference's second result (its stage %85): the mesh function of the aggregate (its stage %50) and the mesh array. -/
theorem ref_mesh (x0 x1 : FVec Ideal S524288x128 .f32) (x2 : FVec Ideal S40962x128 .f32) (x3 x4 : IVec S524288 32)
    (x5 : FVec Ideal S384x128 .f32) (x6 : FVec Ideal S128 .f32) (x7 : FVec Ideal S128x128 .f32)
    (x8 x9 x10 : FVec Ideal S128 .f32) (x17 : FVec Ideal S256x128 .f32) (x18 : FVec Ideal S128 .f32)
    (x19 : FVec Ideal S128x128 .f32) (x20 x21 x22 : FVec Ideal S128 .f32) :
    val_main_v85 (F := Ideal) x0 x1 x2 x3 x4 x5 x6 x7 x8 x9 x10 x17 x18 x19 x20 x21 x22
      = meshOut (M := 40962) (val_main_v50 (F := Ideal) x0 x1 x2 x3 x4 x5 x6 x7 x8 x9 x10) x2 x17 (vec x18) x19 (vec x20) (vec x21) (vec x22) := by
  funext i
  obtain ⟨p, q, rfl⟩ : ∃ (p : Fin 40962) (q : Fin 128), i = ix2 p q := ⟨i 0, i 1, eq_ix2 i⟩
  rw [val_main_v85_apply,
    mesh_lnorm x0 x1 x2 x3 x4 x5 x6 x7 x8 x9 x10 x17 x18 x19 x20 x21 x22 _
      (mesh_dense2 x0 x1 x2 x3 x4 x5 x6 x7 x8 x9 x10 x17 x18 x19 x20),
    Ideal.addf_def]
  rfl

end Cert.ReferenceIdeal.RefValue

end
-- ==== Proof.Claims.lean ====
/-
  The claims. At the ideal values the kernel program's two results and the reference's are the same two functions of the
  arguments: the grid result is `gridOut` of the grid array and the grid perceptron's weights; the mesh result is
  `meshOut` of the aggregate — the scatter-add, at the destination indices, of `edgeOut` of the edge array and the two
  gathered arrays — and of the mesh array, with the mesh perceptron's weights. On the kernel's side this is read off
  the run through the three calls' result arrays and the host operations between them (the gathers under the index
  ranges the precondition gives, the pads cut off again by the final slice); on the reference's side off its stages.
-/
import proofs.«420804_j4698694221866_1_alg».proof.Defs
import proofs.«420804_j4698694221866_1_alg».proof.Proof.Gen.Kernel
import proofs.«420804_j4698694221866_1_alg».proof.Proof.Gen.Kernel.Frame
import proofs.«420804_j4698694221866_1_alg».proof.Proof.Gen.KernelIdeal
import proofs.«420804_j4698694221866_1_alg».proof.Proof.Gen.KernelIdeal.Frame
import proofs.«420804_j4698694221866_1_alg».proof.Proof.Gen.ReferenceIdeal
import proofs.«420804_j4698694221866_1_alg».proof.Proof.RefRunHand
import proofs.«420804_j4698694221866_1_alg».proof.Proof.RefRead
import proofs.«420804_j4698694221866_1_alg».proof.Proof.Gen.Pre_finite_inputs
import proofs.«420804_j4698694221866_1_alg».proof.Proof.Spec
import proofs.«420804_j4698694221866_1_alg».proof.Proof.PadSlice
import proofs.«420804_j4698694221866_1_alg».proof.Proof.KernelRun
import proofs.«420804_j4698694221866_1_alg».proof.Proof.Fold
import proofs.«420804_j4698694221866_1_alg».proof.Proof.Fold2
import proofs.«420804_j4698694221866_1_alg».proof.Proof.PreRead
import proofs.«420804_j4698694221866_1_alg».proof.Proof.Arrays
import proofs.«420804_j4698694221866_1_alg».proof.Proof.RefValue

set_option maxRecDepth 16384

noncomputable section

open Idealize.ShloMosaic Idealize.ShloMosaic.TcCoe Idealize.SL.Sem

namespace Cert.KernelIdeal.Results

open Cert.KernelIdeal Cert.KernelIdeal.Gen Cert.KernelIdeal.Fold
open Cert.Spec

variable (m : (ℓ : Loc nD τ sig) → Buf (Elt Ideal) ℓ) (ρ : Dev nD → PrngReg)

/-- The grid result as a function of the arguments. -/
def gridRes (c : Dev nD) : Mat 524288 128 :=
  gridOut (M := 524288) (m ((c : Thread nD τ).loc main_arg1)) (m ((c : Thread nD τ).loc main_arg11)) (vec (m ((c : Thread nD τ).loc main_arg12))) (m ((c : Thread nD τ).loc main_arg13)) (vec (m ((c : Thread nD τ).loc main_arg14))) (vec (m ((c : Thread nD τ).loc main_arg15))) (vec (m ((c : Thread nD τ).loc main_arg16)))

/-- The edge features as a function of the arguments. -/
def edgeRes (c : Dev nD) : Mat 524288 128 :=
  edgeOut (M := 524288) (m ((c : Thread nD τ).loc main_arg0))
    (Host.gather gather_S524288x128_S524288x1_S524288x128_1_0_n_n_0_1_1128 (m ((c : Thread nD τ).loc main_arg1)) (srcIdx m c))
    (Host.gather gather_S40962x128_S524288x1_S524288x128_1_0_n_n_0_1_1128 (m ((c : Thread nD τ).loc main_arg2)) (dstIdx m c))
    (m ((c : Thread nD τ).loc main_arg5)) (vec (m ((c : Thread nD τ).loc main_arg6))) (m ((c : Thread nD τ).loc main_arg7)) (vec (m ((c : Thread nD τ).loc main_arg8))) (vec (m ((c : Thread nD τ).loc main_arg9))) (vec (m ((c : Thread nD τ).loc main_arg10)))

/-- The aggregate as a function of the arguments. -/
def aggRes (c : Dev nD) : Mat 40962 128 :=
  Host.scatterAdd scatter_S40962x128_S524288x1_S524288x128_1_0_0_1
    (broadcastInDim S40962x128 ![] bcast_S_S40962x128 (constant (F := Ideal) S_ .f32 0x00000000#32))
    (broadcastInDim S524288x1 ![0] bcast_S524288_S524288x1_0 (m ((c : Thread nD τ).loc main_arg4)))
    (edgeRes m c)

/-- The mesh result as a function of the arguments. -/
def meshRes (c : Dev nD) : Mat 40962 128 :=
  meshOut (M := 40962) (aggRes m c) (m ((c : Thread nD τ).loc main_arg2)) (m ((c : Thread nD τ).loc main_arg17)) (vec (m ((c : Thread nD τ).loc main_arg18))) (m ((c : Thread nD τ).loc main_arg19)) (vec (m ((c : Thread nD τ).loc main_arg20))) (vec (m ((c : Thread nD τ).loc main_arg21))) (vec (m ((c : Thread nD τ).loc main_arg22)))

/-- The grid call's result array is the grid function of the arguments. -/
theorem grid_eq (c : Dev nD) : (dat1 (F := Ideal) (V5 m ρ) c).arrAt 7 cfg1.N = gridRes m c :=
  (Cert.KernelIdeal.Arrays.grid_final (V5 m ρ) c).trans
    (gridOut_congr (V5_arg1 m ρ c) (V5_v4 m ρ c) (row1_eq (V5_v16 m ρ c)) (V5_v5 m ρ c) (row1_eq (V5_v17 m ρ c))
      (row1_eq (V5_v18 m ρ c)) (row1_eq (V5_v19 m ρ c)))

/-- The first result buffer ends at the grid function of the arguments. -/
theorem v20_eq (c : Dev nD) : W13 m ρ c (Proc.devRef .tc main_v20) = gridRes m c :=
  (W13_v20 m ρ c).trans (grid_eq m ρ c)

/-- The edge call's result array is the edge function of the arguments, the index ranges given. -/
theorem edge_eq (c : Dev nD) (h : InRange m c) : (dat0 (F := Ideal) (V3 m ρ) c).arrAt 9 cfg0.N = edgeRes m c :=
  (Cert.KernelIdeal.Arrays.edge_final (V3 m ρ) c).trans
    (edgeOut_congr (V3_arg0 m ρ c) (V3_v0 m ρ c h) (V3_v1 m ρ c h) (V3_v2 m ρ c) (row1_eq (V3_v8 m ρ c)) (V3_v3 m ρ c)
      (row1_eq (V3_v9 m ρ c)) (row1_eq (V3_v10 m ρ c)) (row1_eq (V3_v11 m ρ c)))

/-- The aggregate the mesh call reads is the aggregate of the edge function of the arguments. -/
theorem agg_eq (c : Dev nD) (h : InRange m c) : agg m ρ c = aggRes m c := by
  unfold agg aggRes
  rw [edge_eq m ρ c h]

/-- The mesh call's result array (on the padded arrays) is the mesh function of the padded aggregate and mesh array. -/
theorem mesh_padded_eq (c : Dev nD) :
    (dat2 (F := Ideal) (V11 m ρ) c).arrAt 8 cfg2.N
      = meshOut (M := 41984)
          (pad S41984x128 ![0, 0] ![1022, 0] ![0, 0] (agg m ρ c) (sitofp (F := Ideal) .f32 (constantI S_ 32 0#32))
            pads_S40962x128_S41984x128_010220_000 h_S_)
          (pad S41984x128 ![0, 0] ![1022, 0] ![0, 0] (m ((c : Thread nD τ).loc main_arg2)) (sitofp (F := Ideal) .f32 (constantI S_ 32 0#32))
            pads_S40962x128_S41984x128_010220_000 h_S_)
          (m ((c : Thread nD τ).loc main_arg17)) (vec (m ((c : Thread nD τ).loc main_arg18))) (m ((c : Thread nD τ).loc main_arg19)) (vec (m ((c : Thread nD τ).loc main_arg20))) (vec (m ((c : Thread nD τ).loc main_arg21))) (vec (m ((c : Thread nD τ).loc main_arg22))) :=
  (Cert.KernelIdeal.Arrays.mesh_final (V11 m ρ) c).trans
    (meshOut_congr (V11_v21 m ρ c) (V11_v22 m ρ c) (V11_v6 m ρ c) (row1_eq (V11_v23 m ρ c)) (V11_v7 m ρ c)
      (row1_eq (V11_v24 m ρ c)) (row1_eq (V11_v25 m ρ c)) (row1_eq (V11_v26 m ρ c)))

/-- The second result buffer ends at the mesh function of the arguments, the index ranges given. -/
theorem v28_eq (c : Dev nD) (h : InRange m c) : W13 m ρ c (Proc.devRef .tc main_v28) = meshRes m c :=
  (W13_v28 m ρ c).trans <|
    (congrArg (fun A : Mat 41984 128 => extractStridedSlice S40962x128 ![0, 0] A slices_S41984x128_S40962x128_0_0)
      (mesh_padded_eq m ρ c)).trans <|
    (slice_meshOut_pad (M := 40962) (M' := 41984) (d := 1022) (agg m ρ c) (m ((c : Thread nD τ).loc main_arg2))
      (sitofp (F := Ideal) .f32 (constantI S_ 32 0#32)) (m ((c : Thread nD τ).loc main_arg17)) (vec (m ((c : Thread nD τ).loc main_arg18))) (m ((c : Thread nD τ).loc main_arg19)) (vec (m ((c : Thread nD τ).loc main_arg20))) (vec (m ((c : Thread nD τ).loc main_arg21)))
      (vec (m ((c : Thread nD τ).loc main_arg22))) pads_S40962x128_S41984x128_010220_000 h_S_ slices_S41984x128_S40962x128_0_0 (by decide)).trans <|
    meshOut_congr (agg_eq m ρ c h) rfl rfl rfl rfl rfl rfl rfl

end Cert.KernelIdeal.Results

namespace Cert.Proof.Claims

open Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.HandRun.run (F := Ideal) m ρ)

theorem preserves : Cert.preserves_Kernel_KernelIdeal := trivial

/-- Both programs end with the grid function and the mesh function of the arguments in their two result buffers. -/
theorem algebraic : Cert.algebraic_KernelIdeal_ReferenceIdeal := by
  intro m ρ m' ρ' hpre hagree
  refine ⟨fun c => Cert.KernelIdeal.Results.gridRes m c, fun c => Cert.KernelIdeal.Results.meshRes m c, ?_, ?_⟩
  · refine (θ_run Cert.KernelIdeal.defs _ _).mono (fun r h c => ⟨(h c).1.trans ?_, (h c).2.1.trans ?_, (h c).2.2⟩)
      (Cert.KernelIdeal.Named.run_named (F := Ideal) m ρ)
    · exact Cert.KernelIdeal.Results.v20_eq m ρ c
    · exact Cert.KernelIdeal.Results.v28_eq m ρ c (Cert.KernelIdeal.PreRead.inRange_of_pre m hpre c)
  · refine (θ_run Cert.ReferenceIdeal.defs _ _).mono (fun r h c => ⟨(h c).1.trans ?_, (h c).2.1.trans ?_, (h c).2.2⟩)
      (Cert.ReferenceIdeal.HandRun.run (F := Ideal) m' ρ')
    · rw [Cert.ReferenceIdeal.RefValue.ref_grid]
      obtain ⟨e0, e1, e2, e3, e4, e5, e6, e7, e8, e9, e10, e11, e12, e13, e14, e15, e16, e17, e18, e19, e20, e21, e22⟩ := hagree c
      rw [e1, e11, e12, e13, e14, e15, e16]
      rfl
    · rw [Cert.ReferenceIdeal.RefValue.ref_mesh]
      unfold Cert.ReferenceIdeal.ReadP.val_main_v50
      rw [Cert.ReferenceIdeal.RefValue.ref_edge]
      obtain ⟨e0, e1, e2, e3, e4, e5, e6, e7, e8, e9, e10, e11, e12, e13, e14, e15, e16, e17, e18, e19, e20, e21, e22⟩ := hagree c
      rw [e0, e1, e2, e3, e4, e5, e6, e7, e8, e9, e10, e17, e18, e19, e20, e21, e22]
      rfl

end Cert.Proof.Claims

end
-- ==== Proof.lean ====
/-
  The certificate's claim. Three pallas_calls — a perceptron over the rows of the edge array joined with two gathered
  arrays, a perceptron with a residual over the rows of the grid array, and one over the rows of the aggregated edge
  features joined with the mesh array — compute, at the ideal values, the same two functions of the arguments as the plain
  reference: Proof/Spec.lean states them; Proof/Blocks.lean and Proof/Arrays.lean read them off the kernel bodies and the
  calls' write-backs, Proof/Fold.lean and Proof/Fold2.lean off the host operations between the calls (the gathers under
  the index ranges of the precondition, Proof/PreRead.lean), Proof/RefValue.lean off the reference's stages, and
  Proof/Claims.lean puts the two runs side by side. The frames are the generated ones; the idealization rewrote nothing.
-/
import proofs.«420804_j4698694221866_1_alg».proof.Defs
import proofs.«420804_j4698694221866_1_alg».proof.Proof.Gen.Kernel
import proofs.«420804_j4698694221866_1_alg».proof.Proof.Gen.Kernel.Skeleton
import proofs.«420804_j4698694221866_1_alg».proof.Proof.Gen.Kernel.Launch
import proofs.«420804_j4698694221866_1_alg».proof.Proof.Gen.Kernel.Points
import proofs.«420804_j4698694221866_1_alg».proof.Proof.Gen.Kernel.Frame
import proofs.«420804_j4698694221866_1_alg».proof.Proof.Gen.KernelIdeal
import proofs.«420804_j4698694221866_1_alg».proof.Proof.Gen.KernelIdeal.Skeleton
import proofs.«420804_j4698694221866_1_alg».proof.Proof.Gen.KernelIdeal.Launch
import proofs.«420804_j4698694221866_1_alg».proof.Proof.Gen.KernelIdeal.Points
import proofs.«420804_j4698694221866_1_alg».proof.Proof.Gen.KernelIdeal.Frame
import proofs.«420804_j4698694221866_1_alg».proof.Proof.Gen.ReferenceIdeal
import proofs.«420804_j4698694221866_1_alg».proof.Proof.Gen.Pre_finite_inputs
import proofs.«420804_j4698694221866_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
